-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x600000 32 := broadcastInDim S2x600000 ![] bcast_S_S2x600000 main_c_16
  let main_v45 : IVec S2x600000 1 := cmpi .sge main_arg1 main_v44
  let main_c_17 : IVec S_ 32 := constantI S_ 32 50000#32
  let main_v46 : IVec S2x600000 32 := broadcastInDim S2x600000 ![] bcast_S_S2x600000 main_c_17
  let main_v47 : IVec S2x600000 1 := cmpi .slt main_arg1 main_v46
  let main_v48 : IVec S2x600000 1 := andi main_v45 main_v47
  let main_c_18 : IVec S_ 1 := constantI S_ 1 1#1
  let main_v49 : IVec S_ 1 := (fun x v => Host.reduce IntOp.andi x v reducesTo_S2x600000_S_d0_1 h_S_) main_v48 main_c_18
  let main_v50 : IVec S_ 1 := andi main_v43 main_v49
  main_v50

def fn_part1 {F : FTy → Type} [FloatOps F] (main_arg1 : IVec S2x600000 32) (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S240 : Shape := ⟨1, ![240]⟩
abbrev S650240 : Shape := ⟨1, ![650240]⟩
abbrev S1x650240 : Shape := ⟨2, ![1, 650240]⟩
abbrev S50176x128 : Shape := ⟨2, ![50176, 128]⟩
abbrev S1024x128 : Shape := ⟨2, ![1024, 128]⟩
abbrev S1x256 : Shape := ⟨2, ![1, 256]⟩
abbrev S1024x256 : Shape := ⟨2, ![1024, 256]⟩
abbrev S128x256 : Shape := ⟨2, ![128, 256]⟩
abbrev S1x128 : Shape := ⟨2, ![1, 128]⟩
abbrev S50176 : Shape := ⟨1, ![50176]⟩
abbrev S50176x1 : Shape := ⟨2, ![50176, 1]⟩

abbrev nBuf : Space → Nat
  | .hbm => 73
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000, .f32⟩
  | .hbm, ⟨52, _⟩ => ⟨S650000, .f32⟩
  | .hbm, ⟨53, _⟩ => ⟨S_, .i32⟩
  | .hbm, ⟨54, _⟩ => ⟨S240, .i32⟩
  | .hbm, ⟨55, _⟩ => ⟨S650240, .i32⟩
  | .hbm, ⟨56, _⟩ => ⟨S_, .i32⟩
  | .hbm, ⟨57, _⟩ => ⟨S240, .i32⟩
  | .hbm, ⟨58, _⟩ => ⟨S650240, .i32⟩
  | .hbm, ⟨59, _⟩ => ⟨S_, .f32⟩
  | .hbm, ⟨60, _⟩ => ⟨S240, .f32⟩
  | .hbm, ⟨61, _⟩ => ⟨S650240, .f32⟩
  | .hbm, ⟨62, _⟩ => ⟨S1x650240, .i32⟩
  | .hbm, ⟨63, _⟩ => ⟨S1x650240, .i32⟩
  | .hbm, ⟨64, _⟩ => ⟨S1x650240, .f32⟩
  | .hbm, ⟨65, _⟩ => ⟨S_, .i32⟩
  | .hbm, ⟨66, _⟩ => ⟨S_, .f32⟩
  | .hbm, ⟨67, _⟩ => ⟨S50176x128, .f32⟩
  | .hbm, ⟨68, _⟩ => ⟨S50176x128, .bf16⟩
  | .hbm, ⟨69, _⟩ => ⟨S50176x128, .f32⟩
  | .hbm, ⟨70, _⟩ => ⟨S50176x128, .bf16⟩
  | .hbm, ⟨71, _⟩ => ⟨S50176x128, .f32⟩
  | .hbm, ⟨72, _⟩ => ⟨S50000x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S1x256, .i32⟩
  | .local _ .vmem, ⟨9, _⟩ => ⟨S1x256, .f32⟩
  | .local _ .vmem, ⟨10, _⟩ => ⟨S1x256, .f32⟩
  | .local _ .vmem, ⟨11, _⟩ => ⟨S50176x128, .bf16⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S50176x128, .f32⟩
  | .local _ .vmem, ⟨16, _⟩ => ⟨S1024x128, .f32⟩
  | .local _ .vmem, ⟨17, _⟩ => ⟨S1024x128, .f32⟩
  | .local _ .vmem, ⟨18, _⟩ => ⟨S128x128, .f32⟩
  | .local _ .vmem, ⟨19, _⟩ => ⟨S1024x128, .bf16⟩
  | .local _ .vmem, ⟨20, _⟩ => ⟨S1024x128, .bf16⟩
  | .local _ .vmem, ⟨21, _⟩ => ⟨S1x256, .i32⟩
  | .local _ .vmem, ⟨22, _⟩ => ⟨S1x256, .i32⟩
  | .local _ .vmem, ⟨23, _⟩ => ⟨S1x256, .i32⟩
  | .local _ .vmem, ⟨24, _⟩ => ⟨S1x256, .i32⟩
  | .local _ .vmem, ⟨25, _⟩ => ⟨S1x256, .f32⟩
  | .local _ .vmem, ⟨26, _⟩ => ⟨S1x256, .f32⟩
  | .local _ .vmem, ⟨27, _⟩ => ⟨S50176x128, .bf16⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S50176x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_call1_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2540], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50176x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S50176x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2540], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S50176x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S50176x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S240 : S_.BroadcastsInDim S240 (![] : Fin 0 → Fin S240.rank)
  concatenates_S650000_S240_S650240_d0 : Shape.Concatenates [S650000, S240] S650240 0
  shapeCasts_S650240_S1x650240 : S650240.ShapeCasts S1x650240
  pads_S50000x128_S50176x128_01760_000 : S50000x128.Pads (![0, 0] : Fin 2 → Nat) ![176, 0] ![0, 0] S50176x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S1024x128_S1024x128_0_0 : (Rect.unit (s := S1024x128) ![0, 0] S1024x128.size inb_S1024x128_S1024x128_0_0).PackedRows (EltTy.packing .bf16)
  inb_S50176x128_S50176x128_0_0 : ∀ a, (![0, 0] : Fin 2 → Nat) a + S50176x128.size a ≤ S50176x128.size a
  h_S50176x128 : 0 < S50176x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S1024x256_d0_w32 : S1024x256.Iotas .tc 32 [0]
  broadcasts_S1x256_S1024x256 : S1x256.Broadcasts S1024x256
  natLt_1_32 : 1 < 32
  inb_S50176x128_S1024x128_0_0 : ∀ a, (![0, 0] : Fin 2 → Nat) a + S1024x128.size a ≤ S50176x128.size a
  inb_S50176x128_S1024x128_1024_0 : ∀ a, (![1024, 0] : Fin 2 → Nat) a + S1024x128.size a ≤ S50176x128.size a
  inb_S50176x128_S1024x128_2048_0 : ∀ a, (![2048, 0] : Fin 2 → Nat) a + S1024x128.size a ≤ S50176x128.size a
  inb_S50176x128_S1024x128_3072_0 : ∀ a, (![3072, 0] : Fin 2 → Nat) a + S1024x128.size a ≤ S50176x128.size a
  inb_S50176x128_S1024x128_4096_0 : ∀ a, (![4096, 0] : Fin 2 → Nat) a + S1024x128.size a ≤ S50176x128.size a
  inb_S50176x128_S1024x128_5120_0 : ∀ a, (![5120, 0] : Fin 2 → Nat) a + S1024x128.size a ≤ S50176x128.size a
  inb_S50176x128_S1024x128_6144_0 : ∀ a, (![6144, 0] : Fin 2 → Nat) a + S1024x128.size a ≤ S50176x128.size a
  inb_S50176x128_S1024x128_7168_0 : ∀ a, (![7168, 0] : Fin 2 → Nat) a + S1024x128.size a ≤ S50176x128.size a
  inb_S50176x128_S1024x128_8192_0 : ∀ a, (![8192, 0] : Fin 2 → Nat) a + S1024x128.size a ≤ S50176x128.size a
  inb_S50176x128_S1024x128_9216_0 : ∀ a, (![9216, 0] : Fin 2 → Nat) a + S1024x128.size a ≤ S50176x128.size a
  inb_S50176x128_S1024x128_10240_0 : ∀ a, (![10240, 0] : Fin 2 → Nat) a + S1024x128.size a ≤ S50176x128.size a
  inb_S50176x128_S1024x128_11264_0 : ∀ a, (![11264, 0] : Fin 2 → Nat) a + S1024x128.size a ≤ S50176x128.size a
  inb_S50176x128_S1024x128_12288_0 : ∀ a, (![12288, 0] : Fin 2 → Nat) a + S1024x128.size a ≤ S50176x128.size a
  inb_S50176x128_S1024x128_13312_0 : ∀ a, (![13312, 0] : Fin 2 → Nat) a + S1024x128.size a ≤ S50176x128.size a
  inb_S50176x128_S1024x128_14336_0 : ∀ a, (![14336, 0] : Fin 2 → Nat) a + S1024x128.size a ≤ S50176x128.size a
  inb_S50176x128_S1024x128_15360_0 : ∀ a, (![15360, 0] : Fin 2 → Nat) a + S1024x128.size a ≤ S50176x128.size a
  inb_S50176x128_S1024x128_16384_0 : ∀ a, (![16384, 0] : Fin 2 → Nat) a + S1024x128.size a ≤ S50176x128.size a
  inb_S50176x128_S1024x128_17408_0 : ∀ a, (![17408, 0] : Fin 2 → Nat) a + S1024x128.size a ≤ S50176x128.size a
  inb_S50176x128_S1024x128_18432_0 : ∀ a, (![18432, 0] : Fin 2 → Nat) a + S1024x128.size a ≤ S50176x128.size a
  inb_S50176x128_S1024x128_19456_0 : ∀ a, (![19456, 0] : Fin 2 → Nat) a + S1024x128.size a ≤ S50176x128.size a
  inb_S50176x128_S1024x128_20480_0 : ∀ a, (![20480, 0] : Fin 2 → Nat) a + S1024x128.size a ≤ S50176x128.size a
  inb_S50176x128_S1024x128_21504_0 : ∀ a, (![21504, 0] : Fin 2 → Nat) a + S1024x128.size a ≤ S50176x128.size a
  inb_S50176x128_S1024x128_22528_0 : ∀ a, (![22528, 0] : Fin 2 → Nat) a + S1024x128.size a ≤ S50176x128.size a
  inb_S50176x128_S1024x128_23552_0 : ∀ a, (![23552, 0] : Fin 2 → Nat) a + S1024x128.size a ≤ S50176x128.size a
  inb_S50176x128_S1024x128_24576_0 : ∀ a, (![24576, 0] : Fin 2 → Nat) a + S1024x128.size a ≤ S50176x128.size a
  inb_S50176x128_S1024x128_25600_0 : ∀ a, (![25600, 0] : Fin 2 → Nat) a + S1024x128.size a ≤ S50176x128.size a
  inb_S50176x128_S1024x128_26624_0 : ∀ a, (![26624, 0] : Fin 2 → Nat) a + S1024x128.size a ≤ S50176x128.size a
  inb_S50176x128_S1024x128_27648_0 : ∀ a, (![27648, 0] : Fin 2 → Nat) a + S1024x128.size a ≤ S50176x128.size a
  inb_S50176x128_S1024x128_28672_0 : ∀ a, (![28672, 0] : Fin 2 → Nat) a + S1024x128.size a ≤ S50176x128.size a
  inb_S50176x128_S1024x128_29696_0 : ∀ a, (![29696, 0] : Fin 2 → Nat) a + S1024x128.size a ≤ S50176x128.size a
  inb_S50176x128_S1024x128_30720_0 : ∀ a, (![30720, 0] : Fin 2 → Nat) a + S1024x128.size a ≤ S50176x128.size a
  inb_S50176x128_S1024x128_31744_0 : ∀ a, (![31744, 0] : Fin 2 → Nat) a + S1024x128.size a ≤ S50176x128.size a
  inb_S50176x128_S1024x128_32768_0 : ∀ a, (![32768, 0] : Fin 2 → Nat) a + S1024x128.size a ≤ S50176x128.size a
  inb_S50176x128_S1024x128_33792_0 : ∀ a, (![33792, 0] : Fin 2 → Nat) a + S1024x128.size a ≤ S50176x128.size a
  inb_S50176x128_S1024x128_34816_0 : ∀ a, (![34816, 0] : Fin 2 → Nat) a + S1024x128.size a ≤ S50176x128.size a
  inb_S50176x128_S1024x128_35840_0 : ∀ a, (![35840, 0] : Fin 2 → Nat) a + S1024x128.size a ≤ S50176x128.size a
  inb_S50176x128_S1024x128_36864_0 : ∀ a, (![36864, 0] : Fin 2 → Nat) a + S1024x128.size a ≤ S50176x128.size a
  inb_S50176x128_S1024x128_37888_0 : ∀ a, (![37888, 0] : Fin 2 → Nat) a + S1024x128.size a ≤ S50176x128.size a
  inb_S50176x128_S1024x128_38912_0 : ∀ a, (![38912, 0] : Fin 2 → Nat) a + S1024x128.size a ≤ S50176x128.size a
  inb_S50176x128_S1024x128_39936_0 : ∀ a, (![39936, 0] : Fin 2 → Nat) a + S1024x128.size a ≤ S50176x128.size a
  inb_S50176x128_S1024x128_40960_0 : ∀ a, (![40960, 0] : Fin 2 → Nat) a + S1024x128.size a ≤ S50176x128.size a
  inb_S50176x128_S1024x128_41984_0 : ∀ a, (![41984, 0] : Fin 2 → Nat) a + S1024x128.size a ≤ S50176x128.size a
  inb_S50176x128_S1024x128_43008_0 : ∀ a, (![43008, 0] : Fin 2 → Nat) a + S1024x128.size a ≤ S50176x128.size a
  inb_S50176x128_S1024x128_44032_0 : ∀ a, (![44032, 0] : Fin 2 → Nat) a + S1024x128.size a ≤ S50176x128.size a
  inb_S50176x128_S1024x128_45056_0 : ∀ a, (![45056, 0] : Fin 2 → Nat) a + S1024x128.size a ≤ S50176x128.size a
  inb_S50176x128_S1024x128_46080_0 : ∀ a, (![46080, 0] : Fin 2 → Nat) a + S1024x128.size a ≤ S50176x128.size a
  inb_S50176x128_S1024x128_47104_0 : ∀ a, (![47104, 0] : Fin 2 → Nat) a + S1024x128.size a ≤ S50176x128.size a
  inb_S50176x128_S1024x128_48128_0 : ∀ a, (![48128, 0] : Fin 2 → Nat) a + S1024x128.size a ≤ S50176x128.size a
  inb_S50176x128_S1024x128_49152_0 : ∀ a, (![49152, 0] : Fin 2 → Nat) a + S1024x128.size a ≤ S50176x128.size a
  broadcasts_S1x256_S128x256 : S1x256.Broadcasts S128x256
  shapeCasts_S50176x128_S50176x128 : S50176x128.ShapeCasts S50176x128
  inb_S128_S128_0 : ∀ a, (![0] : Fin 1 → Nat) a + S128.size a ≤ S128.size a
  h_S128 : 0 < S128.numel
  shapeCasts_S128_S1x128 : S128.ShapeCasts S1x128
  broadcasts_S1x128_S50176x128 : S1x128.Broadcasts S50176x128
  reduces_S50176x128_S50176 : S50176x128.Reduces [1] S50176
  shapeCasts_S50176_S50176x1 : S50176.ShapeCasts S50176x1
  broadcasts_S50176x1_S50176x128 : S50176x1.Broadcasts S50176x128
  slices_S50176x128_S50000x128_0_0 : S50176x128.Slices ![0, 0] S50000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S1024x128_S128x128_S1024x128_1_0_0_1_n_n_wf : DotDims.WF S1024x128 S128x128 S1024x128 [1] [0] [0] [1] [] []
  dot_S1024x128_S1024x256_S128x256_0_0_1_1_n_n_wf : DotDims.WF S1024x128 S1024x256 S128x256 [0] [0] [1] [1] [] []
  dot_S1024x256_S128x256_S1024x128_1_1_0_0_n_n_wf : DotDims.WF S1024x256 S128x256 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .bf16 = 32 ∨ (Rect.block (s := S50176x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x650240.size a
  hwx1_0 : ∀ i : grid1.Coords, EltTy.bits .i32 = 32 ∨ (Rect.block (s := S1x650240) S1x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x650240.size a
  hwx1_1 : ∀ i : grid1.Coords, EltTy.bits .i32 = 32 ∨ (Rect.block (s := S1x650240) S1x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x650240.size a
  hwx1_2 : ∀ i : grid1.Coords, EltTy.bits .f32 = 32 ∨ (Rect.block (s := S1x650240) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50176x128.size a ≤ S50176x128.size a
  hwx1_3 : ∀ i : grid1.Coords, EltTy.bits .bf16 = 32 ∨ (Rect.block (s := S50176x128) S50176x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S50176x128.size a ≤ S50176x128.size a
  hwx1_7 : ∀ i : grid1.Coords, EltTy.bits .f32 = 32 ∨ (Rect.block (s := S50176x128) S50176x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S50176x128.size a
  hwx2_0 : ∀ i : grid2.Coords, EltTy.bits .f32 = 32 ∨ (Rect.block (s := S50176x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .bf16 = 32 ∨ (Rect.block (s := S50176x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256.size a ≤ S1x650240.size a
  hwx3_0 : ∀ i : grid3.Coords, EltTy.bits .i32 = 32 ∨ (Rect.block (s := S1x650240) S1x256.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x650240.size a
  hwx3_1 : ∀ i : grid3.Coords, EltTy.bits .i32 = 32 ∨ (Rect.block (s := S1x650240) S1x256.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x650240.size a
  hwx3_2 : ∀ i : grid3.Coords, EltTy.bits .f32 = 32 ∨ (Rect.block (s := S1x650240) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S50176x128.size a ≤ S50176x128.size a
  hwx3_3 : ∀ i : grid3.Coords, EltTy.bits .bf16 = 32 ∨ (Rect.block (s := S50176x128) S50176x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S50176x128.size a ≤ S50176x128.size a
  hwx3_7 : ∀ i : grid3.Coords, EltTy.bits .f32 = 32 ∨ (Rect.block (s := S50176x128) S50176x128.size (cc3_transform_7 i) (hinb3_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf
def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf

abbrev win0_0 : Pipeline.Window sig grid0 :=
  Pipeline.Window.ofSpec (Memref.whole main_v41) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S50176x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S50176x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S1x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S50176x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v45) S50176x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x1 : Shape := ⟨2, ![50000, 1]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S50000, .i32⟩
  | 11 => ⟨S1x600000, .i32⟩
  | 12 => ⟨S600000, .i32⟩
  | 13 => ⟨S650000, .i32⟩
  | 14 => ⟨S1x600000, .i32⟩
  | 15 => ⟨S600000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S650000, .f32⟩
  | 53 => ⟨S50000x128, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x128, .f32⟩
  | 63 => ⟨S650000x1, .f32⟩
  | 64 => ⟨S650000x128, .f32⟩
  | 65 => ⟨S650000x128, .f32⟩
  | 66 => ⟨S_, .f32⟩
  | 67 => ⟨S50000x128, .f32⟩
  | 68 => ⟨S650000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x128, .f32⟩
  | 80 => ⟨S50000x128, .f32⟩
  | 81 => ⟨S50000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S_, .f32⟩
  | 91 => ⟨S50000x1, .f32⟩
  | 92 => ⟨S50000x1, .f32⟩
  | 93 => ⟨S50000x1, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000x128, .f32⟩
  | 115 => ⟨S650000x1, .f32⟩
  | 116 => ⟨S650000x128, .f32⟩
  | 117 => ⟨S650000x128, .f32⟩
  | 118 => ⟨S_, .f32⟩
  | 119 => ⟨S50000x128, .f32⟩
  | 120 => ⟨S650000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S50000x128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S_, .f32⟩
  | 15 => ⟨S50000x1, .f32⟩
  | 16 => ⟨S50000x1, .f32⟩
  | 17 => ⟨S50000x1, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call1_cst : Ref sig .tc := ⟨.hbm, 102, rfl⟩
abbrev main_call1_v0 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_22 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.LibRows.lean ====
/-
  Gathers and scatter-adds along the leading axis, read at an index, on the extended reals.

  `x[idx]` for a matrix `x : [N, C]` (or a vector `x : [N]`) and a column of indices `idx : [R, 1]` lowers to a gather
  with collapsed_slice_dims [0], start_index_map [0], index_vector_dim 1 (offset_dims [1] and slice sizes [1, C] for the
  matrix; no offset dims and slice sizes [1] for the vector): result row `r` is the operand's row at `idx[r, 0]` read
  as a signed integer and clamped into [0, N − 1]. The matching scatter-add (inserted_window_dims [0],
  scatter_dims_to_operand_dims [0], index_vector_dim 1; update_window_dims [1] for the matrix, none for the vector) adds
  update row `r` onto operand row `idx[r, 0]`, read signed and NOT clamped, and drops it when that is no row.
  Before a gather jnp wraps a negative index once by the axis size: `select (v < 0) (v + n) v`.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- A matrix, a vector and a column of index words, as the host operations see them. -/
abbrev Arr2 (N C : Nat) : Type := (⟨2, ![N, C]⟩ : Shape).Idx → EReal
abbrev Arr1 (N : Nat) : Type := (⟨1, ![N]⟩ : Shape).Idx → EReal
abbrev IdxCol (R : Nat) : Type := (⟨2, ![R, 1]⟩ : Shape).Idx → BitVec 32

/-- A signed index word clamped to a row of an axis of `N` rows. -/
def clampRow {N : Nat} (hN : 0 < N) (w : BitVec 32) : Fin N := ⟨min w.toInt.toNat (N - 1), by omega⟩

/-- jnp's wrap of a negative index, once, by the axis size. -/
def wrapN (n : Nat) (v : BitVec 32) : BitVec 32 := if v.toInt < 0 then v + BitVec.ofNat 32 n else v

/-- The dimension numbers of a row gather; their conditions `wf` are decided on a program's literal shapes. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of an entry gather from a vector. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of a row scatter. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The dimension numbers of an entry scatter into a vector. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- THE ROW GATHER READ AT AN INDEX: row `clamp (idx[r, 0])` of the operand. -/
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

/-- THE ENTRY GATHER READ AT AN INDEX: entry `clamp (idx[r, 0])` of the operand. -/
theorem gather_vec_apply {N R : Nat} (hN : 0 < N)
    (wf : GatherDims.WF ⟨1, ![N]⟩ ⟨2, ![R, 1]⟩ ⟨1, ![R]⟩ [] [0] [] [0] [] 1 ![1])
    (x : Arr1 N) (idx : IdxCol R) (r : Fin R) :
    Host.gather (vecGatherDims N R wf) x idx (ix1 r) = x (ix1 (clampRow hN (idx (ix2 r 0)))) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The start of update `(k, b)`'s window: on the row axis the index of row `k`, read signed; on the column axis zero. -/
theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- On the column axis the window of an update starts at zero. -/
theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

/-- The window coordinate of update `(k, b)`: zero on the row axis, `b` on the column axis. -/
theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

/-- On the column axis the window coordinate of update `(k, b)` is `b`. -/
theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

/-- Update `(k, b)` lands on `(v, j)` exactly when row `k`'s index, read signed, is `v` and `b` is `j`. -/
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

/-- THE ROW SCATTER-ADD READ AT AN INDEX: the operand's entry plus the sum of the update entries of the same column in
    the rows whose index, read signed, is this row. -/
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

/-- A sum over a vector's indices is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The start of update `k`'s window in a vector: the index of row `k`, read signed. -/
theorem start_vec {N R : Nat} (wf : ScatterDims.WF ⟨1, ![N]⟩ ⟨2, ![R, 1]⟩ ⟨1, ![R]⟩ [] [0] [0] 1)
    (idx : IdxCol R) (k : Fin R) :
    (vecScatterDims N R wf).start (ix1 k) idx 0 = (idx (ix2 k 0)).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- An entry update has no window: its window coordinate is zero. -/
theorem window_vec {N R : Nat} (wf : ScatterDims.WF ⟨1, ![N]⟩ ⟨2, ![R, 1]⟩ ⟨1, ![R]⟩ [] [0] [0] 1)
    (k : Fin R) : (vecScatterDims N R wf).window (ix1 k) 0 = 0 := by
  unfold ScatterDims.window
  rw [dif_neg (show (0 : Fin 1) ∉ (vecScatterDims N R wf).sKept by
    simp [ScatterDims.sKept, Shape.kept, List.mem_filter])]

/-- Update `k` lands on entry `v` exactly when row `k`'s index, read signed, is `v`. -/
theorem resultIdx_vec {N R : Nat} (wf : ScatterDims.WF ⟨1, ![N]⟩ ⟨2, ![R, 1]⟩ ⟨1, ![R]⟩ [] [0] [0] 1)
    (idx : IdxCol R) (k : Fin R) (v : Fin N) :
    ((vecScatterDims N R wf).resultIdx? (ix1 k) idx = some (ix1 v)) ↔ (idx (ix2 k 0)).toInt = (v.val : Int) := by
  have hv : v.val < N := v.isLt
  unfold ScatterDims.resultIdx?
  split
  · rename_i h
    rw [Option.some.injEq]
    constructor
    · intro hf
      have h0 : ((vecScatterDims N R wf).start (ix1 k) idx 0
          + ((vecScatterDims N R wf).window (ix1 k) 0 : Nat)).toNat = v.val := congrArg (fun f => (f 0).val) hf
      have g0 := (h 0).1
      simp only [start_vec, window_vec] at h0 g0
      omega
    · intro h0
      funext a
      obtain rfl : a = 0 := Subsingleton.elim _ _
      refine Fin.ext ?_
      show ((vecScatterDims N R wf).start (ix1 k) idx 0 + ((vecScatterDims N R wf).window (ix1 k) 0 : Nat)).toNat = v.val
      rw [start_vec, window_vec]
      omega
  · rename_i h
    constructor
    · intro hf
      exact absurd hf (by simp)
    · intro h0
      exfalso
      apply h
      intro a
      obtain rfl : a = 0 := Subsingleton.elim _ _
      show 0 ≤ (vecScatterDims N R wf).start (ix1 k) idx 0 + ((vecScatterDims N R wf).window (ix1 k) 0 : Nat)
        ∧ (vecScatterDims N R wf).start (ix1 k) idx 0 + ((vecScatterDims N R wf).window (ix1 k) 0 : Nat) < (N : Int)
      rw [start_vec, window_vec]
      omega

/-- THE ENTRY SCATTER-ADD READ AT AN INDEX. -/
theorem scatterAdd_vec_apply {N R : Nat} (wf : ScatterDims.WF ⟨1, ![N]⟩ ⟨2, ![R, 1]⟩ ⟨1, ![R]⟩ [] [0] [0] 1)
    (x : Arr1 N) (idx : IdxCol R) (u : Arr1 R) (v : Fin N) :
    Host.scatterAdd (F := Ideal) (φ := .f32) (vecScatterDims N R wf) x idx u (ix1 v)
      = x (ix1 v) + ∑ e : Fin R, if (idx (ix2 e 0)).toInt = (v.val : Int) then u (ix1 e) else 0 := by
  show x (ix1 v) + ∑ q ∈ Finset.univ.filter (fun q => (vecScatterDims N R wf).resultIdx? q idx = some (ix1 v)), u q
    = x (ix1 v) + ∑ e : Fin R, if (idx (ix2 e 0)).toInt = (v.val : Int) then u (ix1 e) else 0
  congr 1
  rw [Finset.sum_filter, sum_idx1]
  refine Finset.sum_congr rfl fun k _ => ?_
  simp only [resultIdx_vec wf idx k v]

/-- jnp's negative-index wrap, one word: `select (v < 0) (v + n) v`. -/
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

/-- A word that, read signed, is a row reads as that row after the wrap and the clamp. -/
theorem clamp_wrap_of_toInt {N : Nat} (hN : 0 < N) (w : BitVec 32) (v : Fin N) (h : w.toInt = (v.val : Int)) :
    clampRow hN (wrapN N w) = v := by
  have hv : v.val < N := v.isLt
  have hw : wrapN N w = w := by
    unfold wrapN
    rw [if_neg (by omega)]
  rw [hw]
  refine Fin.ext ?_
  show min w.toInt.toNat (N - 1) = v.val
  rw [h, Int.toNat_natCast]
  omega

end Cert.LibRows

end
-- ==== Proof.Spec.lean ====
/-
  The two-layer graph convolution, entry by entry, on the extended reals.

  Nodes are numbered 0 … 49999, each with 128 features. An edge list of E entries gives for each entry a source word, a
  destination word (32-bit, read signed) and a weight. One layer:
    h      = x · W                                   (128 × 128 weights)
    a[v]   = Σ over the entries e whose destination is v of  h[source e] · weight e
    y[v]   = a[v] + b
    out[v] = layer norm of the row y[v] over its 128 features, times g, plus beta   (then max with 0 after the first layer)
  The mean of a row is its sum divided by 128; the variance the mean of the squared deviations; the scale is the reciprocal
  square root of the variance plus the constant the programs carry (the float nearest 1e-5).
-/
import Idealize.ShloMosaic.PureOps.Ideal
import Idealize.ShloMosaic.PureOps.Ideal.Laws
import Idealize.ShloMosaic.Lib.ValueIdx
import proofs.«421162_j50672024158728_1_alg».proof.Proof.LibRows

noncomputable section

namespace Cert.Spec

open Idealize.ShloMosaic

/-- A row of 128 features. -/
abbrev Row : Type := Fin 128 → EReal

/-- The product of a feature matrix with a 128 × 128 weight matrix, at row `r` and column `j`. -/
def lin {N : Nat} (x : Fin N → Row) (W : Fin 128 → Row) (r : Fin N) : Row := fun j => ∑ k : Fin 128, x r k * W k j

/-- The mean of a row: its sum over 128. -/
def mean (y : Row) : EReal := Ideal.div (∑ k : Fin 128, y k) (Ideal.ofBits .f32 0x43000000#32)

/-- The variance of a row: the mean of the squared deviations from the mean. -/
def var (y : Row) : EReal := mean fun k => (y k - mean y) * (y k - mean y)

/-- The layer norm of a row, scaled by `g` and shifted by `beta`. -/
def lnRow (y g beta : Row) : Row := fun j =>
  (y j - mean y) * Ideal.rsqrt (var y + Ideal.ofBits .f32 0x3727C5AC#32) * g j + beta j

/-- The same, followed by the maximum with zero. -/
def lnReluRow (y g beta : Row) : Row := fun j => max (lnRow y g beta j) (Ideal.ofBits .f32 0x00000000#32)

/-- The aggregation of the rows of `h` over an edge list: at node `v` the sum, over the entries whose destination word
    read signed is `v`, of the source's row times the entry's weight. `srow e` is the row an entry reads. -/
def agg {N E : Nat} (h : Fin N → Row) (srow : Fin E → Fin N) (dst : Fin E → BitVec 32) (wt : Fin E → EReal) (v : Fin N) : Row :=
  fun j => ∑ e : Fin E, if (dst e).toInt = (v.val : Int) then h (srow e) j * wt e else 0

/-- The row an entry reads: its source word, wrapped once if negative and clamped into the 50000 nodes. -/
def srow {E : Nat} (src : Fin E → BitVec 32) (e : Fin E) : Fin 50000 :=
  Cert.LibRows.clampRow (by norm_num : 0 < 50000) (Cert.LibRows.wrapN 50000 (src e))

/-- The row of a layer before its layer norm: the aggregated products plus the bias. -/
def pre {E : Nat} (x : Fin 50000 → Row) (W : Fin 128 → Row) (b : Row)
    (src dst : Fin E → BitVec 32) (wt : Fin E → EReal) (v : Fin 50000) : Row :=
  fun k => agg (lin x W) (srow src) dst wt v k + b k

/-- The first layer's output row: layer norm, then the maximum with zero. -/
def layer1 {E : Nat} (x : Fin 50000 → Row) (W : Fin 128 → Row) (b g beta : Row) (src dst : Fin E → BitVec 32) (wt : Fin E → EReal) (v : Fin 50000) : Row :=
  lnReluRow (pre x W b src dst wt v) g beta

/-- The network's output row at node `v`: the second layer, with no maximum, over the first layer's rows. -/
def out {E : Nat} (x : Fin 50000 → Row) (W1 : Fin 128 → Row) (b1 g1 beta1 : Row) (W2 : Fin 128 → Row) (b2 g2 beta2 : Row)
    (src dst : Fin E → BitVec 32) (wt : Fin E → EReal) (v : Fin 50000) : Row :=
  lnRow (pre (layer1 x W1 b1 g1 beta1 src dst wt) W2 b2 src dst wt v) g2 beta2

end Cert.Spec

end
-- ==== Proof.RefValue.lean ====
/-
  The reference program's result, entry by entry: the two-layer graph convolution of `Cert.Spec.out` over the edge list
  the program itself builds (the given entries followed by one self-loop per node) and its own edge weights.
-/
import proofs.«421162_j50672024158728_1_alg».proof.Proof.RefRead
import proofs.«421162_j50672024158728_1_alg».proof.Proof.Spec
import proofs.«421162_j50672024158728_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.ReferenceIdeal.ReadP

/-- The source word, destination word and weight of entry `e` of the edge list (650000 entries), as the reference computes them
    from the [2, 600000] index array. -/
def srcW (x1 : (⟨S2x600000, .i32⟩ : BufTy).Contents (Elt Ideal)) (e : Fin 650000) : BitVec 32 := val_main_v3 (F := Ideal) x1 (ix1 e)
def dstW (x1 : (⟨S2x600000, .i32⟩ : BufTy).Contents (Elt Ideal)) (e : Fin 650000) : BitVec 32 := val_main_v6 (F := Ideal) x1 (ix1 e)
def wtOf (x1 : (⟨S2x600000, .i32⟩ : BufTy).Contents (Elt Ideal)) (e : Fin 650000) : EReal := val_main_v31 (F := Ideal) x1 (ix1 e)

/-- The argument types of the reference program, at the extended reals. -/
abbrev Mat : Type := (⟨S50000x128, .f32⟩ : BufTy).Contents (Elt Ideal)
abbrev Edges : Type := (⟨S2x600000, .i32⟩ : BufTy).Contents (Elt Ideal)
abbrev Wts : Type := (⟨S128x128, .f32⟩ : BufTy).Contents (Elt Ideal)
abbrev Vec : Type := (⟨S128, .f32⟩ : BufTy).Contents (Elt Ideal)

/-- A feature matrix, a weight matrix and a parameter vector, by coordinates. -/
abbrev mat (x : Mat) : Fin 50000 → Cert.Spec.Row := fun r k => x (ix2 r k)
abbrev wmat (x : Wts) : Fin 128 → Cert.Spec.Row := fun a k => x (ix2 a k)
abbrev vec (x : Vec) : Cert.Spec.Row := fun k => x (ix1 k)

/-- Two indices of rank one (rank two) are equal when their coordinates are. -/
local macro "idx1" : tactic => `(tactic| (funext a; refine Fin.ext ?_; match a with | ⟨0, _⟩ => rfl))
local macro "idx2" : tactic => `(tactic| (funext a; refine Fin.ext ?_; match a with | ⟨0, _⟩ => rfl | ⟨1, _⟩ => rfl))

/-- Row gathers and row scatter-adds of the reference are those of the library lemmas: the printed dimension numbers are
    the row gather's and the row scatter's. -/
theorem gatherDims_eq : gather_S50000x128_S650000x1_S650000x128_1_0_n_n_0_1_1128
    = Cert.LibRows.rowGatherDims 50000 128 650000 gather_S50000x128_S650000x1_S650000x128_1_0_n_n_0_1_1128_wf := rfl
theorem scatterDims_eq : scatter_S50000x128_S650000x1_S650000x128_1_0_0_1
    = Cert.LibRows.rowScatterDims 50000 128 650000 scatter_S50000x128_S650000x1_S650000x128_1_0_0_1_wf := rfl

/-- ONE AGGREGATION, generic in its operands: rows `h` gathered at the wrapped source words, each multiplied by its
    entry's weight, scatter-added onto zeros at the destination words, plus a bias row, is `agg … + b`. -/
theorem agg_core (h : Cert.LibRows.Arr2 50000 128) (idxS idxD : Cert.LibRows.IdxCol 650000)
    (wt2 : Cert.LibRows.Arr2 650000 128) (z bias : Cert.LibRows.Arr2 50000 128)
    (hx : Fin 50000 → Cert.Spec.Row) (src dst : Fin 650000 → BitVec 32) (wt : Fin 650000 → EReal) (b : Cert.Spec.Row)
    (hH : ∀ r k, h (ix2 r k) = hx r k) (hS : ∀ e, idxS (ix2 e 0) = Cert.LibRows.wrapN 50000 (src e))
    (hD : ∀ e, idxD (ix2 e 0) = dst e) (hW : ∀ e k, wt2 (ix2 e k) = wt e) (hZ : ∀ v k, z (ix2 v k) = 0)
    (hB : ∀ v k, bias (ix2 v k) = b k) (v : Fin 50000) (k : Fin 128) :
    addf (F := Ideal) (φ := .f32)
        (Host.scatterAdd scatter_S50000x128_S650000x1_S650000x128_1_0_0_1 z idxD
          (mulf (F := Ideal) (φ := .f32) (Host.gather gather_S50000x128_S650000x1_S650000x128_1_0_n_n_0_1_1128 h idxS) wt2))
        bias (ix2 v k)
      = Cert.Spec.agg hx (Cert.Spec.srow src) dst wt v k + b k := by
  rw [addf_apply, hB, scatterDims_eq, Cert.LibRows.scatterAdd_rows_apply, hZ, zero_add]
  unfold Cert.Spec.agg
  refine congrArg (fun t => t + b k) (Finset.sum_congr rfl fun e _ => ?_)
  rw [hD, mulf_apply, hW, gatherDims_eq, Cert.LibRows.gather_rows_apply (by norm_num : 0 < 50000), hS, hH]
  rfl

section
variable (x0 : Mat) (x1 : Edges) (x2 : Wts) (x3 x4 x5 : Vec) (x6 : Wts) (x7 x8 x9 : Vec)

/-! ## The edge list's columns: wrapped source words, destination words, weights (shared by the two layers) -/

/-- The gather's index column of the first layer: the source word, wrapped once if negative. -/
theorem v38_at (e : Fin 650000) :
    val_main_v38 (F := Ideal) x1 (ix2 e 0) = Cert.LibRows.wrapN 50000 (srcW x1 e) := by
  rw [val_main_v38_apply, show idx_main_v38 (ix2 e (0 : Fin 1)) = ix1 e from by idx1,
    val_main_v37_apply, val_main_v34_apply, val_main_v36_apply, val_main_v33_apply, val_main_v35_apply,
    val_main_c_7_apply, val_main_c_8_apply]
  exact Cert.LibRows.wrap_word 50000 _

/-- The scatter's index column of the first layer: the destination word, as it is. -/
theorem v44_at (e : Fin 650000) : val_main_v44 (F := Ideal) x1 (ix2 e 0) = dstW x1 e := by
  show _ = val_main_v6 (F := Ideal) x1 (ix1 e)
  rw [val_main_v44_apply, show idx_main_v44 (ix2 e (0 : Fin 1)) = ix1 e from by idx1]

/-- The weight of an entry, repeated along the 128 features (first layer). -/
theorem v41_at (e : Fin 650000) (k : Fin 128) : val_main_v41 (F := Ideal) x1 (ix2 e k) = wtOf x1 e := by
  show _ = val_main_v31 (F := Ideal) x1 (ix1 e)
  rw [val_main_v41_apply, val_main_v40_apply, show idx_main_v40 (idx_main_v41 (ix2 e k)) = ix1 e from by idx1]

/-- The same three columns as the second layer builds them again. -/
theorem v80_at (e : Fin 650000) :
    val_main_v80 (F := Ideal) x1 (ix2 e 0) = Cert.LibRows.wrapN 50000 (srcW x1 e) := by
  rw [val_main_v80_apply, show idx_main_v80 (ix2 e (0 : Fin 1)) = ix1 e from by idx1,
    val_main_v79_apply, val_main_v76_apply, val_main_v78_apply, val_main_v75_apply, val_main_v77_apply,
    val_main_c_15_apply, val_main_c_16_apply]
  exact Cert.LibRows.wrap_word 50000 _

theorem v86_at (e : Fin 650000) : val_main_v86 (F := Ideal) x1 (ix2 e 0) = dstW x1 e := by
  show _ = val_main_v6 (F := Ideal) x1 (ix1 e)
  rw [val_main_v86_apply, show idx_main_v86 (ix2 e (0 : Fin 1)) = ix1 e from by idx1]

theorem v83_at (e : Fin 650000) (k : Fin 128) : val_main_v83 (F := Ideal) x1 (ix2 e k) = wtOf x1 e := by
  show _ = val_main_v31 (F := Ideal) x1 (ix1 e)
  rw [val_main_v83_apply, val_main_v82_apply, show idx_main_v82 (idx_main_v83 (ix2 e k)) = ix1 e from by idx1]

/-! ## The first layer -/

/-- The product with the first weight matrix. -/
theorem v32_at (r : Fin 50000) (k : Fin 128) :
    val_main_v32 (F := Ideal) x0 x2 (ix2 r k) = Cert.Spec.lin (mat x0) (wmat x2) r k := by
  rw [val_main_v32_apply]
  show _ = ∑ c : Fin 128, x0 (ix2 r c) * x2 (ix2 c k)
  refine Finset.sum_congr rfl fun c _ => ?_
  rw [show lidx_main_v32 (ix2 r k) c = ix2 r c from by idx2, show ridx_main_v32 (ix2 r k) c = ix2 c k from by idx2]

/-- The zeros the first scatter-add starts from. -/
theorem v43_at (v : Fin 50000) (k : Fin 128) : val_main_v43 (F := Ideal) (ix2 v k) = (0 : EReal) := by
  rw [val_main_v43_apply, val_main_cst_9_apply, Ideal.ofBits_def, Ideal.ofBits_zero_f32]

/-- The first bias, repeated along the nodes. -/
theorem v47_at (v : Fin 50000) (k : Fin 128) : val_main_v47 (F := Ideal) x3 (ix2 v k) = x3 (ix1 k) := by
  rw [val_main_v47_apply, val_main_v46_apply, show idx_main_v46 (idx_main_v47 (ix2 v k)) = ix1 k from by idx1]

/-- The first layer's row before its layer norm. -/
abbrev pre1 : Fin 50000 → Cert.Spec.Row :=
  Cert.Spec.pre (mat x0) (wmat x2) (vec x3) (srcW x1) (dstW x1) (wtOf x1)

theorem v48_at (v : Fin 50000) (k : Fin 128) :
    val_main_v48 (F := Ideal) x0 x1 x2 x3 (ix2 v k) = pre1 x0 x1 x2 x3 v k :=
  agg_core (val_main_v32 (F := Ideal) x0 x2) (val_main_v38 (F := Ideal) x1) (val_main_v44 (F := Ideal) x1)
    (val_main_v41 (F := Ideal) x1) (val_main_v43 (F := Ideal)) (val_main_v47 (F := Ideal) x3)
    (Cert.Spec.lin (mat x0) (wmat x2)) (srcW x1) (dstW x1) (wtOf x1) (vec x3)
    (v32_at x0 x2) (v38_at x1) (v44_at x1) (v41_at x1) v43_at (v47_at x3) v k

/-- The sum of a row, and its mean. -/
theorem v49_at (v : Fin 50000) :
    val_main_v49 (F := Ideal) x0 x1 x2 x3 (ix1 v) = ∑ k : Fin 128, pre1 x0 x1 x2 x3 v k := by
  rw [val_main_v49_apply, val_main_cst_10_apply, Ideal.ofBits_def, Ideal.ofBits_zero_f32, zero_add]
  refine Finset.sum_congr rfl fun k _ => ?_
  rw [show idx_main_v49 (ix1 v) k = ix2 v k from by idx2, v48_at]

theorem v52_at (v : Fin 50000) :
    val_main_v52 (F := Ideal) x0 x1 x2 x3 (ix2 v 0) = Cert.Spec.mean (pre1 x0 x1 x2 x3 v) := by
  rw [val_main_v52_apply, Ideal.hostDivf_def, val_main_v50_apply,
    show idx_main_v50 (ix2 v (0 : Fin 1)) = ix1 v from by idx1, v49_at, val_main_v51_apply, val_main_cst_11_apply,
    Ideal.ofBits_def]
  rfl

/-- The deviation from the mean, the sum of its squares, and the variance. -/
theorem v54_at (v : Fin 50000) (k : Fin 128) :
    val_main_v54 (F := Ideal) x0 x1 x2 x3 (ix2 v k)
      = pre1 x0 x1 x2 x3 v k - Cert.Spec.mean (pre1 x0 x1 x2 x3 v) := by
  rw [val_main_v54_apply, Ideal.subf_def, v48_at, val_main_v53_apply,
    show idx_main_v53 (ix2 v k) = ix2 v (0 : Fin 1) from by idx2, v52_at]

theorem v56_at (v : Fin 50000) :
    val_main_v56 (F := Ideal) x0 x1 x2 x3 (ix1 v)
      = ∑ k : Fin 128, (pre1 x0 x1 x2 x3 v k - Cert.Spec.mean (pre1 x0 x1 x2 x3 v))
          * (pre1 x0 x1 x2 x3 v k - Cert.Spec.mean (pre1 x0 x1 x2 x3 v)) := by
  rw [val_main_v56_apply, val_main_cst_12_apply, Ideal.ofBits_def, Ideal.ofBits_zero_f32, zero_add]
  refine Finset.sum_congr rfl fun k _ => ?_
  rw [show idx_main_v56 (ix1 v) k = ix2 v k from by idx2, val_main_v55_apply, Ideal.mulf_def, v54_at]

theorem v59_at (v : Fin 50000) :
    val_main_v59 (F := Ideal) x0 x1 x2 x3 (ix2 v 0) = Cert.Spec.var (pre1 x0 x1 x2 x3 v) := by
  rw [val_main_v59_apply, Ideal.hostDivf_def, val_main_v57_apply,
    show idx_main_v57 (ix2 v (0 : Fin 1)) = ix1 v from by idx1, v56_at, val_main_v58_apply, val_main_cst_13_apply,
    Ideal.ofBits_def]
  rfl

/-- The normalised row. -/
theorem v66_at (v : Fin 50000) (k : Fin 128) :
    val_main_v66 (F := Ideal) x0 x1 x2 x3 (ix2 v k)
      = (pre1 x0 x1 x2 x3 v k - Cert.Spec.mean (pre1 x0 x1 x2 x3 v))
          * Ideal.rsqrt (Cert.Spec.var (pre1 x0 x1 x2 x3 v) + Ideal.ofBits .f32 0x3727C5AC#32) := by
  rw [val_main_v66_apply, Ideal.mulf_def, val_main_v61_apply, Ideal.subf_def, v48_at, val_main_v60_apply,
    show idx_main_v60 (ix2 v k) = ix2 v (0 : Fin 1) from by idx2, v52_at, val_main_v65_apply,
    show idx_main_v65 (ix2 v k) = ix2 v (0 : Fin 1) from by idx2, val_main_v64_apply, Ideal.hostUnary_rsqrt_def,
    val_main_v63_apply, Ideal.addf_def, v59_at, val_main_v62_apply, val_main_cst_14_apply, Ideal.ofBits_def]

/-- The layer norm of the first layer's row, and the maximum with zero. -/
theorem v72_at (v : Fin 50000) (k : Fin 128) :
    val_main_v72 (F := Ideal) x0 x1 x2 x3 x4 x5 (ix2 v k)
      = Cert.Spec.lnRow (pre1 x0 x1 x2 x3 v) (vec x4) (vec x5) k := by
  rw [val_main_v72_apply, Ideal.addf_def, val_main_v69_apply, Ideal.mulf_def, v66_at, val_main_v68_apply,
    val_main_v67_apply, show idx_main_v67 (idx_main_v68 (ix2 v k)) = ix1 k from by idx1, val_main_v71_apply,
    val_main_v70_apply, show idx_main_v70 (idx_main_v71 (ix2 v k)) = ix1 k from by idx1]
  rfl

/-- The first layer's output rows. -/
abbrev lay1 : Fin 50000 → Cert.Spec.Row :=
  Cert.Spec.layer1 (mat x0) (wmat x2) (vec x3) (vec x4) (vec x5) (srcW x1) (dstW x1) (wtOf x1)

theorem v73_at (v : Fin 50000) (k : Fin 128) :
    val_main_v73 (F := Ideal) x0 x1 x2 x3 x4 x5 (ix2 v k) = lay1 x0 x1 x2 x3 x4 x5 v k := by
  rw [val_main_v73_apply, Ideal.maximumf_def, v72_at, val_main_call1_v0_apply, val_main_call1_cst_apply,
    Ideal.ofBits_def]
  rfl

/-! ## The second layer: the same stages over the first layer's rows -/

theorem v74_at (r : Fin 50000) (k : Fin 128) :
    val_main_v74 (F := Ideal) x0 x1 x2 x3 x4 x5 x6 (ix2 r k)
      = Cert.Spec.lin (lay1 x0 x1 x2 x3 x4 x5) (wmat x6) r k := by
  rw [val_main_v74_apply]
  show _ = ∑ c : Fin 128, lay1 x0 x1 x2 x3 x4 x5 r c * x6 (ix2 c k)
  refine Finset.sum_congr rfl fun c _ => ?_
  rw [show lidx_main_v74 (ix2 r k) c = ix2 r c from by idx2, show ridx_main_v74 (ix2 r k) c = ix2 c k from by idx2,
    v73_at]

theorem v85_at (v : Fin 50000) (k : Fin 128) : val_main_v85 (F := Ideal) (ix2 v k) = (0 : EReal) := by
  rw [val_main_v85_apply, val_main_cst_17_apply, Ideal.ofBits_def, Ideal.ofBits_zero_f32]

theorem v89_at (v : Fin 50000) (k : Fin 128) : val_main_v89 (F := Ideal) x7 (ix2 v k) = x7 (ix1 k) := by
  rw [val_main_v89_apply, val_main_v88_apply, show idx_main_v88 (idx_main_v89 (ix2 v k)) = ix1 k from by idx1]

/-- The second layer's row before its layer norm. -/
abbrev pre2 : Fin 50000 → Cert.Spec.Row :=
  Cert.Spec.pre (lay1 x0 x1 x2 x3 x4 x5) (wmat x6) (vec x7) (srcW x1) (dstW x1) (wtOf x1)

theorem v90_at (v : Fin 50000) (k : Fin 128) :
    val_main_v90 (F := Ideal) x0 x1 x2 x3 x4 x5 x6 x7 (ix2 v k) = pre2 x0 x1 x2 x3 x4 x5 x6 x7 v k :=
  agg_core (val_main_v74 (F := Ideal) x0 x1 x2 x3 x4 x5 x6) (val_main_v80 (F := Ideal) x1) (val_main_v86 (F := Ideal) x1)
    (val_main_v83 (F := Ideal) x1) (val_main_v85 (F := Ideal)) (val_main_v89 (F := Ideal) x7)
    (Cert.Spec.lin (lay1 x0 x1 x2 x3 x4 x5) (wmat x6)) (srcW x1) (dstW x1) (wtOf x1) (vec x7)
    (v74_at x0 x1 x2 x3 x4 x5 x6) (v80_at x1) (v86_at x1) (v83_at x1) v85_at (v89_at x7) v k

theorem v91_at (v : Fin 50000) :
    val_main_v91 (F := Ideal) x0 x1 x2 x3 x4 x5 x6 x7 (ix1 v) = ∑ k : Fin 128, pre2 x0 x1 x2 x3 x4 x5 x6 x7 v k := by
  rw [val_main_v91_apply, val_main_cst_18_apply, Ideal.ofBits_def, Ideal.ofBits_zero_f32, zero_add]
  refine Finset.sum_congr rfl fun k _ => ?_
  rw [show idx_main_v91 (ix1 v) k = ix2 v k from by idx2, v90_at]

theorem v94_at (v : Fin 50000) :
    val_main_v94 (F := Ideal) x0 x1 x2 x3 x4 x5 x6 x7 (ix2 v 0) = Cert.Spec.mean (pre2 x0 x1 x2 x3 x4 x5 x6 x7 v) := by
  rw [val_main_v94_apply, Ideal.hostDivf_def, val_main_v92_apply,
    show idx_main_v92 (ix2 v (0 : Fin 1)) = ix1 v from by idx1, v91_at, val_main_v93_apply, val_main_cst_19_apply,
    Ideal.ofBits_def]
  rfl

theorem v96_at (v : Fin 50000) (k : Fin 128) :
    val_main_v96 (F := Ideal) x0 x1 x2 x3 x4 x5 x6 x7 (ix2 v k)
      = pre2 x0 x1 x2 x3 x4 x5 x6 x7 v k - Cert.Spec.mean (pre2 x0 x1 x2 x3 x4 x5 x6 x7 v) := by
  rw [val_main_v96_apply, Ideal.subf_def, v90_at, val_main_v95_apply,
    show idx_main_v95 (ix2 v k) = ix2 v (0 : Fin 1) from by idx2, v94_at]

theorem v98_at (v : Fin 50000) :
    val_main_v98 (F := Ideal) x0 x1 x2 x3 x4 x5 x6 x7 (ix1 v)
      = ∑ k : Fin 128, (pre2 x0 x1 x2 x3 x4 x5 x6 x7 v k - Cert.Spec.mean (pre2 x0 x1 x2 x3 x4 x5 x6 x7 v))
          * (pre2 x0 x1 x2 x3 x4 x5 x6 x7 v k - Cert.Spec.mean (pre2 x0 x1 x2 x3 x4 x5 x6 x7 v)) := by
  rw [val_main_v98_apply, val_main_cst_20_apply, Ideal.ofBits_def, Ideal.ofBits_zero_f32, zero_add]
  refine Finset.sum_congr rfl fun k _ => ?_
  rw [show idx_main_v98 (ix1 v) k = ix2 v k from by idx2, val_main_v97_apply, Ideal.mulf_def, v96_at]

theorem v101_at (v : Fin 50000) :
    val_main_v101 (F := Ideal) x0 x1 x2 x3 x4 x5 x6 x7 (ix2 v 0) = Cert.Spec.var (pre2 x0 x1 x2 x3 x4 x5 x6 x7 v) := by
  rw [val_main_v101_apply, Ideal.hostDivf_def, val_main_v99_apply,
    show idx_main_v99 (ix2 v (0 : Fin 1)) = ix1 v from by idx1, v98_at, val_main_v100_apply, val_main_cst_21_apply,
    Ideal.ofBits_def]
  rfl

theorem v108_at (v : Fin 50000) (k : Fin 128) :
    val_main_v108 (F := Ideal) x0 x1 x2 x3 x4 x5 x6 x7 (ix2 v k)
      = (pre2 x0 x1 x2 x3 x4 x5 x6 x7 v k - Cert.Spec.mean (pre2 x0 x1 x2 x3 x4 x5 x6 x7 v))
          * Ideal.rsqrt (Cert.Spec.var (pre2 x0 x1 x2 x3 x4 x5 x6 x7 v) + Ideal.ofBits .f32 0x3727C5AC#32) := by
  rw [val_main_v108_apply, Ideal.mulf_def, val_main_v103_apply, Ideal.subf_def, v90_at, val_main_v102_apply,
    show idx_main_v102 (ix2 v k) = ix2 v (0 : Fin 1) from by idx2, v94_at, val_main_v107_apply,
    show idx_main_v107 (ix2 v k) = ix2 v (0 : Fin 1) from by idx2, val_main_v106_apply, Ideal.hostUnary_rsqrt_def,
    val_main_v105_apply, Ideal.addf_def, v101_at, val_main_v104_apply, val_main_cst_22_apply, Ideal.ofBits_def]

/-- The layer norm of the second layer's row: the program's result. -/
theorem v114_at (v : Fin 50000) (k : Fin 128) :
    val_main_v114 (F := Ideal) x0 x1 x2 x3 x4 x5 x6 x7 x8 x9 (ix2 v k)
      = Cert.Spec.lnRow (pre2 x0 x1 x2 x3 x4 x5 x6 x7 v) (vec x8) (vec x9) k := by
  rw [val_main_v114_apply, Ideal.addf_def, val_main_v111_apply, Ideal.mulf_def, v108_at, val_main_v110_apply,
    val_main_v109_apply, show idx_main_v109 (idx_main_v110 (ix2 v k)) = ix1 k from by idx1, val_main_v113_apply,
    val_main_v112_apply, show idx_main_v112 (idx_main_v113 (ix2 v k)) = ix1 k from by idx1]
  rfl

end

/-- THE REFERENCE, ENTRY BY ENTRY. -/
theorem ref_out (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (v : Fin 50000) (j : Fin 128) :
    val_main_v114 (F := Ideal) x0 x1 x2 x3 x4 x5 x6 x7 x8 x9 (ix2 v j)
      = Cert.Spec.out (fun r k => x0 (ix2 r k)) (fun a k => x2 (ix2 a k)) (fun k => x3 (ix1 k)) (fun k => x4 (ix1 k)) (fun k => x5 (ix1 k))
          (fun a k => x6 (ix2 a k)) (fun k => x7 (ix1 k)) (fun k => x8 (ix1 k)) (fun k => x9 (ix1 k))
          (srcW x1) (dstW x1) (wtOf x1) v j := by
  exact v114_at x0 x1 x2 x3 x4 x5 x6 x7 x8 x9 v j

end Cert.RefValue

end
-- ==== Proof.PreRange.lean ====
/-
  The index range read out of the precondition: every word of the edge list, read signed, is a node number 0 … 49999.
-/
import proofs.«421162_j50672024158728_1_alg».proof.Pre_finite_inputs
import proofs.«421162_j50672024158728_1_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs Cert.Pre_finite_inputs.Gen

/-- Where the precondition's predicate is all ones, every entry of the edge list is, read signed, at least 0 and below 50000. -/
theorem edge_range {F : FTy → Type} [FloatOps F]
    (a0 : FVec F S50000x128 .f32) (a1 : IVec S2x600000 32) (a2 : FVec F S128x128 .f32) (a3 a4 a5 : FVec F S128 .f32)
    (a6 : FVec F S128x128 .f32) (a7 a8 a9 : FVec F S128 .f32)
    (h : Cert.Pre_finite_inputs.fn (F := F) a0 a1 a2 a3 a4 a5 a6 a7 a8 a9 = fun _ => 1#1) (i : S2x600000.Idx) :
    0 ≤ (a1 i).toInt ∧ (a1 i).toInt < 50000 := by
  -- the predicate is one word, read at its one index: a conjunction whose last member is the all-reduce
  -- of the two range tests over the edge list
  have h0 := congrFun h ValueIdx.ix0
  unfold Cert.Pre_finite_inputs.fn Cert.Pre_finite_inputs.fn_part1 Cert.Pre_finite_inputs.fn_part2 at h0
  dsimp only at h0
  have h1 := (IntOp.andi_eq_one.1 h0).2
  -- a conjunction over every index that came out 1 met a 1 at every index
  haveI : Subsingleton S_.Idx := ⟨fun a b => funext fun d => d.elim0⟩
  have h2 := Host.reduce_andi_all _ _ _ _ _ h1 i
  obtain ⟨hge, hlt⟩ := IntOp.andi_eq_one.1 h2
  -- at the index i the two tests compare the word a1 i with the constants 0 and 50000, signed
  have hge' : IntOp.cmpi .sge (a1 i) 0#32 = 1#1 := hge
  have hlt' : IntOp.cmpi .slt (a1 i) 50000#32 = 1#1 := hlt
  rw [IntOp.cmpi_sge, show (0#32 : BitVec 32).toInt = 0 from by decide] at hge'
  rw [IntOp.cmpi_slt, show (50000#32 : BitVec 32).toInt = 50000 from by decide] at hlt'
  exact ⟨hge', hlt'⟩

end Cert.PreRange

end
-- ==== Proof.KChain.lean ====
/-
  The buffer contents along the kernel program's run: which array each kernel region finds where, and the result.

  The program is four host stretches, four kernel regions and a closing slice. A region replaces its output array by what
  its write-backs leave and leaves every other array as it found it; no host operation after the first stretches writes an
  array a region reads. So: the edge arrays (source words, destination words, weights) and the argument arrays are the same
  at every region's entry; each region's input feature array is the previous region's output; the result is the first
  50000 rows of the last region's output.
-/
import proofs.«421162_j50672024158728_1_alg».proof.Proof.Gen.KernelIdeal.Frame
import Idealize.ShloMosaic.Lib.Pipeline.Value
import Idealize.ShloMosaic.Lib.StableHlo.Run

set_option maxRecDepth 16384

noncomputable section

namespace Cert.KernelIdeal.KChain

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A host stretch leaves an array that none of its operations writes as it found it: after the stretch `ops` the array
    `x` holds what it held before. Turns the goal `after ops V x = R` into `V x = R`; the side fact (no operation of the
    stretch has `x` as its result array) is a finite check on array names. -/
local macro "host_keeps " ops:ident x:ident : tactic =>
  `(tactic| refine (StableHlo.after_of_forall_not_mem (b := Proc.devRef .tc $x) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans ?_)

/-- An argument array that no host stretch before the first region writes holds at region 0's entry what it held at
    launch: walk back through the four stretches. -/
local macro "entry_arg " x:ident : tactic =>
  `(tactic| (host_keeps hostOps0_3 $x; host_keeps hostOps0_2 $x; host_keeps hostOps0_1 $x; host_keeps hostOps0 $x; rfl))

/-! ## The argument arrays at region 0's entry: as launched -/
theorem w4_arg2 (c : Dev nD) : W4 m ρ c (Proc.devRef .tc main_arg2) = m ((c : Thread nD τ).loc main_arg2) := by entry_arg main_arg2
theorem w4_arg3 (c : Dev nD) : W4 m ρ c (Proc.devRef .tc main_arg3) = m ((c : Thread nD τ).loc main_arg3) := by entry_arg main_arg3
theorem w4_arg4 (c : Dev nD) : W4 m ρ c (Proc.devRef .tc main_arg4) = m ((c : Thread nD τ).loc main_arg4) := by entry_arg main_arg4
theorem w4_arg5 (c : Dev nD) : W4 m ρ c (Proc.devRef .tc main_arg5) = m ((c : Thread nD τ).loc main_arg5) := by entry_arg main_arg5
theorem w4_arg6 (c : Dev nD) : W4 m ρ c (Proc.devRef .tc main_arg6) = m ((c : Thread nD τ).loc main_arg6) := by entry_arg main_arg6
theorem w4_arg7 (c : Dev nD) : W4 m ρ c (Proc.devRef .tc main_arg7) = m ((c : Thread nD τ).loc main_arg7) := by entry_arg main_arg7
theorem w4_arg8 (c : Dev nD) : W4 m ρ c (Proc.devRef .tc main_arg8) = m ((c : Thread nD τ).loc main_arg8) := by entry_arg main_arg8
theorem w4_arg9 (c : Dev nD) : W4 m ρ c (Proc.devRef .tc main_arg9) = m ((c : Thread nD τ).loc main_arg9) := by entry_arg main_arg9

/-! ## Region 0 (first dense layer): entry `V4`, exit `V5` -/
theorem v4_arg2 (c : Dev nD) : V4 m ρ c main_arg2 = m ((c : Thread nD τ).loc main_arg2) := w4_arg2 m ρ c
/-- Region 0's output (its window 2) is the array `main_v42`: at the exit it holds the folded write-backs. -/
theorem v5_v42 (c : Dev nD) : V5 m ρ c main_v42 = (dat0 (V4 m ρ) c).arrAt 2 cfg0.N := W5_arr m ρ c 2

/-! ## Region 1 (first aggregation): entry `V5`, exit `V6` -/
-- The edge arrays are no window of region 0: it leaves them as it found them.
theorem v5_v38 (c : Dev nD) : V5 m ρ c main_v38 = V4 m ρ c main_v38 := W5_of_ne m ρ c main_v38 (by decide)
theorem v5_v39 (c : Dev nD) : V5 m ρ c main_v39 = V4 m ρ c main_v39 := W5_of_ne m ρ c main_v39 (by decide)
theorem v5_v40 (c : Dev nD) : V5 m ρ c main_v40 = V4 m ρ c main_v40 := W5_of_ne m ρ c main_v40 (by decide)
-- Region 1's argument arrays are no window of region 0 either.
theorem v5_arg3 (c : Dev nD) : V5 m ρ c main_arg3 = m ((c : Thread nD τ).loc main_arg3) :=
  (W5_of_ne m ρ c main_arg3 (by decide)).trans (w4_arg3 m ρ c)
theorem v5_arg4 (c : Dev nD) : V5 m ρ c main_arg4 = m ((c : Thread nD τ).loc main_arg4) :=
  (W5_of_ne m ρ c main_arg4 (by decide)).trans (w4_arg4 m ρ c)
theorem v5_arg5 (c : Dev nD) : V5 m ρ c main_arg5 = m ((c : Thread nD τ).loc main_arg5) :=
  (W5_of_ne m ρ c main_arg5 (by decide)).trans (w4_arg5 m ρ c)
/-- Region 1's output (its window 7) is the array `main_v43`. -/
theorem v6_v43 (c : Dev nD) : V6 m ρ c main_v43 = (dat1 (V5 m ρ) c).arrAt 7 cfg1.N := W6_arr m ρ c 7

/-! ## Region 2 (second dense layer): entry `V6`, exit `V7` -/
theorem v6_arg6 (c : Dev nD) : V6 m ρ c main_arg6 = m ((c : Thread nD τ).loc main_arg6) :=
  (W6_of_ne m ρ c main_arg6 (by decide)).trans ((W5_of_ne m ρ c main_arg6 (by decide)).trans (w4_arg6 m ρ c))
/-- Region 2's output (its window 2) is the array `main_v44`. -/
theorem v7_v44 (c : Dev nD) : V7 m ρ c main_v44 = (dat2 (V6 m ρ) c).arrAt 2 cfg2.N := W7_arr m ρ c 2

/-! ## Region 3 (second aggregation): entry `V7`, exit `V8`; the closing slice -/
-- The edge arrays: no window of region 2; INPUT windows 0, 1, 2 of region 1 (an input window's array is unchanged by its
-- region); no window of region 0.
theorem v7_v38 (c : Dev nD) : V7 m ρ c main_v38 = V4 m ρ c main_v38 :=
  (W7_of_ne m ρ c main_v38 (by decide)).trans
    (((W6_arr m ρ c 0).trans (((dat1 (V5 m ρ) c).arrAt_in 0 rfl _).trans (A_eq1 (V5 m ρ) c 0))).trans
      (W5_of_ne m ρ c main_v38 (by decide)))
theorem v7_v39 (c : Dev nD) : V7 m ρ c main_v39 = V4 m ρ c main_v39 :=
  (W7_of_ne m ρ c main_v39 (by decide)).trans
    (((W6_arr m ρ c 1).trans (((dat1 (V5 m ρ) c).arrAt_in 1 rfl _).trans (A_eq1 (V5 m ρ) c 1))).trans
      (W5_of_ne m ρ c main_v39 (by decide)))
theorem v7_v40 (c : Dev nD) : V7 m ρ c main_v40 = V4 m ρ c main_v40 :=
  (W7_of_ne m ρ c main_v40 (by decide)).trans
    (((W6_arr m ρ c 2).trans (((dat1 (V5 m ρ) c).arrAt_in 2 rfl _).trans (A_eq1 (V5 m ρ) c 2))).trans
      (W5_of_ne m ρ c main_v40 (by decide)))
-- Region 3's argument arrays are no window of regions 0, 1, 2.
theorem v7_arg7 (c : Dev nD) : V7 m ρ c main_arg7 = m ((c : Thread nD τ).loc main_arg7) :=
  (W7_of_ne m ρ c main_arg7 (by decide)).trans ((W6_of_ne m ρ c main_arg7 (by decide)).trans
    ((W5_of_ne m ρ c main_arg7 (by decide)).trans (w4_arg7 m ρ c)))
theorem v7_arg8 (c : Dev nD) : V7 m ρ c main_arg8 = m ((c : Thread nD τ).loc main_arg8) :=
  (W7_of_ne m ρ c main_arg8 (by decide)).trans ((W6_of_ne m ρ c main_arg8 (by decide)).trans
    ((W5_of_ne m ρ c main_arg8 (by decide)).trans (w4_arg8 m ρ c)))
theorem v7_arg9 (c : Dev nD) : V7 m ρ c main_arg9 = m ((c : Thread nD τ).loc main_arg9) :=
  (W7_of_ne m ρ c main_arg9 (by decide)).trans ((W6_of_ne m ρ c main_arg9 (by decide)).trans
    ((W5_of_ne m ρ c main_arg9 (by decide)).trans (w4_arg9 m ρ c)))
/-- The result array: the slice [0:50000, 0:128] of the last region's output. The closing stretch is the one slice
    operation, reading `main_v45`, which is region 3's output (its window 7). -/
theorem w9_v46 (c : Dev nD) :
    W9 m ρ c (Proc.devRef .tc main_v46)
      = extractStridedSlice S50000x128 ![0, 0] ((dat3 (V7 m ρ) c).arrAt 7 cfg3.N) slices_S50176x128_S50000x128_0_0 := by
  show StableHlo.after hostOps4 (W8 m ρ c) (Proc.devRef .tc main_v46) = _
  after_results
  rw [show W8 m ρ c (Proc.devRef .tc main_v45) = (dat3 (V7 m ρ) c).arrAt 7 cfg3.N from W8_arr m ρ c 7]

end Cert.KernelIdeal.KChain

end
-- ==== Proof.KHost.lean ====
/-
  The arrays the kernel program's host stretches hand to the first kernel region, read at one entry.

  The padded edge list (650240 entries): its first 650000 source words, destination words and weights are the ones the
  reference program computes from the same [2, 600000] index array (the same operations, in the same order); the 240 padding
  entries have the destination word 50000. The padded feature array (50176 rows): its first 50000 rows are the input's rows.
-/
import proofs.«421162_j50672024158728_1_alg».proof.Proof.Gen.KernelIdeal.Frame
import proofs.«421162_j50672024158728_1_alg».proof.Proof.RefRead
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KHost

open Idealize.ShloMosaic Idealize.ShloMosaic.TcCoe Idealize.ShloMosaic.ValueIdx Idealize.SL.Sem
open Cert.KernelIdeal Cert.KernelIdeal.Gen

section Generic
variable {F : FTy → Type} [FloatOps F]

/-! ## The stages the first host stretches compute from the edge array, as functions of it -/

/-- Row 0 of the edge array followed by 0 … 49999: the source words with the self-loops appended. -/
def kSrc (x1 : (⟨S2x600000, .i32⟩ : BufTy).Contents (Elt F)) : (⟨S650000, .i32⟩ : BufTy).Contents (Elt F) :=
  concatenate S650000 0 [⟨S600000, shapeCast _ (extractStridedSlice S1x600000 ![0, 0] x1 slices_S2x600000_S1x600000_0_0) shapeCasts_S1x600000_S600000⟩, ⟨S50000, iotaInDim S50000 32 0⟩] concatenates_S600000_S50000_S650000_d0

/-- Row 1 of the edge array followed by 0 … 49999: the destination words with the self-loops appended. -/
def kDst (x1 : (⟨S2x600000, .i32⟩ : BufTy).Contents (Elt F)) : (⟨S650000, .i32⟩ : BufTy).Contents (Elt F) :=
  concatenate S650000 0 [⟨S600000, shapeCast _ (extractStridedSlice S1x600000 ![1, 0] x1 slices_S2x600000_S1x600000_1_0) shapeCasts_S1x600000_S600000⟩, ⟨S50000, iotaInDim S50000 32 0⟩] concatenates_S600000_S50000_S650000_d0

/-- The in-degree of every node: ones scattered and added at the destination words. -/
def kDeg (x1 : (⟨S2x600000, .i32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (broadcastInDim S650000x1 ![0] bcast_S650000_S650000x1_0 (kDst x1))
    (broadcastInDim S650000 ![] bcast_S_S650000 (constant S_ .f32 0x3F800000#32))

/-- Which nodes have a positive degree. -/
def kPos (x1 : (⟨S2x600000, .i32⟩ : BufTy).Contents (Elt F)) : (⟨S50000, .i1⟩ : BufTy).Contents (Elt F) :=
  cmpf .ogt (kDeg x1) (broadcastInDim S50000 ![] bcast_S_S50000 (constant S_ .f32 0x00000000#32))

/-- The reciprocal square root of the degree, clamped below by one. -/
def kRs (x1 : (⟨S2x600000, .i32⟩ : BufTy).Contents (Elt F)) : (⟨S50000, .f32⟩ : BufTy).Contents (Elt F) :=
  Host.rsqrt (maximumf (kDeg x1) (broadcastInDim S50000 ![] bcast_S_S50000 (constant S_ .f32 0x3F800000#32)))

/-- The per-node factor: the reciprocal square root where the degree is positive, zero elsewhere. -/
def kDinv (x1 : (⟨S2x600000, .i32⟩ : BufTy).Contents (Elt F)) : (⟨S50000, .f32⟩ : BufTy).Contents (Elt F) :=
  select (kPos x1) (kRs x1) (broadcastInDim S50000 ![] bcast_S_S50000 (id (constant S_ .f32 0x00000000#32)))

/-- A word array as a gather's index column, negative words wrapped by the node count. -/
def kWrap (v : (⟨S650000, .i32⟩ : BufTy).Contents (Elt F)) : (⟨S650000x1, .i32⟩ : BufTy).Contents (Elt F) :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- The edge weight from the per-node factor and the two word arrays: the factor at the source times the factor at the destination. -/
def kMul (d : (⟨S50000, .f32⟩ : BufTy).Contents (Elt F)) (s t : (⟨S650000, .i32⟩ : BufTy).Contents (Elt F)) :
    (⟨S650000, .f32⟩ : BufTy).Contents (Elt F) :=
  mulf (Host.gather gather_S50000_S650000x1_S650000_n_0_n_n_0_1_1 d (kWrap (F := F) s))
    (Host.gather gather_S50000_S650000x1_S650000_n_0_n_n_0_1_1 d (kWrap (F := F) t))

/-- The edge weights as a function of the edge array. -/
def kNrm (x1 : (⟨S2x600000, .i32⟩ : BufTy).Contents (Elt F)) : (⟨S650000, .f32⟩ : BufTy).Contents (Elt F) :=
  kMul (kDinv x1) (kSrc (F := F) x1) (kDst (F := F) x1)

/-! ## Each stretch at one buffer, from any contents before it -/

section Stretches
variable (V : Valuation τ sig (Elt F))

set_option maxHeartbeats 4000000 in
theorem st0_v3 : StableHlo.after (hostOps0 (F := F)) V (Proc.devRef .tc main_v3) = kSrc (V (Proc.devRef .tc main_arg1)) := by
  dsimp only [hostOps0]; after_results; rfl

set_option maxHeartbeats 4000000 in
theorem st0_v6 : StableHlo.after (hostOps0 (F := F)) V (Proc.devRef .tc main_v6) = kDst (V (Proc.devRef .tc main_arg1)) := by
  dsimp only [hostOps0]; after_results; rfl

set_option maxHeartbeats 4000000 in
theorem st0_v12 : StableHlo.after (hostOps0 (F := F)) V (Proc.devRef .tc main_v12) = kPos (V (Proc.devRef .tc main_arg1)) := by
  dsimp only [hostOps0]; after_results; rfl

set_option maxHeartbeats 4000000 in
theorem st0_v15 : StableHlo.after (hostOps0 (F := F)) V (Proc.devRef .tc main_v15) = kRs (V (Proc.devRef .tc main_arg1)) := by
  dsimp only [hostOps0]; after_results; rfl

set_option maxHeartbeats 4000000 in
theorem st0_cst3 : StableHlo.after (hostOps0 (F := F)) V (Proc.devRef .tc main_cst_3) = constant S_ .f32 0x00000000#32 := by
  dsimp only [hostOps0]; after_results

set_option maxHeartbeats 4000000 in
theorem st0_arg0 : StableHlo.after (hostOps0 (F := F)) V (Proc.devRef .tc main_arg0) = V (Proc.devRef .tc main_arg0) := by
  dsimp only [hostOps0]; after_results

end Stretches

section Stretches1
variable (V : Valuation τ sig (Elt F))

set_option maxHeartbeats 4000000 in
theorem st1_v16 : StableHlo.after (hostOps0_1 (F := F)) V (Proc.devRef .tc main_v16)
    = select (V (Proc.devRef .tc main_v12)) (V (Proc.devRef .tc main_v15)) (broadcastInDim S50000 ![] bcast_S_S50000 (id (V (Proc.devRef .tc main_cst_3)))) := by
  dsimp only [hostOps0_1]; after_results; rfl

set_option maxHeartbeats 4000000 in
theorem st1_v3 : StableHlo.after (hostOps0_1 (F := F)) V (Proc.devRef .tc main_v3) = V (Proc.devRef .tc main_v3) := by
  dsimp only [hostOps0_1]; after_results

set_option maxHeartbeats 4000000 in
theorem st1_v6 : StableHlo.after (hostOps0_1 (F := F)) V (Proc.devRef .tc main_v6) = V (Proc.devRef .tc main_v6) := by
  dsimp only [hostOps0_1]; after_results

set_option maxHeartbeats 4000000 in
theorem st1_arg0 : StableHlo.after (hostOps0_1 (F := F)) V (Proc.devRef .tc main_arg0) = V (Proc.devRef .tc main_arg0) := by
  dsimp only [hostOps0_1]; after_results

set_option maxHeartbeats 4000000 in
theorem st2_v38 : StableHlo.after (hostOps0_2 (F := F)) V (Proc.devRef .tc main_v38)
    = shapeCast S1x650240 (concatenate S650240 0 [⟨S650000, V (Proc.devRef .tc main_v3)⟩, ⟨S240, broadcastInDim S240 ![] bcast_S_S240 (constantI S_ 32 50000#32)⟩] concatenates_S650000_S240_S650240_d0) shapeCasts_S650240_S1x650240 := by
  dsimp only [hostOps0_2]; after_results; rfl

set_option maxHeartbeats 4000000 in
theorem st2_v39 : StableHlo.after (hostOps0_2 (F := F)) V (Proc.devRef .tc main_v39)
    = shapeCast S1x650240 (concatenate S650240 0 [⟨S650000, V (Proc.devRef .tc main_v6)⟩, ⟨S240, broadcastInDim S240 ![] bcast_S_S240 (constantI S_ 32 50000#32)⟩] concatenates_S650000_S240_S650240_d0) shapeCasts_S650240_S1x650240 := by
  dsimp only [hostOps0_2]; after_results; rfl

set_option maxHeartbeats 4000000 in
theorem st2_v40 : StableHlo.after (hostOps0_2 (F := F)) V (Proc.devRef .tc main_v40)
    = shapeCast S1x650240 (concatenate S650240 0 [⟨S650000, kMul (F := F) (V (Proc.devRef .tc main_v16)) (V (Proc.devRef .tc main_v3)) (V (Proc.devRef .tc main_v6))⟩, ⟨S240, broadcastInDim S240 ![] bcast_S_S240 (constant S_ .f32 0x00000000#32)⟩] concatenates_S650000_S240_S650240_d0) shapeCasts_S650240_S1x650240 := by
  dsimp only [hostOps0_2]; after_results; rfl

set_option maxHeartbeats 4000000 in
theorem st2_arg0 : StableHlo.after (hostOps0_2 (F := F)) V (Proc.devRef .tc main_arg0) = V (Proc.devRef .tc main_arg0) := by
  dsimp only [hostOps0_2]; after_results

set_option maxHeartbeats 4000000 in
theorem st3_v38 : StableHlo.after (hostOps0_3 (F := F)) V (Proc.devRef .tc main_v38) = V (Proc.devRef .tc main_v38) := by
  dsimp only [hostOps0_3]; after_results

set_option maxHeartbeats 4000000 in
theorem st3_v39 : StableHlo.after (hostOps0_3 (F := F)) V (Proc.devRef .tc main_v39) = V (Proc.devRef .tc main_v39) := by
  dsimp only [hostOps0_3]; after_results

set_option maxHeartbeats 4000000 in
theorem st3_v40 : StableHlo.after (hostOps0_3 (F := F)) V (Proc.devRef .tc main_v40) = V (Proc.devRef .tc main_v40) := by
  dsimp only [hostOps0_3]; after_results

set_option maxHeartbeats 4000000 in
theorem st3_v41 : StableHlo.after (hostOps0_3 (F := F)) V (Proc.devRef .tc main_v41)
    = pad S50176x128 ![0, 0] ![176, 0] ![0, 0] (V (Proc.devRef .tc main_arg0)) (sitofp .f32 (V (Proc.devRef .tc main_c_10)) : (⟨S_, .f32⟩ : BufTy).Contents (Elt F)) pads_S50000x128_S50176x128_01760_000 h_S_ := by
  dsimp only [hostOps0_3]; after_results; rfl

end Stretches1

/-! ## The same stages in the reference program: the same operations on the same argument -/

theorem kSrc_eq (x1 : (⟨S2x600000, .i32⟩ : BufTy).Contents (Elt F)) :
    kSrc (F := F) x1 = Cert.ReferenceIdeal.ReadP.val_main_v3 (F := F) x1 := by
  unfold kSrc Cert.ReferenceIdeal.ReadP.val_main_v3 Cert.ReferenceIdeal.ReadP.val_main_v2 Cert.ReferenceIdeal.ReadP.val_main_v1
    Cert.ReferenceIdeal.ReadP.val_main_v0
  rfl

theorem kDst_eq (x1 : (⟨S2x600000, .i32⟩ : BufTy).Contents (Elt F)) :
    kDst (F := F) x1 = Cert.ReferenceIdeal.ReadP.val_main_v6 (F := F) x1 := by
  unfold kDst Cert.ReferenceIdeal.ReadP.val_main_v6 Cert.ReferenceIdeal.ReadP.val_main_v5 Cert.ReferenceIdeal.ReadP.val_main_v4
    Cert.ReferenceIdeal.ReadP.val_main_v0
  rfl

theorem kDeg_eq (x1 : (⟨S2x600000, .i32⟩ : BufTy).Contents (Elt F)) :
    kDeg (F := F) x1 = Cert.ReferenceIdeal.ReadP.val_main_v10 (F := F) x1 := by
  unfold kDeg Cert.ReferenceIdeal.ReadP.val_main_v10 Cert.ReferenceIdeal.ReadP.val_main_v9 Cert.ReferenceIdeal.ReadP.val_main_v8
    Cert.ReferenceIdeal.ReadP.val_main_v7 Cert.ReferenceIdeal.ReadP.val_main_cst Cert.ReferenceIdeal.ReadP.val_main_cst_0
  rw [kDst_eq]
  rfl

theorem kDinv_eq (x1 : (⟨S2x600000, .i32⟩ : BufTy).Contents (Elt F)) :
    kDinv (F := F) x1 = Cert.ReferenceIdeal.ReadP.val_main_v16 (F := F) x1 := by
  unfold kDinv kPos kRs Cert.ReferenceIdeal.ReadP.val_main_v16 Cert.ReferenceIdeal.ReadP.val_main_v15 Cert.ReferenceIdeal.ReadP.val_main_v14
    Cert.ReferenceIdeal.ReadP.val_main_v13 Cert.ReferenceIdeal.ReadP.val_main_v12 Cert.ReferenceIdeal.ReadP.val_main_v11
    Cert.ReferenceIdeal.ReadP.val_main_cst_1 Cert.ReferenceIdeal.ReadP.val_main_cst_2 Cert.ReferenceIdeal.ReadP.val_main_call0_v1
    Cert.ReferenceIdeal.ReadP.val_main_call0_v0 Cert.ReferenceIdeal.ReadP.val_main_cst_3
  rw [kDeg_eq]

theorem kNrm_eq (x1 : (⟨S2x600000, .i32⟩ : BufTy).Contents (Elt F)) :
    kNrm (F := F) x1 = Cert.ReferenceIdeal.ReadP.val_main_v31 (F := F) x1 := by
  unfold kNrm kMul kWrap Cert.ReferenceIdeal.ReadP.val_main_v31 Cert.ReferenceIdeal.ReadP.val_main_v30 Cert.ReferenceIdeal.ReadP.val_main_v29
    Cert.ReferenceIdeal.ReadP.val_main_v28 Cert.ReferenceIdeal.ReadP.val_main_v27 Cert.ReferenceIdeal.ReadP.val_main_v26
    Cert.ReferenceIdeal.ReadP.val_main_v25 Cert.ReferenceIdeal.ReadP.val_main_v24 Cert.ReferenceIdeal.ReadP.val_main_v23
    Cert.ReferenceIdeal.ReadP.val_main_v22 Cert.ReferenceIdeal.ReadP.val_main_v21 Cert.ReferenceIdeal.ReadP.val_main_v20
    Cert.ReferenceIdeal.ReadP.val_main_v19 Cert.ReferenceIdeal.ReadP.val_main_v18 Cert.ReferenceIdeal.ReadP.val_main_v17
    Cert.ReferenceIdeal.ReadP.val_main_c Cert.ReferenceIdeal.ReadP.val_main_c_4 Cert.ReferenceIdeal.ReadP.val_main_c_5
    Cert.ReferenceIdeal.ReadP.val_main_c_6
  rw [kDinv_eq, kSrc_eq, kDst_eq]
  rfl

/-! ## The four arrays at the first region's entry, as whole arrays -/

section Entry
variable (m : (ℓ : Loc nD τ sig) → Buf (Elt F) ℓ) (ρ : Dev nD → PrngReg)

theorem entry_v38 (c : Dev nD) : (V4 m ρ c main_v38 : (⟨S1x650240, .i32⟩ : BufTy).Contents (Elt F))
    = shapeCast S1x650240 (concatenate S650240 0 [⟨S650000, kSrc (F := F) (m ((c : Thread nD τ).loc main_arg1))⟩, ⟨S240, broadcastInDim S240 ![] bcast_S_S240 (constantI S_ 32 50000#32)⟩] concatenates_S650000_S240_S650240_d0) shapeCasts_S650240_S1x650240 := by
  dsimp only [V4, W4, W3, W2, W1]
  rw [st3_v38, st2_v38, st1_v3, st0_v3]

theorem entry_v39 (c : Dev nD) : (V4 m ρ c main_v39 : (⟨S1x650240, .i32⟩ : BufTy).Contents (Elt F))
    = shapeCast S1x650240 (concatenate S650240 0 [⟨S650000, kDst (F := F) (m ((c : Thread nD τ).loc main_arg1))⟩, ⟨S240, broadcastInDim S240 ![] bcast_S_S240 (constantI S_ 32 50000#32)⟩] concatenates_S650000_S240_S650240_d0) shapeCasts_S650240_S1x650240 := by
  dsimp only [V4, W4, W3, W2, W1]
  rw [st3_v39, st2_v39, st1_v6, st0_v6]

theorem entry_v40 (c : Dev nD) : (V4 m ρ c main_v40 : (⟨S1x650240, .f32⟩ : BufTy).Contents (Elt F))
    = shapeCast S1x650240 (concatenate S650240 0 [⟨S650000, kNrm (F := F) (m ((c : Thread nD τ).loc main_arg1))⟩, ⟨S240, broadcastInDim S240 ![] bcast_S_S240 (constant S_ .f32 0x00000000#32)⟩] concatenates_S650000_S240_S650240_d0) shapeCasts_S650240_S1x650240 := by
  dsimp only [V4, W4, W3, W2, W1]
  rw [st3_v40, st2_v40, st1_v16, st1_v3, st1_v6, st0_v3, st0_v6, st0_v12, st0_v15, st0_cst3]
  rfl

theorem entry_v41 (c : Dev nD) : ∃ v : (⟨S_, .f32⟩ : BufTy).Contents (Elt F), (V4 m ρ c main_v41 : (⟨S50176x128, .f32⟩ : BufTy).Contents (Elt F))
    = pad S50176x128 ![0, 0] ![176, 0] ![0, 0] (m ((c : Thread nD τ).loc main_arg0)) v pads_S50000x128_S50176x128_01760_000 h_S_ := by
  refine Exists.intro (sitofp .f32 (W3 m ρ c (Proc.devRef .tc main_c_10))) ?_
  dsimp only [V4, W4]
  rw [st3_v41]
  dsimp only [W3, W2, W1]
  rw [st2_arg0, st1_arg0, st0_arg0]

end Entry
end Generic

variable (m : (ℓ : Loc nD τ sig) → Buf (Elt Ideal) ℓ) (ρ : Dev nD → PrngReg)

/-- The four arrays at the first region's entry, and the two arguments they are made from, at their literal types. -/
abbrev srcArr (c : Dev nD) : Vec Ideal S1x650240 .i32 := V4 m ρ c main_v38
abbrev dstArr (c : Dev nD) : Vec Ideal S1x650240 .i32 := V4 m ρ c main_v39
abbrev nrmArr (c : Dev nD) : Vec Ideal S1x650240 .f32 := V4 m ρ c main_v40
abbrev xpad (c : Dev nD) : Vec Ideal S50176x128 .f32 := V4 m ρ c main_v41
abbrev ei (c : Dev nD) : Vec Ideal S2x600000 .i32 := m ((c : Thread nD τ).loc main_arg1)
abbrev xin (c : Dev nD) : Vec Ideal S50000x128 .f32 := m ((c : Thread nD τ).loc main_arg0)

/-- A two-piece array of 650000 then 240 entries, read below 650000: the first piece there. -/
theorem cat_lo {α : Type} (a : S650000.Idx → α) (b : S240.Idx → α) (e : Fin 650000) :
    concatenate S650240 0 [⟨S650000, a⟩, ⟨S240, b⟩] concatenates_S650000_S240_S650240_d0 (ix1 (⟨e.val, by omega⟩ : Fin 650240)) = a (ix1 e) :=
  concatenate_pair_apply_left 0 a b concatenates_S650000_S240_S650240_d0 _ rfl (ix1 e)
    (fun d => match d with | ⟨0, _⟩ => rfl)

/-- The same array read at or past 650000: the second piece, 650000 entries earlier. -/
theorem cat_hi {α : Type} (a : S650000.Idx → α) (b : S240.Idx → α) (E : Fin 650240) (h : 650000 ≤ E.val) :
    concatenate S650240 0 [⟨S650000, a⟩, ⟨S240, b⟩] concatenates_S650000_S240_S650240_d0 (ix1 E) = b (ix1 (⟨E.val - 650000, by omega⟩ : Fin 240)) :=
  concatenate_pair_apply_right 0 a b concatenates_S650000_S240_S650240_d0 _ rfl rfl (ix1 (⟨E.val - 650000, by omega⟩ : Fin 240))
    (fun d hd => absurd (Subsingleton.elim _ _) hd)
    (by show E.val - 650000 + 650000 = E.val; omega)

theorem src_real (c : Dev nD) (e : Fin 650000) :
    srcArr m ρ c (ix2 0 (⟨e.val, by omega⟩ : Fin 650240)) = Cert.ReferenceIdeal.ReadP.val_main_v3 (F := Ideal) (ei m c) (ix1 e) := by
  refine (congrFun (entry_v38 m ρ c) _).trans ?_
  rw [shapeCast_a_1a_apply, cat_lo, kSrc_eq]

theorem dst_real (c : Dev nD) (e : Fin 650000) :
    dstArr m ρ c (ix2 0 (⟨e.val, by omega⟩ : Fin 650240)) = Cert.ReferenceIdeal.ReadP.val_main_v6 (F := Ideal) (ei m c) (ix1 e) := by
  refine (congrFun (entry_v39 m ρ c) _).trans ?_
  rw [shapeCast_a_1a_apply, cat_lo, kDst_eq]

theorem dst_pad (c : Dev nD) (E : Fin 650240) (h : 650000 ≤ E.val) : dstArr m ρ c (ix2 0 E) = 50000#32 := by
  refine (congrFun (entry_v39 m ρ c) _).trans ?_
  rw [shapeCast_a_1a_apply, cat_hi _ _ E h]
  rfl

theorem nrm_real (c : Dev nD) (e : Fin 650000) :
    nrmArr m ρ c (ix2 0 (⟨e.val, by omega⟩ : Fin 650240)) = Cert.ReferenceIdeal.ReadP.val_main_v31 (F := Ideal) (ei m c) (ix1 e) := by
  refine (congrFun (entry_v40 m ρ c) _).trans ?_
  rw [shapeCast_a_1a_apply, cat_lo, kNrm_eq]

theorem xpad_real (c : Dev nD) (r : Fin 50000) (k : Fin 128) :
    xpad m ρ c (ix2 (⟨r.val, by omega⟩ : Fin 50176) k) = xin m c (ix2 r k) := by
  obtain ⟨v, hv⟩ := entry_v41 m ρ c
  refine (congrFun hv _).trans ?_
  exact pad_apply_of_inside ![0, 0] ![176, 0] ![0, 0] _ v pads_S50000x128_S50176x128_01760_000 h_S_ _ (ix2 r k)
    (fun a => match a with
      | ⟨0, _⟩ => by show r.val = 0 + r.val * (0 + 1); omega
      | ⟨1, _⟩ => by show k.val = 0 + k.val * (0 + 1); omega)

end Cert.KHost

end
-- ==== Proof.KDots.lean ====
/-
  The kernels' three matrix products and their zero-one comparison matrix, read at one entry on the extended reals.

  A product into a zero accumulator is the plain sum over the contracted axis: rows times columns for the dense layer,
  first axes against first axes for picking rows out of a node block, second axes against second axes for adding messages
  onto a node block. The comparison matrix has a one where the edge's word minus the block's offset is the row's number.
-/
import proofs.«421162_j50672024158728_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.KDots

open Idealize.ShloMosaic Idealize.ShloMosaic.ValueIdx Cert.KernelIdeal Cert.KernelIdeal.Gen

/-! ## The dense layer's product: rows of the left operand against columns of the right -/

/-- The left operand's row coordinate is the result's row. -/
theorem lhs_lin_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column coordinate is the contraction position. -/
theorem lhs_lin_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row coordinate is the contraction position. -/
theorem rhs_lin_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The right operand's column coordinate is the result's column. -/
theorem rhs_lin_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The dense layer's product of a [1024, 128] block with the [128, 128] weights. -/
theorem mm_lin {φ₁ φ₂ : FTy} (l : FVec Ideal S1024x128 φ₁) (r : FVec Ideal S128x128 φ₂) (p : Fin 1024) (j : Fin 128) :
    matmul dot_S1024x128_S128x128_S1024x128_1_0_0_1_n_n none l r (constant S1024x128 .f32 0x00000000#32) (ix2 p j)
      = ∑ k : Fin 128, l (ix2 p k) * r (ix2 k j) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p j) ((ValueIdx.contrEquiv1 dot_S1024x128_S128x128_S1024x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S1024x128_S128x128_S1024x128_1_0_0_1_n_n.rhsIdx (ix2 p j) ((ValueIdx.contrEquiv1 dot_S1024x128_S128x128_S1024x128_1_0_0_1_n_n 128 rfl rfl).symm k) = ix2 k j := funext fun a => Fin.ext (by
    match a with
    | ⟨0, _⟩ => exact (rhs_lin_0 _ _).trans hk
    | ⟨1, _⟩ => exact rhs_lin_1 _ _)
  rw [el, er]

/-! ## Picking rows: both operands contracted over their first axis -/

/-- The left operand's row coordinate is the contraction position. -/
theorem lhs_gather_0 (i : S128x256.Idx) (q : dot_S1024x128_S1024x256_S128x256_0_0_1_1_n_n.contr.Idx) :
    (dot_S1024x128_S1024x256_S128x256_0_0_1_1_n_n.lhsIdx i q 0).val = (q ⟨0, by decide⟩).val :=
  dot_S1024x128_S1024x256_S128x256_0_0_1_1_n_n.lhsIdx_val_of_single rfl i q
/-- The left operand's column coordinate is the result's row. -/
theorem lhs_gather_1 (i : S128x256.Idx) (q : dot_S1024x128_S1024x256_S128x256_0_0_1_1_n_n.contr.Idx) :
    (dot_S1024x128_S1024x256_S128x256_0_0_1_1_n_n.lhsIdx i q 1).val = (i 0).val := by
  unfold DotDims.lhsIdx
  rw [dif_neg (show ¬(1 : Fin S1024x128.rank) ∈ dot_S1024x128_S1024x256_S128x256_0_0_1_1_n_n.lhsBatch by decide), dif_pos (show (1 : Fin S1024x128.rank) ∈ dot_S1024x128_S1024x256_S128x256_0_0_1_1_n_n.lhsNonContracting by decide)]
  rfl
/-- The right operand's row coordinate is the contraction position. -/
theorem rhs_gather_0 (i : S128x256.Idx) (q : dot_S1024x128_S1024x256_S128x256_0_0_1_1_n_n.contr.Idx) :
    (dot_S1024x128_S1024x256_S128x256_0_0_1_1_n_n.rhsIdx i q 0).val = (q ⟨0, by decide⟩).val :=
  dot_S1024x128_S1024x256_S128x256_0_0_1_1_n_n.rhsIdx_val_of_single rfl i q
/-- The right operand's column coordinate is the result's column. -/
theorem rhs_gather_1 (i : S128x256.Idx) (q : dot_S1024x128_S1024x256_S128x256_0_0_1_1_n_n.contr.Idx) :
    (dot_S1024x128_S1024x256_S128x256_0_0_1_1_n_n.rhsIdx i q 1).val = (i 1).val := by
  unfold DotDims.rhsIdx
  rw [dif_neg (show ¬(1 : Fin S1024x256.rank) ∈ dot_S1024x128_S1024x256_S128x256_0_0_1_1_n_n.rhsBatch by decide), dif_pos (show (1 : Fin S1024x256.rank) ∈ dot_S1024x128_S1024x256_S128x256_0_0_1_1_n_n.rhsNonContracting by decide)]
  rfl

/-- Picking rows: a [1024, 128] node block against a [1024, 256] comparison matrix, contracted over the 1024 rows. -/
theorem mm_gather {φ₁ φ₂ : FTy} (l : FVec Ideal S1024x128 φ₁) (r : FVec Ideal S1024x256 φ₂) (d : Fin 128) (e : Fin 256) :
    matmul dot_S1024x128_S1024x256_S128x256_0_0_1_1_n_n none l r (constant S128x256 .f32 0x00000000#32) (ix2 d e)
      = ∑ k : Fin 1024, l (ix2 k d) * r (ix2 k e) := by
  simp only [matmul]
  rw [Ideal.matmul_constant_zero_apply, ← Equiv.sum_comp (ValueIdx.contrEquiv1 dot_S1024x128_S1024x256_S128x256_0_0_1_1_n_n 1024 rfl rfl).symm]
  refine Finset.sum_congr rfl fun k _ => ?_
  have hk := ValueIdx.contrEquiv1_symm_val dot_S1024x128_S1024x256_S128x256_0_0_1_1_n_n 1024 rfl rfl k
  have el : dot_S1024x128_S1024x256_S128x256_0_0_1_1_n_n.lhsIdx (ix2 d e) ((ValueIdx.contrEquiv1 dot_S1024x128_S1024x256_S128x256_0_0_1_1_n_n 1024 rfl rfl).symm k) = ix2 k d := funext fun a => Fin.ext (by
    match a with
    | ⟨0, _⟩ => exact (lhs_gather_0 _ _).trans hk
    | ⟨1, _⟩ => exact lhs_gather_1 _ _)
  have er : dot_S1024x128_S1024x256_S128x256_0_0_1_1_n_n.rhsIdx (ix2 d e) ((ValueIdx.contrEquiv1 dot_S1024x128_S1024x256_S128x256_0_0_1_1_n_n 1024 rfl rfl).symm k) = ix2 k e := funext fun a => Fin.ext (by
    match a with
    | ⟨0, _⟩ => exact (rhs_gather_0 _ _).trans hk
    | ⟨1, _⟩ => exact rhs_gather_1 _ _)
  rw [el, er]

/-! ## Adding messages: both operands contracted over their second axis -/

/-- The left operand's row coordinate is the result's row. -/
theorem lhs_scatter_0 (i : S1024x128.Idx) (q : dot_S1024x256_S128x256_S1024x128_1_1_0_0_n_n.contr.Idx) :
    (dot_S1024x256_S128x256_S1024x128_1_1_0_0_n_n.lhsIdx i q 0).val = (i 0).val := by
  unfold DotDims.lhsIdx
  rw [dif_neg (show ¬(0 : Fin S1024x256.rank) ∈ dot_S1024x256_S128x256_S1024x128_1_1_0_0_n_n.lhsBatch by decide), dif_pos (show (0 : Fin S1024x256.rank) ∈ dot_S1024x256_S128x256_S1024x128_1_1_0_0_n_n.lhsNonContracting by decide)]
  rfl
/-- The left operand's column coordinate is the contraction position. -/
theorem lhs_scatter_1 (i : S1024x128.Idx) (q : dot_S1024x256_S128x256_S1024x128_1_1_0_0_n_n.contr.Idx) :
    (dot_S1024x256_S128x256_S1024x128_1_1_0_0_n_n.lhsIdx i q 1).val = (q ⟨0, by decide⟩).val :=
  dot_S1024x256_S128x256_S1024x128_1_1_0_0_n_n.lhsIdx_val_of_single rfl i q
/-- The right operand's row coordinate is the result's column. -/
theorem rhs_scatter_0 (i : S1024x128.Idx) (q : dot_S1024x256_S128x256_S1024x128_1_1_0_0_n_n.contr.Idx) :
    (dot_S1024x256_S128x256_S1024x128_1_1_0_0_n_n.rhsIdx i q 0).val = (i 1).val := by
  unfold DotDims.rhsIdx
  rw [dif_neg (show ¬(0 : Fin S128x256.rank) ∈ dot_S1024x256_S128x256_S1024x128_1_1_0_0_n_n.rhsBatch by decide), dif_pos (show (0 : Fin S128x256.rank) ∈ dot_S1024x256_S128x256_S1024x128_1_1_0_0_n_n.rhsNonContracting by decide)]
  rfl
/-- The right operand's column coordinate is the contraction position. -/
theorem rhs_scatter_1 (i : S1024x128.Idx) (q : dot_S1024x256_S128x256_S1024x128_1_1_0_0_n_n.contr.Idx) :
    (dot_S1024x256_S128x256_S1024x128_1_1_0_0_n_n.rhsIdx i q 1).val = (q ⟨0, by decide⟩).val :=
  dot_S1024x256_S128x256_S1024x128_1_1_0_0_n_n.rhsIdx_val_of_single rfl i q

/-- Adding messages: a [1024, 256] comparison matrix against the [128, 256] messages, contracted over the 256 edges. -/
theorem mm_scatter {φ₁ φ₂ : FTy} (l : FVec Ideal S1024x256 φ₁) (r : FVec Ideal S128x256 φ₂) (p : Fin 1024) (d : Fin 128) :
    matmul dot_S1024x256_S128x256_S1024x128_1_1_0_0_n_n none l r (constant S1024x128 .f32 0x00000000#32) (ix2 p d)
      = ∑ e : Fin 256, l (ix2 p e) * r (ix2 d e) := by
  simp only [matmul]
  rw [Ideal.matmul_constant_zero_apply, ← Equiv.sum_comp (ValueIdx.contrEquiv1 dot_S1024x256_S128x256_S1024x128_1_1_0_0_n_n 256 rfl rfl).symm]
  refine Finset.sum_congr rfl fun k _ => ?_
  have hk := ValueIdx.contrEquiv1_symm_val dot_S1024x256_S128x256_S1024x128_1_1_0_0_n_n 256 rfl rfl k
  have el : dot_S1024x256_S128x256_S1024x128_1_1_0_0_n_n.lhsIdx (ix2 p d) ((ValueIdx.contrEquiv1 dot_S1024x256_S128x256_S1024x128_1_1_0_0_n_n 256 rfl rfl).symm k) = ix2 p k := funext fun a => Fin.ext (by
    match a with
    | ⟨0, _⟩ => exact lhs_scatter_0 _ _
    | ⟨1, _⟩ => exact (lhs_scatter_1 _ _).trans hk)
  have er : dot_S1024x256_S128x256_S1024x128_1_1_0_0_n_n.rhsIdx (ix2 p d) ((ValueIdx.contrEquiv1 dot_S1024x256_S128x256_S1024x128_1_1_0_0_n_n 256 rfl rfl).symm k) = ix2 d k := funext fun a => Fin.ext (by
    match a with
    | ⟨0, _⟩ => exact rhs_scatter_0 _ _
    | ⟨1, _⟩ => exact (rhs_scatter_1 _ _).trans hk)
  rw [el, er]

/-! ## The comparison matrix -/

/-- A one-bit equality test of two words, widened to 32 bits and read as a signed integer on the extended reals, is one
    where the words agree and zero where they differ. -/
theorem sitofp_cmpi_eq (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · rw [if_pos h, StableHlo.Predicate.cmpi_eq_iff.mpr h]
    have : ((1#1 : BitVec 1).setWidth 32).toInt = 1 := by decide
    rw [this]; simp
  · rw [if_neg h, eq_zero_of_ne_one (fun hc => h (StableHlo.Predicate.cmpi_eq_iff.mp hc))]
    have : ((0#1 : BitVec 1).setWidth 32).toInt = 0 := by decide
    rw [this]; simp

/-- The comparison matrix of a row of 256 words `w` against the rows of the node block at offset `off`: one where the
    word minus the offset is the row's number, zero elsewhere. -/
theorem onehot_apply (w : IVec S1x256 32) (off : BitVec 32) (p : Fin 1024) (e : Fin 256) :
    (truncf .bf16 (sitofp .f32 (extui 32 (cmpi .eq (broadcastTo S1024x256 (subi w (broadcast S1x256 off)) broadcasts_S1x256_S1024x256)
        (iota .tc S1024x256 32 [0] iota_S1024x256_d0_w32)) natLt_1_32)) bitsLt_bf16_f32 : FVec Ideal S1024x256 .bf16) (ix2 p e)
      = if w (ix2 0 e) - off = BitVec.ofNat 32 p.val then (1 : EReal) else 0 := by
  -- the broadcast row at (p, e) is the row's word at e minus the offset
  have hA : broadcastTo S1024x256 (subi w (broadcast S1x256 off)) broadcasts_S1x256_S1024x256 (ix2 p e) = w (ix2 0 e) - off := by
    rw [broadcastTo_apply _ broadcasts_S1x256_S1024x256 (ix2 p e) (ix2 0 e) (fun a => by
      match a with
      | ⟨0, _⟩ => rfl
      | ⟨1, _⟩ => rfl)]
    rfl
  -- the row counter at (p, e) is the word of p
  have hB : iota .tc S1024x256 32 [0] iota_S1024x256_d0_w32 (ix2 p e) = BitVec.ofNat 32 p.val :=
    iota_single_apply .tc S1024x256 32 0 iota_S1024x256_d0_w32 (ix2 p e)
  -- narrowing, conversion, widening and comparison all read elementwise
  show (FloatOps.sitofp (F := Ideal) .f32 ((IntOp.cmpi .eq
      (broadcastTo S1024x256 (subi w (broadcast S1x256 off)) broadcasts_S1x256_S1024x256 (ix2 p e))
      (iota .tc S1024x256 32 [0] iota_S1024x256_d0_w32 (ix2 p e))).setWidth 32) : EReal) = _
  rw [hA, hB]
  exact sitofp_cmpi_eq _ _

end Cert.KernelIdeal.KDots

end
-- ==== Proof.KLin.lean ====
/-
  The two dense layers (a grid of 49 row blocks of 1024 rows, each block times the 128 × 128 weights): after the run the
  output array holds, at every padded row and column, the row of the input array times the weight column.
-/
import proofs.«421162_j50672024158728_1_alg».proof.Proof.Gen.KernelIdeal.Frame
import proofs.«421162_j50672024158728_1_alg».proof.Proof.KDots
import Idealize.ShloMosaic.Lib.Pipeline.Value
import Idealize.ShloMosaic.Lib.ValueIdx
import Idealize.ShloMosaic.Lib.ValueLayout

set_option maxRecDepth 16384

noncomputable section

namespace Cert.KernelIdeal.KLin

open Idealize.ShloMosaic Idealize.ShloMosaic.TcCoe Idealize.ShloMosaic.ValueIdx Idealize.SL.Sem
open Idealize.ShloMosaic.Pipeline (Dat)
open Cert.KernelIdeal Cert.KernelIdeal.Gen

/-- Region 0's input feature array, weights and output array, at their literal types. -/
abbrev xin0 (V : (c : Dev nD) → (b : Ref sig .tc) → Buf (Elt Ideal) ((c : Thread nD τ).loc b)) (c : Dev nD) : Vec Ideal S50176x128 .f32 := V c main_v41
abbrev wts0 (V : (c : Dev nD) → (b : Ref sig .tc) → Buf (Elt Ideal) ((c : Thread nD τ).loc b)) (c : Dev nD) : Vec Ideal S128x128 .f32 := V c main_arg2
abbrev res0 (V : (c : Dev nD) → (b : Ref sig .tc) → Buf (Elt Ideal) ((c : Thread nD τ).loc b)) (c : Dev nD) : Vec Ideal S50176x128 .bf16 := (dat0 V c).arrAt 2 cfg0.N

/-- The offsets of a store or load of a whole block are all zero. -/
theorem zero_off : (![0, 0] : Fin 2 → Nat) = fun _ => 0 := funext fun a => by fin_cases a <;> rfl

section Region0
/-- The dense layer's payload at one entry of a block: the block's row times the weights' column. -/
theorem pay0_apply (x0 : Vec Ideal S1024x128 .f32) (x1 : Vec Ideal S128x128 .f32) (p : Fin 1024) (q : Fin 128) :
    k0_pay1 x0 x1 (ix2 p q) = ∑ k : Fin 128, x0 (ix2 p k) * x1 (ix2 k q) := by
  unfold k0_pay1
  rw [truncf_apply]
  refine (KDots.mm_lin _ _ p q).trans ?_
  refine Finset.sum_congr rfl fun k _ => ?_
  rw [truncf_apply, truncf_apply, shapeCast_self]

/-- The whole output array as one function of the input array and the weights: each row times each column. -/
abbrev prod0 (V : (c : Dev nD) → (b : Ref sig .tc) → Buf (Elt Ideal) ((c : Thread nD τ).loc b)) (c : Dev nD) : Vec Ideal S50176x128 .bf16 := fun i =>
  ∑ k : Fin 128, xin0 V c (ix2 ⟨(i 0).val, idx2_lt0 i⟩ k) * wts0 V c (ix2 k ⟨(i 1).val, idx2_lt1 i⟩)

/-- The index maps over the 49 grid points: the input's and the output's row block is the point's number, their
    column block is 0, and the weights' block is (0, 0). -/
theorem idx_lin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The input window's block at point `t` is rows `1024 t … 1024 t + 1023` of the input array. -/
theorem in_blk0 (c : Dev nD) (t : Fin cfg0.N) (y : S1024x128.Idx) (i : S50176x128.Idx)
    (h0 : (i 0).val = 1024 * t.val + (y 0).val) (h1 : (i 1).val = (y 1).val) :
    (iblk0 V c 0 t : Vec Ideal S1024x128 .f32) y = xin0 V c i := by
  obtain ⟨e0, e1, -, -, -, -⟩ := idx_lin0 t
  show V c main_v41 (((cfg0.win 0).blk t).view.emb y) = V c main_v41 i
  congr 1
  funext a
  apply Fin.ext
  match a with
  | ⟨0, _⟩ => show win0_0.index t (0 : Fin 2) * 1024 + 1 * (y 0).val = (i 0).val; omega
  | ⟨1, _⟩ => show win0_0.index t (1 : Fin 2) * 128 + 1 * (y 1).val = (i 1).val; omega

/-- The weights' window holds the whole weights at every point. -/
theorem wt_blk0 (c : Dev nD) (t : Fin cfg0.N) (y : S128x128.Idx) :
    (iblk0 V c 1 t : Vec Ideal S128x128 .f32) y = wts0 V c y := by
  obtain ⟨-, -, e0, e1, -, -⟩ := idx_lin0 t
  show V c main_arg2 (((cfg0.win 1).blk t).view.emb y) = V c main_arg2 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the whole-array product. -/
theorem flushed_lin0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_off]
  simp only [View.ld_unit_zero (S := S1024x128) zero_off, View.ld_unit_zero (S := S128x128) zero_off]
  obtain ⟨-, -, -, -, e0, e1⟩ := idx_lin0 t
  have ht : t.val < 49 := lt_of_lt_of_eq t.isLt N_0
  funext y
  obtain ⟨p, q, rfl⟩ : ∃ (p : Fin 1024) (q : Fin 128), y = ix2 p q := ⟨y 0, y 1, eq_ix2 y⟩
  show k0_pay1 (iblk0 V c 0 t) (iblk0 V c 1 t) (ix2 p q) = prod0 V c (((cfg0.win 2).blk t).view.emb (ix2 p q))
  refine (pay0_apply _ _ p q).trans ?_
  refine Finset.sum_congr rfl fun k _ => ?_
  have hr : ((((cfg0.win 2).blk t).view.emb (ix2 p q) : S50176x128.Idx) 0).val = 1024 * t.val + p.val := by
    show win0_2.index t (0 : Fin 2) * 1024 + 1 * p.val = _; omega
  have hc : ((((cfg0.win 2).blk t).view.emb (ix2 p q) : S50176x128.Idx) 1).val = q.val := by
    show win0_2.index t (1 : Fin 2) * 128 + 1 * q.val = _; omega
  refine congrArg₂ (· * ·) ?_ ?_
  · exact in_blk0 V c t (ix2 p k) _ hr rfl
  · refine (wt_blk0 V c t (ix2 k q)).trans (congrArg (wts0 V c) ?_)
    funext a
    apply Fin.ext
    match a with
    | ⟨0, _⟩ => rfl
    | ⟨1, _⟩ => exact hc.symm

/-- An index of the output array is in point `t`'s block iff each coordinate is in the block's range on its axis. -/
theorem mem_blk_lin0 (t : Fin cfg0.N) (i : S50176x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v42).slice (win0_2.rect t)).set ↔ _
  rw [View.set_slice_whole, Rect.mem_set_unit]
  exact Iff.rfl

/-- Every index of the output array lies in the block of the point numbered by its row divided by 1024. -/
theorem cover_lin0 (i : S50176x128.Idx) :
    ∃ t : Fin cfg0.N, (cfg0.win 2).flush t = true ∧ i ∈ ((cfg0.win 2).blk t).view.set := by
  have hi0 : (i 0).val < 50176 := idx2_lt0 i
  have hi1 : (i 1).val < 128 := idx2_lt1 i
  have hN : cfg0.N = 49 := N_0
  let t : Fin cfg0.N := ⟨(i 0).val / 1024, by rw [hN]; omega⟩
  obtain ⟨-, -, -, -, e0, e1⟩ := idx_lin0 t
  have hv : t.val = (i 0).val / 1024 := rfl
  refine ⟨t, flush0_2 t, ?_⟩
  rw [mem_blk_lin0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output array after the run is the whole-array product. -/
theorem final_lin0 (c : Dev nD) : (dat0 V c).arrAt 2 cfg0.N = prod0 V c :=
  (dat0 V c).arrAt_eq_of_cover 2 (prod0 V c) (fun t _ => flushed_lin0 V c t) cover_lin0

end Region0

/-- Region 0: the output array after the run, at padded row `r` and column `j`: the row of the input array times the weights. -/
theorem lin0_final (V : (c : Dev nD) → (b : Ref sig .tc) → Buf (Elt Ideal) ((c : Thread nD τ).loc b)) (c : Dev nD) (r : Fin 50176) (j : Fin 128) :
    res0 V c (ix2 r j) = ∑ k : Fin 128, xin0 V c (ix2 r k) * wts0 V c (ix2 k j) :=
  congrFun (final_lin0 V c) (ix2 r j)

/-- Region 2's input feature array, weights and output array, at their literal types. -/
abbrev xin2 (V : (c : Dev nD) → (b : Ref sig .tc) → Buf (Elt Ideal) ((c : Thread nD τ).loc b)) (c : Dev nD) : Vec Ideal S50176x128 .f32 := V c main_v43
abbrev wts2 (V : (c : Dev nD) → (b : Ref sig .tc) → Buf (Elt Ideal) ((c : Thread nD τ).loc b)) (c : Dev nD) : Vec Ideal S128x128 .f32 := V c main_arg6
abbrev res2 (V : (c : Dev nD) → (b : Ref sig .tc) → Buf (Elt Ideal) ((c : Thread nD τ).loc b)) (c : Dev nD) : Vec Ideal S50176x128 .bf16 := (dat2 V c).arrAt 2 cfg2.N

section Region2
/-- The dense layer's payload at one entry of a block: the block's row times the weights' column. -/
theorem pay2_apply (x0 : Vec Ideal S1024x128 .f32) (x1 : Vec Ideal S128x128 .f32) (p : Fin 1024) (q : Fin 128) :
    k2_pay1 x0 x1 (ix2 p q) = ∑ k : Fin 128, x0 (ix2 p k) * x1 (ix2 k q) := by
  unfold k2_pay1
  rw [truncf_apply]
  refine (KDots.mm_lin _ _ p q).trans ?_
  refine Finset.sum_congr rfl fun k _ => ?_
  rw [truncf_apply, truncf_apply, shapeCast_self]

/-- The whole output array as one function of the input array and the weights: each row times each column. -/
abbrev prod2 (V : (c : Dev nD) → (b : Ref sig .tc) → Buf (Elt Ideal) ((c : Thread nD τ).loc b)) (c : Dev nD) : Vec Ideal S50176x128 .bf16 := fun i =>
  ∑ k : Fin 128, xin2 V c (ix2 ⟨(i 0).val, idx2_lt0 i⟩ k) * wts2 V c (ix2 k ⟨(i 1).val, idx2_lt1 i⟩)

/-- The index maps over the 49 grid points: the input's and the output's row block is the point's number, their
    column block is 0, and the weights' block is (0, 0). -/
theorem idx_lin2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The input window's block at point `t` is rows `1024 t … 1024 t + 1023` of the input array. -/
theorem in_blk2 (c : Dev nD) (t : Fin cfg2.N) (y : S1024x128.Idx) (i : S50176x128.Idx)
    (h0 : (i 0).val = 1024 * t.val + (y 0).val) (h1 : (i 1).val = (y 1).val) :
    (iblk2 V c 0 t : Vec Ideal S1024x128 .f32) y = xin2 V c i := by
  obtain ⟨e0, e1, -, -, -, -⟩ := idx_lin2 t
  show V c main_v43 (((cfg2.win 0).blk t).view.emb y) = V c main_v43 i
  congr 1
  funext a
  apply Fin.ext
  match a with
  | ⟨0, _⟩ => show win2_0.index t (0 : Fin 2) * 1024 + 1 * (y 0).val = (i 0).val; omega
  | ⟨1, _⟩ => show win2_0.index t (1 : Fin 2) * 128 + 1 * (y 1).val = (i 1).val; omega

/-- The weights' window holds the whole weights at every point. -/
theorem wt_blk2 (c : Dev nD) (t : Fin cfg2.N) (y : S128x128.Idx) :
    (iblk2 V c 1 t : Vec Ideal S128x128 .f32) y = wts2 V c y := by
  obtain ⟨-, -, e0, e1, -, -⟩ := idx_lin2 t
  show V c main_arg6 (((cfg2.win 1).blk t).view.emb y) = V c main_arg6 y
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point `t` writes back is block `t` of the whole-array product. -/
theorem flushed_lin2 (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_off]
  simp only [View.ld_unit_zero (S := S1024x128) zero_off, View.ld_unit_zero (S := S128x128) zero_off]
  obtain ⟨-, -, -, -, e0, e1⟩ := idx_lin2 t
  have ht : t.val < 49 := lt_of_lt_of_eq t.isLt N_2
  funext y
  obtain ⟨p, q, rfl⟩ : ∃ (p : Fin 1024) (q : Fin 128), y = ix2 p q := ⟨y 0, y 1, eq_ix2 y⟩
  show k2_pay1 (iblk2 V c 0 t) (iblk2 V c 1 t) (ix2 p q) = prod2 V c (((cfg2.win 2).blk t).view.emb (ix2 p q))
  refine (pay2_apply _ _ p q).trans ?_
  refine Finset.sum_congr rfl fun k _ => ?_
  have hr : ((((cfg2.win 2).blk t).view.emb (ix2 p q) : S50176x128.Idx) 0).val = 1024 * t.val + p.val := by
    show win2_2.index t (0 : Fin 2) * 1024 + 1 * p.val = _; omega
  have hc : ((((cfg2.win 2).blk t).view.emb (ix2 p q) : S50176x128.Idx) 1).val = q.val := by
    show win2_2.index t (1 : Fin 2) * 128 + 1 * q.val = _; omega
  refine congrArg₂ (· * ·) ?_ ?_
  · exact in_blk2 V c t (ix2 p k) _ hr rfl
  · refine (wt_blk2 V c t (ix2 k q)).trans (congrArg (wts2 V c) ?_)
    funext a
    apply Fin.ext
    match a with
    | ⟨0, _⟩ => rfl
    | ⟨1, _⟩ => exact hc.symm

/-- An index of the output array is in point `t`'s block iff each coordinate is in the block's range on its axis. -/
theorem mem_blk_lin2 (t : Fin cfg2.N) (i : S50176x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v44).slice (win2_2.rect t)).set ↔ _
  rw [View.set_slice_whole, Rect.mem_set_unit]
  exact Iff.rfl

/-- Every index of the output array lies in the block of the point numbered by its row divided by 1024. -/
theorem cover_lin2 (i : S50176x128.Idx) :
    ∃ t : Fin cfg2.N, (cfg2.win 2).flush t = true ∧ i ∈ ((cfg2.win 2).blk t).view.set := by
  have hi0 : (i 0).val < 50176 := idx2_lt0 i
  have hi1 : (i 1).val < 128 := idx2_lt1 i
  have hN : cfg2.N = 49 := N_2
  let t : Fin cfg2.N := ⟨(i 0).val / 1024, by rw [hN]; omega⟩
  obtain ⟨-, -, -, -, e0, e1⟩ := idx_lin2 t
  have hv : t.val = (i 0).val / 1024 := rfl
  refine ⟨t, flush2_2 t, ?_⟩
  rw [mem_blk_lin2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- The output array after the run is the whole-array product. -/
theorem final_lin2 (c : Dev nD) : (dat2 V c).arrAt 2 cfg2.N = prod2 V c :=
  (dat2 V c).arrAt_eq_of_cover 2 (prod2 V c) (fun t _ => flushed_lin2 V c t) cover_lin2

end Region2

/-- Region 2: the output array after the run, at padded row `r` and column `j`: the row of the input array times the weights. -/
theorem lin2_final (V : (c : Dev nD) → (b : Ref sig .tc) → Buf (Elt Ideal) ((c : Thread nD τ).loc b)) (c : Dev nD) (r : Fin 50176) (j : Fin 128) :
    res2 V c (ix2 r j) = ∑ k : Fin 128, xin2 V c (ix2 r k) * wts2 V c (ix2 k j) :=
  congrFun (final_lin2 V c) (ix2 r j)

end Cert.KernelIdeal.KLin

end
-- ==== Proof.KLn.lean ====
/-
  The layer norm the aggregation kernels apply at their last grid point, read at one entry: the row's sums plus the bias,
  normalised over the 128 features (mean, variance, reciprocal square root of the variance plus the programs' constant),
  scaled and shifted; after the first layer the maximum with zero.
-/
import proofs.«421162_j50672024158728_1_alg».proof.Proof.Gen.KernelIdeal.Skeleton
import proofs.«421162_j50672024158728_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KLn

open Idealize.ShloMosaic Idealize.ShloMosaic.ValueIdx Cert.KernelIdeal Cert.KernelIdeal.Gen

/-! ## The column forms of a kept axis: a vector seen as a column, a column spread over the features -/

/-- A vector of `a` entries seen as a column `[a, 1]` reads, at `(v, u)`, the vector at `v`: the two row-major
    positions are `v` and `v * 1 + 0`. -/
theorem shapeCast_a_a1_apply {α : Type} {a : ℕ} (x : (⟨1, ![a]⟩ : Shape).Idx → α)
    (h : (⟨1, ![a]⟩ : Shape).ShapeCasts ⟨2, ![a, 1]⟩) (v : Fin a) (u : Fin 1) :
    shapeCast ⟨2, ![a, 1]⟩ x h (ix2 v u) = x (ix1 v) :=
  shapeCast_apply x h _ _ (by
    have hu : u.val = 0 := by omega
    rw [Shape.rowMajor_val_two, Shape.rowMajor_val_one]
    show v.val = v.val * 1 + u.val
    rw [hu, Nat.mul_one, Nat.add_zero])

/-- A column `[a, 1]` spread to `[a, b]` reads, at `(v, j)`, the column's entry of row `v`: the unit axis is read at `0`,
    the row axis at `v` (when `a = 1` the row is `0` as well). -/
theorem broadcastTo_a1_ab_apply {α : Type} {a b : ℕ} (x : (⟨2, ![a, 1]⟩ : Shape).Idx → α)
    (h : (⟨2, ![a, 1]⟩ : Shape).Broadcasts ⟨2, ![a, b]⟩) (v : Fin a) (j : Fin b) :
    broadcastTo ⟨2, ![a, b]⟩ x h (ix2 v j) = x (ix2 v (0 : Fin 1)) := by
  refine broadcastTo_apply x h (ix2 v j) (ix2 v (0 : Fin 1)) fun ax => ?_
  match ax with
  | ⟨0, _⟩ =>
    show v.val = if a = 1 then 0 else v.val
    split
    · have := v.isLt; omega
    · rfl
  | ⟨1, _⟩ => rfl

/-- The reciprocal square root of a vector, at an index. -/
theorem rsqrt_apply {s : Shape} {φ : FTy} (x : FVec Ideal s φ) (i : s.Idx) : rsqrt x i = Ideal.rsqrt (x i) := rfl

/-! ## The sum over the features of one row -/

/-- The sum over axis 1 of a `[50176, 128]` array, at row `v`, is the sum over the 128 features `k` of the entry
    `(v, k)`: the index the reduction puts back has `k` on the reduced axis and `v` on the kept one. -/
theorem rowSum_apply (X : FVec Ideal S50176x128 .f32) (hφ : FKind.Formats .f32)
    (hacc : (0x00000000#32 : BitVec 32) = 0x00000000#32) (v : Fin 50176) :
    multiReduction (F := Ideal) .add [1] S50176 X 0x00000000#32 reduces_S50176x128_S50176 hφ hacc (ix1 v)
      = ∑ k : Fin 128, X (ix2 v k) := by
  refine (Ideal.multiReduction_add_single X 0x00000000#32 reduces_S50176x128_S50176 hφ hacc (ix1 v)).trans ?_
  refine Finset.sum_congr rfl fun k _ => congrArg X (funext fun a => Fin.ext ?_)
  match a with
  | ⟨0, _⟩ => rfl
  | ⟨1, _⟩ => rfl

/-! ## The two closing stores -/

/-- The second aggregation kernel's closing store (no maximum), at row `v` and feature `j`. The entry is read through
    the pointwise operations down to the two row sums; the outer sum (of the squared deviations) is opened first, then the
    inner one (the mean, the same under every feature of the row), and what is left is the layer norm of the row
    `k ↦ A (v, k) + b k` term for term. -/
theorem ln3_apply (A : Vec Ideal S50176x128 .f32) (b g beta : Vec Ideal S128 .f32) (v : Fin 50176) (j : Fin 128) :
    k3_pay2 (F := Ideal) A b g beta (ix2 v j)
      = Cert.Spec.lnRow (fun k => A (ix2 v k) + b (ix1 k)) (fun k => g (ix1 k)) (fun k => beta (ix1 k)) j := by
  unfold k3_pay2
  -- down to the row sums of `A + b` and of the squared deviations, both at row `v`
  simp only [addf_apply, mulf_apply, subf_apply, divf_apply, rsqrt_apply, broadcast_apply, shapeCast_self,
    broadcastTo_1b_ab_apply, shapeCast_a_1a_apply, broadcastTo_a1_ab_apply, shapeCast_a_a1_apply, Ideal.ofBits_def]
  rw [rowSum_apply, rowSum_apply]
  -- under the sum of the squared deviations: each deviation, down to the row's mean again
  simp only [addf_apply, mulf_apply, subf_apply, divf_apply, rsqrt_apply, broadcast_apply, shapeCast_self,
    broadcastTo_1b_ab_apply, shapeCast_a_1a_apply, broadcastTo_a1_ab_apply, shapeCast_a_a1_apply, Ideal.ofBits_def]
  rw [rowSum_apply]
  simp only [addf_apply, mulf_apply, subf_apply, divf_apply, rsqrt_apply, broadcast_apply, shapeCast_self,
    broadcastTo_1b_ab_apply, shapeCast_a_1a_apply, broadcastTo_a1_ab_apply, shapeCast_a_a1_apply, Ideal.ofBits_def]
  rfl

/-- The first aggregation kernel's closing store, at row `v` and feature `j`: the same value under the maximum with
    the zero word. -/
theorem ln1_apply (A : Vec Ideal S50176x128 .f32) (b g beta : Vec Ideal S128 .f32) (v : Fin 50176) (j : Fin 128) :
    k1_pay2 (F := Ideal) A b g beta (ix2 v j)
      = Cert.Spec.lnReluRow (fun k => A (ix2 v k) + b (ix1 k)) (fun k => g (ix1 k)) (fun k => beta (ix1 k)) j := by
  show max (k3_pay2 (F := Ideal) A b g beta (ix2 v j)) (Ideal.ofBits .f32 0x00000000#32) = _
  rw [ln3_apply]
  rfl

end Cert.KernelIdeal.KLn

end
-- ==== Proof.KDefs.lean ====
import proofs.«421162_j50672024158728_1_alg».proof.Proof.Gen.KernelIdeal.Skeleton
import Idealize.ShloMosaic.Lib.Pipeline.FrameBody

noncomputable section

namespace Cert.KernelIdeal.KD

open Idealize.ShloMosaic Cert.KernelIdeal Cert.KernelIdeal.Gen

variable {F : FTy → Type} [FloatOps F]

/-- The message matrix of one edge block in the first aggregation kernel, [128 features × 256 edges]: the source rows
    picked out of the 49 node blocks of `x3` by comparing the block's source words `x0` with the row numbers, times the
    block's weights `x2` — the printed operations, in program order. -/
def msg1 (x0 : Vec F S1x256 .i32) (x2 : Vec F S1x256 .f32) (x3 : Vec F S50176x128 .bf16) : FVec F S128x256 .bf16 :=
  k1_pay31 (k1_pay4 (View.ld x0 (Rect.unit (s := S1x256) ![0, 0] S1x256.size inb_S1x256_S1x256_0_0))) (k1_pay6 (View.ld x2 (Rect.unit (s := S1x256) ![0, 0] S1x256.size inb_S1x256_S1x256_0_0))) (iota .tc S1024x256 32 [0] iota_S1024x256_d0_w32) (k1_pay29 (k1_pay4 (View.ld x0 (Rect.unit (s := S1x256) ![0, 0] S1x256.size inb_S1x256_S1x256_0_0))) (iota .tc S1024x256 32 [0] iota_S1024x256_d0_w32) (k1_pay27 (k1_pay4 (View.ld x0 (Rect.unit (s := S1x256) ![0, 0] S1x256.size inb_S1x256_S1x256_0_0))) (iota .tc S1024x256 32 [0] iota_S1024x256_d0_w32) (k1_pay25 (k1_pay4 (View.ld x0 (Rect.unit (s := S1x256) ![0, 0] S1x256.size inb_S1x256_S1x256_0_0))) (iota .tc S1024x256 32 [0] iota_S1024x256_d0_w32) (k1_pay23 (k1_pay4 (View.ld x0 (Rect.unit (s := S1x256) ![0, 0] S1x256.size inb_S1x256_S1x256_0_0))) (iota .tc S1024x256 32 [0] iota_S1024x256_d0_w32) (k1_pay21 (k1_pay4 (View.ld x0 (Rect.unit (s := S1x256) ![0, 0] S1x256.size inb_S1x256_S1x256_0_0))) (iota .tc S1024x256 32 [0] iota_S1024x256_d0_w32) (k1_pay19 (k1_pay4 (View.ld x0 (Rect.unit (s := S1x256) ![0, 0] S1x256.size inb_S1x256_S1x256_0_0))) (iota .tc S1024x256 32 [0] iota_S1024x256_d0_w32) (k1_pay17 (k1_pay4 (View.ld x0 (Rect.unit (s := S1x256) ![0, 0] S1x256.size inb_S1x256_S1x256_0_0))) (iota .tc S1024x256 32 [0] iota_S1024x256_d0_w32) (k1_pay15 (k1_pay4 (View.ld x0 (Rect.unit (s := S1x256) ![0, 0] S1x256.size inb_S1x256_S1x256_0_0))) (iota .tc S1024x256 32 [0] iota_S1024x256_d0_w32) (k1_pay13 (k1_pay4 (View.ld x0 (Rect.unit (s := S1x256) ![0, 0] S1x256.size inb_S1x256_S1x256_0_0))) (iota .tc S1024x256 32 [0] iota_S1024x256_d0_w32) (k1_pay11 (k1_pay4 (View.ld x0 (Rect.unit (s := S1x256) ![0, 0] S1x256.size inb_S1x256_S1x256_0_0))) (iota .tc S1024x256 32 [0] iota_S1024x256_d0_w32) (k1_pay9 (k1_pay4 (View.ld x0 (Rect.unit (s := S1x256) ![0, 0] S1x256.size inb_S1x256_S1x256_0_0))) (iota .tc S1024x256 32 [0] iota_S1024x256_d0_w32) (k1_pay7 (View.ld x0 (Rect.unit (s := S1x256) ![0, 0] S1x256.size inb_S1x256_S1x256_0_0)) (View.ld x3 (Rect.unit (s := S50176x128) ![0, 0] S1024x128.size inb_S50176x128_S1024x128_0_0)) (View.ld x3 (Rect.unit (s := S50176x128) ![1024, 0] S1024x128.size inb_S50176x128_S1024x128_1024_0))) (k1_pay8 (View.ld x0 (Rect.unit (s := S1x256) ![0, 0] S1x256.size inb_S1x256_S1x256_0_0))) (View.ld x3 (Rect.unit (s := S50176x128) ![2048, 0] S1024x128.size inb_S50176x128_S1024x128_2048_0)) (View.ld x3 (Rect.unit (s := S50176x128) ![3072, 0] S1024x128.size inb_S50176x128_S1024x128_3072_0)) (View.ld x3 (Rect.unit (s := S50176x128) ![4096, 0] S1024x128.size inb_S50176x128_S1024x128_4096_0)) (View.ld x3 (Rect.unit (s := S50176x128) ![5120, 0] S1024x128.size inb_S50176x128_S1024x128_5120_0))) (k1_pay10 (k1_pay4 (View.ld x0 (Rect.unit (s := S1x256) ![0, 0] S1x256.size inb_S1x256_S1x256_0_0))) (iota .tc S1024x256 32 [0] iota_S1024x256_d0_w32)) (View.ld x3 (Rect.unit (s := S50176x128) ![6144, 0] S1024x128.size inb_S50176x128_S1024x128_6144_0)) (View.ld x3 (Rect.unit (s := S50176x128) ![7168, 0] S1024x128.size inb_S50176x128_S1024x128_7168_0)) (View.ld x3 (Rect.unit (s := S50176x128) ![8192, 0] S1024x128.size inb_S50176x128_S1024x128_8192_0)) (View.ld x3 (Rect.unit (s := S50176x128) ![9216, 0] S1024x128.size inb_S50176x128_S1024x128_9216_0))) (k1_pay12 (k1_pay4 (View.ld x0 (Rect.unit (s := S1x256) ![0, 0] S1x256.size inb_S1x256_S1x256_0_0))) (iota .tc S1024x256 32 [0] iota_S1024x256_d0_w32)) (View.ld x3 (Rect.unit (s := S50176x128) ![10240, 0] S1024x128.size inb_S50176x128_S1024x128_10240_0)) (View.ld x3 (Rect.unit (s := S50176x128) ![11264, 0] S1024x128.size inb_S50176x128_S1024x128_11264_0)) (View.ld x3 (Rect.unit (s := S50176x128) ![12288, 0] S1024x128.size inb_S50176x128_S1024x128_12288_0)) (View.ld x3 (Rect.unit (s := S50176x128) ![13312, 0] S1024x128.size inb_S50176x128_S1024x128_13312_0))) (k1_pay14 (k1_pay4 (View.ld x0 (Rect.unit (s := S1x256) ![0, 0] S1x256.size inb_S1x256_S1x256_0_0))) (iota .tc S1024x256 32 [0] iota_S1024x256_d0_w32)) (View.ld x3 (Rect.unit (s := S50176x128) ![14336, 0] S1024x128.size inb_S50176x128_S1024x128_14336_0)) (View.ld x3 (Rect.unit (s := S50176x128) ![15360, 0] S1024x128.size inb_S50176x128_S1024x128_15360_0)) (View.ld x3 (Rect.unit (s := S50176x128) ![16384, 0] S1024x128.size inb_S50176x128_S1024x128_16384_0)) (View.ld x3 (Rect.unit (s := S50176x128) ![17408, 0] S1024x128.size inb_S50176x128_S1024x128_17408_0))) (k1_pay16 (k1_pay4 (View.ld x0 (Rect.unit (s := S1x256) ![0, 0] S1x256.size inb_S1x256_S1x256_0_0))) (iota .tc S1024x256 32 [0] iota_S1024x256_d0_w32)) (View.ld x3 (Rect.unit (s := S50176x128) ![18432, 0] S1024x128.size inb_S50176x128_S1024x128_18432_0)) (View.ld x3 (Rect.unit (s := S50176x128) ![19456, 0] S1024x128.size inb_S50176x128_S1024x128_19456_0)) (View.ld x3 (Rect.unit (s := S50176x128) ![20480, 0] S1024x128.size inb_S50176x128_S1024x128_20480_0)) (View.ld x3 (Rect.unit (s := S50176x128) ![21504, 0] S1024x128.size inb_S50176x128_S1024x128_21504_0))) (k1_pay18 (k1_pay4 (View.ld x0 (Rect.unit (s := S1x256) ![0, 0] S1x256.size inb_S1x256_S1x256_0_0))) (iota .tc S1024x256 32 [0] iota_S1024x256_d0_w32)) (View.ld x3 (Rect.unit (s := S50176x128) ![22528, 0] S1024x128.size inb_S50176x128_S1024x128_22528_0)) (View.ld x3 (Rect.unit (s := S50176x128) ![23552, 0] S1024x128.size inb_S50176x128_S1024x128_23552_0)) (View.ld x3 (Rect.unit (s := S50176x128) ![24576, 0] S1024x128.size inb_S50176x128_S1024x128_24576_0)) (View.ld x3 (Rect.unit (s := S50176x128) ![25600, 0] S1024x128.size inb_S50176x128_S1024x128_25600_0))) (k1_pay20 (k1_pay4 (View.ld x0 (Rect.unit (s := S1x256) ![0, 0] S1x256.size inb_S1x256_S1x256_0_0))) (iota .tc S1024x256 32 [0] iota_S1024x256_d0_w32)) (View.ld x3 (Rect.unit (s := S50176x128) ![26624, 0] S1024x128.size inb_S50176x128_S1024x128_26624_0)) (View.ld x3 (Rect.unit (s := S50176x128) ![27648, 0] S1024x128.size inb_S50176x128_S1024x128_27648_0)) (View.ld x3 (Rect.unit (s := S50176x128) ![28672, 0] S1024x128.size inb_S50176x128_S1024x128_28672_0)) (View.ld x3 (Rect.unit (s := S50176x128) ![29696, 0] S1024x128.size inb_S50176x128_S1024x128_29696_0))) (k1_pay22 (k1_pay4 (View.ld x0 (Rect.unit (s := S1x256) ![0, 0] S1x256.size inb_S1x256_S1x256_0_0))) (iota .tc S1024x256 32 [0] iota_S1024x256_d0_w32)) (View.ld x3 (Rect.unit (s := S50176x128) ![30720, 0] S1024x128.size inb_S50176x128_S1024x128_30720_0)) (View.ld x3 (Rect.unit (s := S50176x128) ![31744, 0] S1024x128.size inb_S50176x128_S1024x128_31744_0)) (View.ld x3 (Rect.unit (s := S50176x128) ![32768, 0] S1024x128.size inb_S50176x128_S1024x128_32768_0)) (View.ld x3 (Rect.unit (s := S50176x128) ![33792, 0] S1024x128.size inb_S50176x128_S1024x128_33792_0))) (k1_pay24 (k1_pay4 (View.ld x0 (Rect.unit (s := S1x256) ![0, 0] S1x256.size inb_S1x256_S1x256_0_0))) (iota .tc S1024x256 32 [0] iota_S1024x256_d0_w32)) (View.ld x3 (Rect.unit (s := S50176x128) ![34816, 0] S1024x128.size inb_S50176x128_S1024x128_34816_0)) (View.ld x3 (Rect.unit (s := S50176x128) ![35840, 0] S1024x128.size inb_S50176x128_S1024x128_35840_0)) (View.ld x3 (Rect.unit (s := S50176x128) ![36864, 0] S1024x128.size inb_S50176x128_S1024x128_36864_0)) (View.ld x3 (Rect.unit (s := S50176x128) ![37888, 0] S1024x128.size inb_S50176x128_S1024x128_37888_0))) (k1_pay26 (k1_pay4 (View.ld x0 (Rect.unit (s := S1x256) ![0, 0] S1x256.size inb_S1x256_S1x256_0_0))) (iota .tc S1024x256 32 [0] iota_S1024x256_d0_w32)) (View.ld x3 (Rect.unit (s := S50176x128) ![38912, 0] S1024x128.size inb_S50176x128_S1024x128_38912_0)) (View.ld x3 (Rect.unit (s := S50176x128) ![39936, 0] S1024x128.size inb_S50176x128_S1024x128_39936_0)) (View.ld x3 (Rect.unit (s := S50176x128) ![40960, 0] S1024x128.size inb_S50176x128_S1024x128_40960_0)) (View.ld x3 (Rect.unit (s := S50176x128) ![41984, 0] S1024x128.size inb_S50176x128_S1024x128_41984_0))) (k1_pay28 (k1_pay4 (View.ld x0 (Rect.unit (s := S1x256) ![0, 0] S1x256.size inb_S1x256_S1x256_0_0))) (iota .tc S1024x256 32 [0] iota_S1024x256_d0_w32)) (View.ld x3 (Rect.unit (s := S50176x128) ![43008, 0] S1024x128.size inb_S50176x128_S1024x128_43008_0)) (View.ld x3 (Rect.unit (s := S50176x128) ![44032, 0] S1024x128.size inb_S50176x128_S1024x128_44032_0)) (View.ld x3 (Rect.unit (s := S50176x128) ![45056, 0] S1024x128.size inb_S50176x128_S1024x128_45056_0)) (View.ld x3 (Rect.unit (s := S50176x128) ![46080, 0] S1024x128.size inb_S50176x128_S1024x128_46080_0))) (k1_pay30 (k1_pay4 (View.ld x0 (Rect.unit (s := S1x256) ![0, 0] S1x256.size inb_S1x256_S1x256_0_0))) (iota .tc S1024x256 32 [0] iota_S1024x256_d0_w32)) (View.ld x3 (Rect.unit (s := S50176x128) ![47104, 0] S1024x128.size inb_S50176x128_S1024x128_47104_0)) (View.ld x3 (Rect.unit (s := S50176x128) ![48128, 0] S1024x128.size inb_S50176x128_S1024x128_48128_0)) (View.ld x3 (Rect.unit (s := S50176x128) ![49152, 0] S1024x128.size inb_S50176x128_S1024x128_49152_0))

/-- The same in the second aggregation kernel. -/
def msg3 (x0 : Vec F S1x256 .i32) (x2 : Vec F S1x256 .f32) (x3 : Vec F S50176x128 .bf16) : FVec F S128x256 .bf16 :=
  k3_pay31 (k3_pay4 (View.ld x0 (Rect.unit (s := S1x256) ![0, 0] S1x256.size inb_S1x256_S1x256_0_0))) (k3_pay6 (View.ld x2 (Rect.unit (s := S1x256) ![0, 0] S1x256.size inb_S1x256_S1x256_0_0))) (iota .tc S1024x256 32 [0] iota_S1024x256_d0_w32) (k3_pay29 (k3_pay4 (View.ld x0 (Rect.unit (s := S1x256) ![0, 0] S1x256.size inb_S1x256_S1x256_0_0))) (iota .tc S1024x256 32 [0] iota_S1024x256_d0_w32) (k3_pay27 (k3_pay4 (View.ld x0 (Rect.unit (s := S1x256) ![0, 0] S1x256.size inb_S1x256_S1x256_0_0))) (iota .tc S1024x256 32 [0] iota_S1024x256_d0_w32) (k3_pay25 (k3_pay4 (View.ld x0 (Rect.unit (s := S1x256) ![0, 0] S1x256.size inb_S1x256_S1x256_0_0))) (iota .tc S1024x256 32 [0] iota_S1024x256_d0_w32) (k3_pay23 (k3_pay4 (View.ld x0 (Rect.unit (s := S1x256) ![0, 0] S1x256.size inb_S1x256_S1x256_0_0))) (iota .tc S1024x256 32 [0] iota_S1024x256_d0_w32) (k3_pay21 (k3_pay4 (View.ld x0 (Rect.unit (s := S1x256) ![0, 0] S1x256.size inb_S1x256_S1x256_0_0))) (iota .tc S1024x256 32 [0] iota_S1024x256_d0_w32) (k3_pay19 (k3_pay4 (View.ld x0 (Rect.unit (s := S1x256) ![0, 0] S1x256.size inb_S1x256_S1x256_0_0))) (iota .tc S1024x256 32 [0] iota_S1024x256_d0_w32) (k3_pay17 (k3_pay4 (View.ld x0 (Rect.unit (s := S1x256) ![0, 0] S1x256.size inb_S1x256_S1x256_0_0))) (iota .tc S1024x256 32 [0] iota_S1024x256_d0_w32) (k3_pay15 (k3_pay4 (View.ld x0 (Rect.unit (s := S1x256) ![0, 0] S1x256.size inb_S1x256_S1x256_0_0))) (iota .tc S1024x256 32 [0] iota_S1024x256_d0_w32) (k3_pay13 (k3_pay4 (View.ld x0 (Rect.unit (s := S1x256) ![0, 0] S1x256.size inb_S1x256_S1x256_0_0))) (iota .tc S1024x256 32 [0] iota_S1024x256_d0_w32) (k3_pay11 (k3_pay4 (View.ld x0 (Rect.unit (s := S1x256) ![0, 0] S1x256.size inb_S1x256_S1x256_0_0))) (iota .tc S1024x256 32 [0] iota_S1024x256_d0_w32) (k3_pay9 (k3_pay4 (View.ld x0 (Rect.unit (s := S1x256) ![0, 0] S1x256.size inb_S1x256_S1x256_0_0))) (iota .tc S1024x256 32 [0] iota_S1024x256_d0_w32) (k3_pay7 (View.ld x0 (Rect.unit (s := S1x256) ![0, 0] S1x256.size inb_S1x256_S1x256_0_0)) (View.ld x3 (Rect.unit (s := S50176x128) ![0, 0] S1024x128.size inb_S50176x128_S1024x128_0_0)) (View.ld x3 (Rect.unit (s := S50176x128) ![1024, 0] S1024x128.size inb_S50176x128_S1024x128_1024_0))) (k3_pay8 (View.ld x0 (Rect.unit (s := S1x256) ![0, 0] S1x256.size inb_S1x256_S1x256_0_0))) (View.ld x3 (Rect.unit (s := S50176x128) ![2048, 0] S1024x128.size inb_S50176x128_S1024x128_2048_0)) (View.ld x3 (Rect.unit (s := S50176x128) ![3072, 0] S1024x128.size inb_S50176x128_S1024x128_3072_0)) (View.ld x3 (Rect.unit (s := S50176x128) ![4096, 0] S1024x128.size inb_S50176x128_S1024x128_4096_0)) (View.ld x3 (Rect.unit (s := S50176x128) ![5120, 0] S1024x128.size inb_S50176x128_S1024x128_5120_0))) (k3_pay10 (k3_pay4 (View.ld x0 (Rect.unit (s := S1x256) ![0, 0] S1x256.size inb_S1x256_S1x256_0_0))) (iota .tc S1024x256 32 [0] iota_S1024x256_d0_w32)) (View.ld x3 (Rect.unit (s := S50176x128) ![6144, 0] S1024x128.size inb_S50176x128_S1024x128_6144_0)) (View.ld x3 (Rect.unit (s := S50176x128) ![7168, 0] S1024x128.size inb_S50176x128_S1024x128_7168_0)) (View.ld x3 (Rect.unit (s := S50176x128) ![8192, 0] S1024x128.size inb_S50176x128_S1024x128_8192_0)) (View.ld x3 (Rect.unit (s := S50176x128) ![9216, 0] S1024x128.size inb_S50176x128_S1024x128_9216_0))) (k3_pay12 (k3_pay4 (View.ld x0 (Rect.unit (s := S1x256) ![0, 0] S1x256.size inb_S1x256_S1x256_0_0))) (iota .tc S1024x256 32 [0] iota_S1024x256_d0_w32)) (View.ld x3 (Rect.unit (s := S50176x128) ![10240, 0] S1024x128.size inb_S50176x128_S1024x128_10240_0)) (View.ld x3 (Rect.unit (s := S50176x128) ![11264, 0] S1024x128.size inb_S50176x128_S1024x128_11264_0)) (View.ld x3 (Rect.unit (s := S50176x128) ![12288, 0] S1024x128.size inb_S50176x128_S1024x128_12288_0)) (View.ld x3 (Rect.unit (s := S50176x128) ![13312, 0] S1024x128.size inb_S50176x128_S1024x128_13312_0))) (k3_pay14 (k3_pay4 (View.ld x0 (Rect.unit (s := S1x256) ![0, 0] S1x256.size inb_S1x256_S1x256_0_0))) (iota .tc S1024x256 32 [0] iota_S1024x256_d0_w32)) (View.ld x3 (Rect.unit (s := S50176x128) ![14336, 0] S1024x128.size inb_S50176x128_S1024x128_14336_0)) (View.ld x3 (Rect.unit (s := S50176x128) ![15360, 0] S1024x128.size inb_S50176x128_S1024x128_15360_0)) (View.ld x3 (Rect.unit (s := S50176x128) ![16384, 0] S1024x128.size inb_S50176x128_S1024x128_16384_0)) (View.ld x3 (Rect.unit (s := S50176x128) ![17408, 0] S1024x128.size inb_S50176x128_S1024x128_17408_0))) (k3_pay16 (k3_pay4 (View.ld x0 (Rect.unit (s := S1x256) ![0, 0] S1x256.size inb_S1x256_S1x256_0_0))) (iota .tc S1024x256 32 [0] iota_S1024x256_d0_w32)) (View.ld x3 (Rect.unit (s := S50176x128) ![18432, 0] S1024x128.size inb_S50176x128_S1024x128_18432_0)) (View.ld x3 (Rect.unit (s := S50176x128) ![19456, 0] S1024x128.size inb_S50176x128_S1024x128_19456_0)) (View.ld x3 (Rect.unit (s := S50176x128) ![20480, 0] S1024x128.size inb_S50176x128_S1024x128_20480_0)) (View.ld x3 (Rect.unit (s := S50176x128) ![21504, 0] S1024x128.size inb_S50176x128_S1024x128_21504_0))) (k3_pay18 (k3_pay4 (View.ld x0 (Rect.unit (s := S1x256) ![0, 0] S1x256.size inb_S1x256_S1x256_0_0))) (iota .tc S1024x256 32 [0] iota_S1024x256_d0_w32)) (View.ld x3 (Rect.unit (s := S50176x128) ![22528, 0] S1024x128.size inb_S50176x128_S1024x128_22528_0)) (View.ld x3 (Rect.unit (s := S50176x128) ![23552, 0] S1024x128.size inb_S50176x128_S1024x128_23552_0)) (View.ld x3 (Rect.unit (s := S50176x128) ![24576, 0] S1024x128.size inb_S50176x128_S1024x128_24576_0)) (View.ld x3 (Rect.unit (s := S50176x128) ![25600, 0] S1024x128.size inb_S50176x128_S1024x128_25600_0))) (k3_pay20 (k3_pay4 (View.ld x0 (Rect.unit (s := S1x256) ![0, 0] S1x256.size inb_S1x256_S1x256_0_0))) (iota .tc S1024x256 32 [0] iota_S1024x256_d0_w32)) (View.ld x3 (Rect.unit (s := S50176x128) ![26624, 0] S1024x128.size inb_S50176x128_S1024x128_26624_0)) (View.ld x3 (Rect.unit (s := S50176x128) ![27648, 0] S1024x128.size inb_S50176x128_S1024x128_27648_0)) (View.ld x3 (Rect.unit (s := S50176x128) ![28672, 0] S1024x128.size inb_S50176x128_S1024x128_28672_0)) (View.ld x3 (Rect.unit (s := S50176x128) ![29696, 0] S1024x128.size inb_S50176x128_S1024x128_29696_0))) (k3_pay22 (k3_pay4 (View.ld x0 (Rect.unit (s := S1x256) ![0, 0] S1x256.size inb_S1x256_S1x256_0_0))) (iota .tc S1024x256 32 [0] iota_S1024x256_d0_w32)) (View.ld x3 (Rect.unit (s := S50176x128) ![30720, 0] S1024x128.size inb_S50176x128_S1024x128_30720_0)) (View.ld x3 (Rect.unit (s := S50176x128) ![31744, 0] S1024x128.size inb_S50176x128_S1024x128_31744_0)) (View.ld x3 (Rect.unit (s := S50176x128) ![32768, 0] S1024x128.size inb_S50176x128_S1024x128_32768_0)) (View.ld x3 (Rect.unit (s := S50176x128) ![33792, 0] S1024x128.size inb_S50176x128_S1024x128_33792_0))) (k3_pay24 (k3_pay4 (View.ld x0 (Rect.unit (s := S1x256) ![0, 0] S1x256.size inb_S1x256_S1x256_0_0))) (iota .tc S1024x256 32 [0] iota_S1024x256_d0_w32)) (View.ld x3 (Rect.unit (s := S50176x128) ![34816, 0] S1024x128.size inb_S50176x128_S1024x128_34816_0)) (View.ld x3 (Rect.unit (s := S50176x128) ![35840, 0] S1024x128.size inb_S50176x128_S1024x128_35840_0)) (View.ld x3 (Rect.unit (s := S50176x128) ![36864, 0] S1024x128.size inb_S50176x128_S1024x128_36864_0)) (View.ld x3 (Rect.unit (s := S50176x128) ![37888, 0] S1024x128.size inb_S50176x128_S1024x128_37888_0))) (k3_pay26 (k3_pay4 (View.ld x0 (Rect.unit (s := S1x256) ![0, 0] S1x256.size inb_S1x256_S1x256_0_0))) (iota .tc S1024x256 32 [0] iota_S1024x256_d0_w32)) (View.ld x3 (Rect.unit (s := S50176x128) ![38912, 0] S1024x128.size inb_S50176x128_S1024x128_38912_0)) (View.ld x3 (Rect.unit (s := S50176x128) ![39936, 0] S1024x128.size inb_S50176x128_S1024x128_39936_0)) (View.ld x3 (Rect.unit (s := S50176x128) ![40960, 0] S1024x128.size inb_S50176x128_S1024x128_40960_0)) (View.ld x3 (Rect.unit (s := S50176x128) ![41984, 0] S1024x128.size inb_S50176x128_S1024x128_41984_0))) (k3_pay28 (k3_pay4 (View.ld x0 (Rect.unit (s := S1x256) ![0, 0] S1x256.size inb_S1x256_S1x256_0_0))) (iota .tc S1024x256 32 [0] iota_S1024x256_d0_w32)) (View.ld x3 (Rect.unit (s := S50176x128) ![43008, 0] S1024x128.size inb_S50176x128_S1024x128_43008_0)) (View.ld x3 (Rect.unit (s := S50176x128) ![44032, 0] S1024x128.size inb_S50176x128_S1024x128_44032_0)) (View.ld x3 (Rect.unit (s := S50176x128) ![45056, 0] S1024x128.size inb_S50176x128_S1024x128_45056_0)) (View.ld x3 (Rect.unit (s := S50176x128) ![46080, 0] S1024x128.size inb_S50176x128_S1024x128_46080_0))) (k3_pay30 (k3_pay4 (View.ld x0 (Rect.unit (s := S1x256) ![0, 0] S1x256.size inb_S1x256_S1x256_0_0))) (iota .tc S1024x256 32 [0] iota_S1024x256_d0_w32)) (View.ld x3 (Rect.unit (s := S50176x128) ![47104, 0] S1024x128.size inb_S50176x128_S1024x128_47104_0)) (View.ld x3 (Rect.unit (s := S50176x128) ![48128, 0] S1024x128.size inb_S50176x128_S1024x128_48128_0)) (View.ld x3 (Rect.unit (s := S50176x128) ![49152, 0] S1024x128.size inb_S50176x128_S1024x128_49152_0))

end Cert.KernelIdeal.KD

end
-- ==== Proof.KAgg1.lean ====
/-
  What one grid point of the first aggregation kernel leaves in its output buffer.

  The buffer holds, for every padded node row and feature, a running sum. At a grid point the kernel walks over the 49 node
  blocks of 1024 rows; for each it multiplies the zero-one matrix "the edge's destination word minus the block's offset is
  this row's number" with the edge block's message matrix and adds the product onto the block. Read at one entry that is:
  the old entry plus the sum, over the 256 edges of the block, of the message at this feature where the edge's destination
  word is this row's number. The first point zeroes the buffer first; the last point then applies the layer norm to the
  whole buffer.
-/
import proofs.«421162_j50672024158728_1_alg».proof.Proof.Gen.KernelIdeal.Frame
import proofs.«421162_j50672024158728_1_alg».proof.Proof.KDefs
import proofs.«421162_j50672024158728_1_alg».proof.Proof.KDots
import Idealize.ShloMosaic.Lib.Pipeline.Value
import Idealize.ShloMosaic.Lib.ValueIdx
import Idealize.ShloMosaic.Lib.Tactic

set_option maxRecDepth 16384

noncomputable section

namespace Cert.KernelIdeal.KAgg1

open Idealize.ShloMosaic Idealize.ShloMosaic.TcCoe Idealize.ShloMosaic.Tactic Idealize.ShloMosaic.ValueIdx
open Idealize.SL Idealize.SL.Sem
open Cert.KernelIdeal Cert.KernelIdeal.Gen

/-- One block's update as the kernel computes it: the block's old contents plus the product of the comparison matrix
    at offset `off` with the messages. -/
abbrev blockUpd (dst : IVec S1x256 32) (msg : FVec Ideal S128x256 .bf16) (off : BitVec 32) (old : Vec Ideal S1024x128 .f32) :
    FVec Ideal S1024x128 .f32 :=
  addf (shapeCast S1024x128 old shapeCasts_S1024x128_S1024x128)
    (matmul dot_S1024x256_S128x256_S1024x128_1_1_0_0_n_n none
      (truncf .bf16 (sitofp .f32 (extui 32 (cmpi .eq (broadcastTo S1024x256 (subi dst (broadcast S1x256 off)) broadcasts_S1x256_S1024x256)
        (iota .tc S1024x256 32 [0] iota_S1024x256_d0_w32)) natLt_1_32)) bitsLt_bf16_f32)
      msg (constant S1024x128 .f32 0x00000000#32))

/-- The update read at row `p` of the block and feature `j`. -/
theorem blockUpd_apply (dst : IVec S1x256 32) (msg : FVec Ideal S128x256 .bf16) (off : BitVec 32) (old : Vec Ideal S1024x128 .f32)
    (p : Fin 1024) (j : Fin 128) :
    blockUpd dst msg off old (ix2 p j)
      = old (ix2 p j) + ∑ e : Fin 256, (if dst (ix2 0 e) - off = BitVec.ofNat 32 p.val then (1 : EReal) else 0) * msg (ix2 j e) := by
  show (shapeCast S1024x128 old shapeCasts_S1024x128_S1024x128) (ix2 p j) + _ = _
  rw [shapeCast_self, Cert.KernelIdeal.KDots.mm_scatter]
  refine congrArg (old (ix2 p j) + ·) (Finset.sum_congr rfl fun e _ => ?_)
  rw [Cert.KernelIdeal.KDots.onehot_apply]

/-- The whole buffer after a grid point, from the destination words, the messages and the old buffer. -/
def stepG (dst : IVec S1x256 32) (msg : FVec Ideal S128x256 .bf16) (old : Vec Ideal S50176x128 .f32) : Vec Ideal S50176x128 .f32 :=
  fun y => old y + ∑ e : Fin 256, (if dst (ix2 0 e) = BitVec.ofNat 32 (y 0).val then (1 : EReal) else 0)
    * msg (ix2 (⟨(y 1).val, idx2_lt1 y⟩ : Fin 128) e)

/-- A word minus a block's offset is a row's number exactly when the word is the offset plus the number (no wrap: the
    padded node count is far below 2³²). -/
theorem sub_eq_iff (w : BitVec 32) (o p : Nat) (h : o + p < 2 ^ 32) :
    w - BitVec.ofNat 32 o = BitVec.ofNat 32 p ↔ w = BitVec.ofNat 32 (o + p) := by
  constructor
  · intro hw
    have h1 : w - BitVec.ofNat 32 o + BitVec.ofNat 32 o = BitVec.ofNat 32 p + BitVec.ofNat 32 o := by rw [hw]
    rw [BitVec.sub_add_cancel] at h1
    rw [h1, ← BitVec.ofNat_add, Nat.add_comm]
  · intro hw
    rw [hw, Nat.add_comm, BitVec.ofNat_add, BitVec.add_sub_cancel]

/-- THE PIECE: the update of the block at row offset `o`, written through its rectangle, is that block of `stepG`. -/
theorem piece_ok (dst : IVec S1x256 32) (msg : FVec Ideal S128x256 .bf16) (old : Vec Ideal S50176x128 .f32) (o : Nat)
    (h : ∀ a, (![o, 0] : Fin 2 → Nat) a + S1024x128.size a ≤ S50176x128.size a)
    (x : (Rect.unit (s := S50176x128) ![o, 0] S1024x128.size h).shape.Idx) :
    blockUpd dst msg (BitVec.ofNat 32 o) (View.ld old (Rect.unit (s := S50176x128) ![o, 0] S1024x128.size h)) x
      = stepG dst msg old ((Rect.unit (s := S50176x128) ![o, 0] S1024x128.size h).emb x) := by
  have ho : o + 1024 ≤ 50176 := h 0
  obtain ⟨p, j, rfl⟩ : ∃ (p : Fin 1024) (j : Fin 128), x = ix2 p j := ⟨x 0, x 1, eq_ix2 x⟩
  rw [blockUpd_apply]
  unfold stepG
  have e0 : (((Rect.unit (s := S50176x128) ![o, 0] S1024x128.size h).emb (ix2 p j)) 0).val = o + p.val := by
    rw [Rect.emb_apply]; show o + 1 * p.val = _; omega
  have e1 : (((Rect.unit (s := S50176x128) ![o, 0] S1024x128.size h).emb (ix2 p j)) 1).val = j.val := by
    rw [Rect.emb_apply]; show 0 + 1 * j.val = _; omega
  have hj : (⟨(((Rect.unit (s := S50176x128) ![o, 0] S1024x128.size h).emb (ix2 p j)) 1).val, idx2_lt1 _⟩ : Fin 128) = j := Fin.ext e1
  rw [hj, e0]
  refine congrArg₂ (· + ·) rfl (Finset.sum_congr rfl fun e _ => ?_)
  have hp : p.val < 1024 := p.isLt
  simp only [sub_eq_iff _ o p.val (by omega)]

/-- Pieces that are each a block of `stepG` and cover the buffer leave `stepG`. -/
theorem canon_eq_stepG (dst : IVec S1x256 32) (msg : FVec Ideal S128x256 .bf16) (old : Vec Ideal S50176x128 .f32)
    (L : List (View.Piece (Elt Ideal) S50176x128 .f32))
    (hp : ∀ p ∈ L, ∀ x : p.1.shape.Idx, p.2 x = stepG dst msg old (p.1.emb x))
    (hc : ∀ y, ∃ p ∈ L, y ∈ p.1.set) : View.canon L = stepG dst msg old :=
  funext fun y => View.canon_apply_of_pieces (stepG dst msg old) L hp y (hc y)

/-- The whole-row rectangle of an edge block's staging buffer. -/
abbrev rRow : Rect S1x256 := Rect.unit (s := S1x256) ![0, 0] S1x256.size inb_S1x256_S1x256_0_0

theorem hz2 : (![0, 0] : Fin 2 → Nat) = fun _ => 0 := funext fun a => by fin_cases a <;> rfl
theorem hz1 : (![0] : Fin 1 → Nat) = fun _ => 0 := funext fun a => by fin_cases a; rfl

/-- The destination words as the body reads them are the staging buffer's contents. -/
theorem dstRow_eq (x1 : Vec Ideal S1x256 .i32) : k1_pay5 (F := Ideal) (View.ld x1 rRow) = x1 := by
  unfold k1_pay5
  rw [View.ld_unit_zero (S := S1x256) hz2, shapeCast_self]

/-- CASE B (a middle grid point): over the buffer's running contents `xo7`. -/
theorem out_B (c : Dev nD) (i : grid1.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : ¬cond1_0 i) (hc1 : ¬cond1_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) (xo7 : Vec Ideal S50176x128 .f32) :
    out1_B_7 (F := Ideal) c i arg1 harg1 arg2 harg2 arg3 harg3 arg4 harg4 arg5 harg5 arg6 harg6 arg7 harg7 arg8 harg8 hc0 hc1 x0 x1 x2 x3 x4 x5 x6 xo7
      = stepG x1 (Cert.KernelIdeal.KD.msg1 x0 x2 x3) xo7 := by
  unfold out1_B_7
  rw [View.read_writes_eq_canon _ _ _ (cover1_B_7 c i arg1 harg1 arg2 harg2 arg3 harg3 arg4 harg4 arg5 harg5 arg6 harg6 arg7 harg7 arg8 harg8 hc0 hc1 x0 x1 x2 x3 x4 x5 x6 xo7)]
  refine (canon_eq_stepG (k1_pay5 (F := Ideal) (View.ld x1 rRow)) (Cert.KernelIdeal.KD.msg1 x0 x2 x3) xo7 _ ?_
    (cover1_B_7 c i arg1 harg1 arg2 harg2 arg3 harg3 arg4 harg4 arg5 harg5 arg6 harg6 arg7 harg7 arg8 harg8 hc0 hc1 x0 x1 x2 x3 x4 x5 x6 xo7)).trans (by rw [dstRow_eq])
  unfold kernelRun1_B
  dsimp only
  sl_unfold_words
  simp only [View.readAt_eq_ld, harg1.read_unread, harg2.read_unread, harg3.read_unread, harg4.read_unread, harg8.read_unread]
  repeat' (refine List.forall_mem_cons.2 ⟨?_, ?_⟩)
  all_goals first
    | exact fun x => piece_ok _ _ _ _ _ x
    | exact fun p hp => absurd hp (List.not_mem_nil)

end Cert.KernelIdeal.KAgg1

end
-- ==== Proof.KAgg1A.lean ====
/-
  The first grid point of the first aggregation kernel: it zeroes the whole buffer, then walks up the 49 node blocks, each
  block's update reading back what the buffer holds there — still the zeros, since the blocks below do not reach it. After
  the walk the buffer holds the update of the zero buffer.
-/
import proofs.«421162_j50672024158728_1_alg».proof.Proof.KAgg1

set_option maxRecDepth 16384

noncomputable section

namespace Cert.KernelIdeal.KAgg1

open Idealize.ShloMosaic Idealize.ShloMosaic.TcCoe Idealize.ShloMosaic.Tactic Idealize.ShloMosaic.ValueIdx
open Idealize.SL Idealize.SL.Sem
open Cert.KernelIdeal Cert.KernelIdeal.Gen

/-- The zero buffer the first grid point stores. -/
abbrev zeroBuf : Vec Ideal S50176x128 .f32 := k1_pay3 (F := Ideal)

/-- The buffer while the walk is at row offset `o`: the rows below `o` updated, the rows from `o` on still zero. -/
def partG (dst : IVec S1x256 32) (msg : FVec Ideal S128x256 .bf16) (o : Nat) : Vec Ideal S50176x128 .f32 :=
  fun y => if (y 0).val < o then stepG dst msg zeroBuf y else zeroBuf y

/-- The stores of the walk up to row offset `o`, last first: the zero store, then one block update per 1024 rows, each
    reading its block back through the stores before it. -/
inductive Walk (v : View sig .tc .vmem S50176x128 .f32) (dst : IVec S1x256 32) (msg : FVec Ideal S128x256 .bf16) :
    List (View.Piece (Elt Ideal) S50176x128 .f32) → Nat → Prop
  | base (inb : ∀ a, (![0, 0] : Fin 2 → Nat) a + S50176x128.size a ≤ S50176x128.size a) :
      Walk v dst msg [⟨Rect.unit (s := S50176x128) ![0, 0] S50176x128.size inb, zeroBuf⟩] 0
  | step (L : List (View.Piece (Elt Ideal) S50176x128 .f32)) (o : Nat)
      (h : ∀ a, (![o, 0] : Fin 2 → Nat) a + S1024x128.size a ≤ S50176x128.size a) :
      Walk v dst msg L o →
      Walk v dst msg (⟨Rect.unit (s := S50176x128) ![o, 0] S1024x128.size h,
        blockUpd dst msg (BitVec.ofNat 32 o) (v.readCov L (Rect.unit (s := S50176x128) ![o, 0] S1024x128.size h).toLoadRect)⟩ :: L) (o + 1024)

/-- Off a store's rectangle the earlier stores show through. -/
theorem canon_cons_off {S : Shape} {e : EltTy} (r : Rect S) (w : r.shape.Idx → Elt Ideal e) (L : List (View.Piece (Elt Ideal) S e))
    (y : S.Idx) (h : y ∉ r.set) : View.canon ((⟨r, w⟩ : View.Piece (Elt Ideal) S e) :: L) y = View.canon L y :=
  View.canon_cons_of_not_mem (⟨r, w⟩ : View.Piece (Elt Ideal) S e) L h

/-- What the walk's stores leave. -/
theorem walk_canon (v : View sig .tc .vmem S50176x128 .f32) (dst : IVec S1x256 32) (msg : FVec Ideal S128x256 .bf16) :
    ∀ (L : List (View.Piece (Elt Ideal) S50176x128 .f32)) (o : Nat), Walk v dst msg L o → View.canon L = partG dst msg o := by
  intro L o hw
  induction hw with
  | base inb =>
    rw [View.canon_unit_zero (S := S50176x128) hz2]
    funext y
    unfold partG
    rw [if_neg (Nat.not_lt_zero _)]
  | step L o h _ ih =>
    have ho : o + 1024 ≤ 50176 := h 0
    -- the block read back is still zero
    have hread : v.readCov L (Rect.unit (s := S50176x128) ![o, 0] S1024x128.size h).toLoadRect
        = View.ld zeroBuf (Rect.unit (s := S50176x128) ![o, 0] S1024x128.size h) := by
      rw [View.readCov_eq_canon', ih]
      funext j
      unfold partG
      have hj : ¬ (((Rect.unit (s := S50176x128) ![o, 0] S1024x128.size h).toLoadRect.idx j) 0).val < o := by
        rw [LoadRect.idx_apply]; show ¬ (o + 1 * (j 0).val < o); omega
      rw [if_neg hj]
    rw [hread]
    funext y
    by_cases hm : o ≤ (y 0).val ∧ (y 0).val < o + 1024
    · -- inside the block
      have h1 : (y 1).val < 128 := idx2_lt1 y
      obtain ⟨x, rfl⟩ : ∃ x : (Rect.unit (s := S50176x128) ![o, 0] S1024x128.size h).shape.Idx,
          (Rect.unit (s := S50176x128) ![o, 0] S1024x128.size h).emb x = y :=
        ⟨ix2 (⟨(y 0).val - o, by omega⟩ : Fin 1024) (⟨(y 1).val, h1⟩ : Fin 128), by
          funext a; refine Fin.ext ?_
          match a with
          | ⟨0, _⟩ => rw [Rect.emb_apply]; show o + 1 * ((y 0).val - o) = (y 0).val; omega
          | ⟨1, _⟩ => rw [Rect.emb_apply]; show 0 + 1 * (y 1).val = (y 1).val; omega⟩
      rw [View.canon_cons_emb, piece_ok]
      unfold partG
      have hlt : (((Rect.unit (s := S50176x128) ![o, 0] S1024x128.size h).emb x) 0).val < o + 1024 := hm.2
      rw [if_pos hlt]
    · -- outside the block
      have hnot : y ∉ (Rect.unit (s := S50176x128) ![o, 0] S1024x128.size h).set := by
        rw [Rect.mem_set_unit]
        intro hall
        have := hall 0
        exact hm ⟨this.1, this.2⟩
      rw [canon_cons_off _ _ _ _ hnot, ih]
      unfold partG
      by_cases hlo : (y 0).val < o
      · rw [if_pos hlo, if_pos (by omega)]
      · rw [if_neg hlo, if_neg (by omega)]

/-- After the whole walk the buffer holds the update of the zero buffer. -/
theorem partG_full (dst : IVec S1x256 32) (msg : FVec Ideal S128x256 .bf16) : partG dst msg 50176 = stepG dst msg zeroBuf := by
  funext y
  unfold partG
  rw [if_pos (idx2_lt0 y)]

/-- CASE A (the first grid point). -/
theorem out_A (c : Dev nD) (i : grid1.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : cond1_0 i) (hc1 : ¬cond1_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) :
    out1_A_7 (F := Ideal) c i arg1 harg1 arg2 harg2 arg3 harg3 arg4 harg4 arg5 harg5 arg6 harg6 arg7 harg7 arg8 harg8 hc0 hc1 x0 x1 x2 x3 x4 x5 x6
      = stepG x1 (Cert.KernelIdeal.KD.msg1 x0 x2 x3) zeroBuf := by
  unfold out1_A_7
  rw [View.read_writes_eq_canon _ _ _ (cover1_A_7 c i arg1 harg1 arg2 harg2 arg3 harg3 arg4 harg4 arg5 harg5 arg6 harg6 arg7 harg7 arg8 harg8 hc0 hc1 x0 x1 x2 x3 x4 x5 x6)]
  have hd : kernelRun1_A.sl.r_1 c arg2 harg2 x1 = x1 := by
    unfold kernelRun1_A.sl.r_1
    simp only [View.readAt_eq_ld, harg2.read_unread]
    exact dstRow_eq x1
  have hmsg : kernelRun1_A.sl.r_27 c arg1 harg1 arg3 harg3 arg4 harg4 x0 x2 x3 = Cert.KernelIdeal.KD.msg1 x0 x2 x3 := by
    sl_unfold_words
    simp only [View.readAt_eq_ld, harg1.read_unread, harg3.read_unread, harg4.read_unread]
    rfl
  have hw : Walk arg8.view (kernelRun1_A.sl.r_1 c arg2 harg2 x1) (kernelRun1_A.sl.r_27 c arg1 harg1 arg3 harg3 arg4 harg4 x0 x2 x3)
      (kernelRun1_A c i arg1 harg1 arg2 harg2 arg3 harg3 arg4 harg4 arg5 harg5 arg6 harg6 arg7 harg7 arg8 harg8 hc0 hc1 x0 x1 x2 x3 x4 x5 x6).1 50176 := by
    unfold kernelRun1_A
    dsimp only
    repeat (first | exact Walk.base _ | refine Walk.step _ _ _ ?_)
  rw [walk_canon _ _ _ _ _ hw, partG_full, hd, hmsg]

end Cert.KernelIdeal.KAgg1

end
-- ==== Proof.KAgg1C.lean ====
/-
  The last grid point of the first aggregation kernel: the 49 block updates over the buffer's running contents, then the
  closing store, which reads the whole updated buffer back and leaves its layer norm.
-/
import proofs.«421162_j50672024158728_1_alg».proof.Proof.KAgg1

set_option maxRecDepth 16384

noncomputable section

namespace Cert.KernelIdeal.KAgg1

open Idealize.ShloMosaic Idealize.ShloMosaic.TcCoe Idealize.ShloMosaic.Tactic Idealize.ShloMosaic.ValueIdx
open Idealize.SL Idealize.SL.Sem
open Cert.KernelIdeal Cert.KernelIdeal.Gen

/-- CASE C (the last grid point): the 49 block updates over the running contents `xo7`, then the closing store of the
    layer norm of the whole buffer with the bias `x4`, scale `x5` and shift `x6`. -/
theorem out_C (c : Dev nD) (i : grid1.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : ¬cond1_0 i) (hc1 : cond1_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) (xo7 : Vec Ideal S50176x128 .f32) :
    out1_C_7 (F := Ideal) c i arg1 harg1 arg2 harg2 arg3 harg3 arg4 harg4 arg5 harg5 arg6 harg6 arg7 harg7 arg8 harg8 hc0 hc1 x0 x1 x2 x3 x4 x5 x6 xo7
      = k1_pay2 (F := Ideal) (stepG x1 (Cert.KernelIdeal.KD.msg1 x0 x2 x3) xo7) x4 x5 x6 := by
  unfold out1_C_7
  rw [View.read_writes_eq_canon _ _ _ (cover1_C_7 c i arg1 harg1 arg2 harg2 arg3 harg3 arg4 harg4 arg5 harg5 arg6 harg6 arg7 harg7 arg8 harg8 hc0 hc1 x0 x1 x2 x3 x4 x5 x6 xo7)]
  unfold kernelRun1_C
  dsimp only
  rw [View.canon_cons_unit_zero (S := S50176x128) hz2]
  have hcov : ∀ y, ∃ p ∈ (kernelRun1_C.sl.H7_49 c arg1 harg1 arg2 harg2 arg3 harg3 arg4 harg4 arg8 harg8 x0 x1 x2 x3 xo7), y ∈ p.1.set :=
    View.cover_of_tiledL _ S1024x128.size (by sl_kernel_rfl)
  have hcanon : View.canon (kernelRun1_C.sl.H7_49 c arg1 harg1 arg2 harg2 arg3 harg3 arg4 harg4 arg8 harg8 x0 x1 x2 x3 xo7)
      = stepG x1 (Cert.KernelIdeal.KD.msg1 x0 x2 x3) xo7 := by
    refine (canon_eq_stepG (k1_pay5 (F := Ideal) (View.ld x1 rRow)) (Cert.KernelIdeal.KD.msg1 x0 x2 x3) xo7 _ ?_ hcov).trans (by rw [dstRow_eq])
    sl_unfold_words
    simp only [View.readAt_eq_ld, harg1.read_unread, harg2.read_unread, harg3.read_unread, harg4.read_unread, harg8.read_unread]
    repeat' (refine List.forall_mem_cons.2 ⟨?_, ?_⟩)
    all_goals first
      | exact fun x => piece_ok _ _ _ _ _ x
      | exact fun p hp => absurd hp (List.not_mem_nil)
  have hv : kernelRun1_C.sl.v1144 c arg1 harg1 arg2 harg2 arg3 harg3 arg4 harg4 arg8 harg8 x0 x1 x2 x3 xo7
      = stepG x1 (Cert.KernelIdeal.KD.msg1 x0 x2 x3) xo7 := by
    unfold kernelRun1_C.sl.v1144
    rw [View.readCov_eq_canon_ld _ _ _ hcov, hcanon, View.ld_unit_zero (S := S50176x128) hz2]
  rw [hv]
  simp only [View.readAt_eq_ld, harg5.read_unread, harg6.read_unread, harg7.read_unread, View.ld_unit_zero (S := S128) hz1]

end Cert.KernelIdeal.KAgg1

end
-- ==== Proof.BridgeMath.lean ====
/-
  The kernel's way of gathering and scattering rows, by comparing words, against the direct one.

  The kernel selects the row a source word names by summing, over all 50176 padded rows, the row where the word equals the
  row's number (and zero elsewhere), and adds an edge's message to the node its destination word equals. The edge list is
  padded from 650000 to 650240 entries whose destination is the word 50000. Where every real entry's source word, read
  signed, is a node number 0 … 49999, this is the aggregation of `Cert.Spec.agg` over the real entries.
-/
import proofs.«421162_j50672024158728_1_alg».proof.Proof.Spec
import Mathlib.Algebra.BigOperators.Fin
import Mathlib.Algebra.BigOperators.Group.Finset.Basic

noncomputable section

namespace Cert.BridgeMath

open Idealize.ShloMosaic Cert.Spec

/-- The row of `H` a word selects among `N` rows by comparison: the row whose number the word is, zero if there is none. -/
def gsel {N : Nat} (H : Fin N → Row) (w : BitVec 32) : Row :=
  fun j => ∑ row : Fin N, if w = BitVec.ofNat 32 row.val then H row j else 0

/-- A word equals the word of a small number exactly when, read signed, it is that number. -/
theorem eq_ofNat_iff_toInt (w : BitVec 32) (n : Nat) (hn : n < 2 ^ 31) : w = BitVec.ofNat 32 n ↔ w.toInt = (n : Int) := by
  -- the word of a number below 2^31 has its top bit clear, so read signed it is the number itself
  have hsmall : (BitVec.ofNat 32 n).toInt = (n : Int) := by
    rw [BitVec.toInt_eq_toNat_cond, BitVec.toNat_ofNat]
    have hmod : n % 2 ^ 32 = n := Nat.mod_eq_of_lt (by omega)
    rw [hmod]
    split <;> omega
  constructor
  · intro hw
    rw [hw, hsmall]
  · intro hw
    -- two words with the same signed reading are the same word
    exact BitVec.eq_of_toInt_eq (hw.trans hsmall.symm)

/-- The selection by comparison reads the row itself when the word, read signed, is a row number. -/
theorem gsel_of_toInt {N : Nat} (hN : N < 2 ^ 31) (H : Fin N → Row) (w : BitVec 32) (r : Fin N) (h : w.toInt = (r.val : Int)) :
    gsel H w = H r := by
  have hr : r.val < 2 ^ 31 := lt_trans r.isLt hN
  funext j
  unfold gsel
  -- only the summand of row r survives: any other row's number differs from the word's signed reading
  rw [Finset.sum_eq_single r]
  · rw [if_pos ((eq_ofNat_iff_toInt w r.val hr).mpr h)]
  · intro b _ hb
    have hbN : b.val < 2 ^ 31 := lt_trans b.isLt hN
    rw [if_neg]
    intro hw
    have hb' : w.toInt = (b.val : Int) := (eq_ofNat_iff_toInt w b.val hbN).mp hw
    apply hb
    refine Fin.ext ?_
    omega
  · intro hr'
    exact absurd (Finset.mem_univ r) hr'

/-- A sum over n entries of which all from the m-th on are zero is the sum over the first m entries. -/
theorem sum_first {m n : Nat} (hmn : m ≤ n) (F : Fin n → EReal) (hz : ∀ E : Fin n, m ≤ E.val → F E = 0) :
    ∑ E : Fin n, F E = ∑ e : Fin m, F ⟨e.val, lt_of_lt_of_le e.isLt hmn⟩ := by
  obtain ⟨d, rfl⟩ := Nat.exists_eq_add_of_le hmn
  rw [Fin.sum_univ_add]
  have htail : ∑ i : Fin d, F (Fin.natAdd m i) = 0 := by
    refine Finset.sum_eq_zero fun i _ => ?_
    exact hz _ (by simp [Fin.natAdd])
  rw [htail, add_zero]
  refine Finset.sum_congr rfl fun e _ => ?_
  congr 1

/-- The padding's destination word 50000 is the word of no node 0 … 49999. -/
theorem pad_ne (v : Nat) (hv : v < 50000) : (50000#32 : BitVec 32) ≠ BitVec.ofNat 32 v := by
  intro hw
  have h1 : (50000#32 : BitVec 32).toInt = (v : Int) := (eq_ofNat_iff_toInt _ v (by omega)).mp hw
  have h2 : (50000#32 : BitVec 32).toInt = ((50000 : Nat) : Int) := (eq_ofNat_iff_toInt _ 50000 (by norm_num)).mp rfl
  omega

/-- THE AGGREGATION BRIDGE. `SRC`, `DST`, `NRM` are the padded edge list (650240 entries), `src`, `dst`, `nrm` its first
    650000 entries; the padding's destination word is 50000; `H` has 50176 rows whose first 50000 are `h`'s. -/
theorem agg_bridge (SRC DST : Fin 650240 → BitVec 32) (NRM : Fin 650240 → EReal)
    (src dst : Fin 650000 → BitVec 32) (nrm : Fin 650000 → EReal)
    (hS : ∀ e : Fin 650000, SRC ⟨e.val, by omega⟩ = src e) (hD : ∀ e : Fin 650000, DST ⟨e.val, by omega⟩ = dst e)
    (hN : ∀ e : Fin 650000, NRM ⟨e.val, by omega⟩ = nrm e)
    (hpad : ∀ E : Fin 650240, 650000 ≤ E.val → DST E = 50000#32)
    (hsrc : ∀ e : Fin 650000, 0 ≤ (src e).toInt ∧ (src e).toInt < 50000)
    (H : Fin 50176 → Row) (h : Fin 50000 → Row) (hH : ∀ r : Fin 50000, H ⟨r.val, by omega⟩ = h r)
    (v : Fin 50000) (k : Fin 128) :
    (∑ E : Fin 650240, (if DST E = BitVec.ofNat 32 v.val then (1 : EReal) else 0) * (gsel H (SRC E) k * NRM E))
      = agg h (srow src) dst nrm v k := by
  have hv : v.val < 50000 := v.isLt
  have hv31 : v.val < 2 ^ 31 := by omega
  -- a padding entry's destination word is the word of no node, so its factor is zero
  have hz : ∀ E : Fin 650240, 650000 ≤ E.val →
      (fun E : Fin 650240 => (if DST E = BitVec.ofNat 32 v.val then (1 : EReal) else 0) * (gsel H (SRC E) k * NRM E)) E = 0 := by
    intro E hE
    show (if DST E = BitVec.ofNat 32 v.val then (1 : EReal) else 0) * (gsel H (SRC E) k * NRM E) = 0
    rw [hpad E hE, if_neg (pad_ne v.val hv), zero_mul]
  -- so the sum is the sum over the real entries
  rw [sum_first (by norm_num : 650000 ≤ 650240)
    (fun E : Fin 650240 => (if DST E = BitVec.ofNat 32 v.val then (1 : EReal) else 0) * (gsel H (SRC E) k * NRM E)) hz]
  unfold agg
  refine Finset.sum_congr rfl fun e _ => ?_
  show (if DST ⟨e.val, _⟩ = BitVec.ofNat 32 v.val then (1 : EReal) else 0) * (gsel H (SRC ⟨e.val, _⟩) k * NRM ⟨e.val, _⟩)
    = if (dst e).toInt = (v.val : Int) then h (srow src e) k * nrm e else 0
  rw [hS e, hD e, hN e]
  -- the entry's source word, read signed, is a node number: name it
  obtain ⟨h0, h1⟩ := hsrc e
  obtain ⟨r0, hr0⟩ : ∃ r0 : Fin 50000, (src e).toInt = (r0.val : Int) :=
    ⟨⟨(src e).toInt.toNat, by omega⟩, (Int.toNat_of_nonneg h0).symm⟩
  -- the direct reading takes that node's row, and so does the selection by comparison among the padded rows
  have hsr : srow src e = r0 := Cert.LibRows.clamp_wrap_of_toInt (by norm_num) (src e) r0 hr0
  have hg : gsel H (src e) = H ⟨r0.val, by omega⟩ :=
    gsel_of_toInt (by norm_num) H (src e) ⟨r0.val, by omega⟩ hr0
  rw [hg, hH r0, hsr]
  -- the destination test by comparison of words is the test on the signed reading
  by_cases hc : (dst e).toInt = (v.val : Int)
  · rw [if_pos ((eq_ofNat_iff_toInt (dst e) v.val hv31).mpr hc), if_pos hc, one_mul]
  · rw [if_neg (fun hw => hc ((eq_ofNat_iff_toInt (dst e) v.val hv31).mp hw)), if_neg hc, zero_mul]

end Cert.BridgeMath

end
-- ==== Proof.KMsg.lean ====
/-
  One edge block's message matrix, read at one entry. The kernel compares the block's source words with the row numbers of
  each of the 49 node blocks (1024 rows each), multiplies the block of `h` by the resulting zero-one matrix and adds the 49
  products up; at feature `j` and edge `e` that is the sum over all 50176 rows of the row's entry where the source word is
  the row's number — the row the word names, or zero —; the result is multiplied by the edge's weight.
-/
import proofs.«421162_j50672024158728_1_alg».proof.Proof.KDefs
import proofs.«421162_j50672024158728_1_alg».proof.Proof.KDots
import proofs.«421162_j50672024158728_1_alg».proof.Proof.BridgeMath
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

noncomputable section

namespace Cert.KernelIdeal.KMsg

open Idealize.ShloMosaic Idealize.ShloMosaic.ValueIdx Cert.KernelIdeal Cert.KernelIdeal.Gen

/-! ## The kernel's repeated pieces, named once -/

section Pieces
variable {F : FTy → Type} [FloatOps F]

/-- The row counter: entry (p, e) is the word of p. -/
abbrev rowsIota : IVec S1024x256 32 := iota .tc S1024x256 32 [0] iota_S1024x256_d0_w32

/-- The zero-one comparison matrix of the source words against the rows of the node block at offset `off`. -/
def cmpMat (src : IVec S1x256 32) (rows : IVec S1024x256 32) (off : BitVec 32) : FVec F S1024x256 .bf16 :=
  truncf .bf16 (sitofp .f32 (extui 32 (cmpi .eq (broadcastTo S1024x256 (subi src (broadcast S1x256 off)) broadcasts_S1x256_S1024x256) rows) natLt_1_32)) bitsLt_bf16_f32

/-- A node block against a comparison matrix, contracted over the block's 1024 rows, into a zero accumulator. -/
def pick (blk : Vec F S1024x128 .bf16) (m : FVec F S1024x256 .bf16) : FVec F S128x256 .f32 :=
  matmul dot_S1024x128_S1024x256_S128x256_0_0_1_1_n_n none (shapeCast S1024x128 blk shapeCasts_S1024x128_S1024x128) m (constant S128x256 .f32 0x00000000#32)

/-- One node block's term: the block against its own comparison matrix. -/
def gterm (src : IVec S1x256 32) (rows : IVec S1024x256 32) (off : BitVec 32) (blk : Vec F S1024x128 .bf16) : FVec F S128x256 .f32 :=
  pick blk (cmpMat src rows off)

/-- The first two blocks' terms added to the zero accumulator. -/
def first2 (src : IVec S1x256 32) (rows : IVec S1024x256 32) (o0 o1 : BitVec 32) (b0 b1 : Vec F S1024x128 .bf16) : FVec F S128x256 .f32 :=
  addf (addf (broadcast S128x256 (Scalar.ofBits .f32 0x00000000#32)) (gterm src rows o0 b0)) (gterm src rows o1 b1)

/-- Four more blocks' terms added to an accumulator; the first block's comparison matrix is handed in. -/
def step4 (src : IVec S1x256 32) (rows : IVec S1024x256 32) (acc : FVec F S128x256 .f32) (m : FVec F S1024x256 .bf16)
    (o1 o2 o3 : BitVec 32) (b0 b1 b2 b3 : Vec F S1024x128 .bf16) : FVec F S128x256 .f32 :=
  addf (addf (addf (addf acc (pick b0 m)) (gterm src rows o1 b1)) (gterm src rows o2 b2)) (gterm src rows o3 b3)

/-- The last three blocks' terms added, the sum multiplied by the weights' row and narrowed. -/
def last3 (src : IVec S1x256 32) (wts : FVec F S1x256 .f32) (rows : IVec S1024x256 32) (acc : FVec F S128x256 .f32) (m : FVec F S1024x256 .bf16)
    (o1 o2 : BitVec 32) (b0 b1 b2 : Vec F S1024x128 .bf16) : FVec F S128x256 .bf16 :=
  truncf .bf16 (mulf (addf (addf (addf acc (pick b0 m)) (gterm src rows o1 b1)) (gterm src rows o2 b2))
    (broadcastTo S128x256 wts broadcasts_S1x256_S128x256)) bitsLt_bf16_f32

/-! The printed operations of the first aggregation kernel are these pieces (by unfolding). -/

theorem k1_pay7_eq (v3 : Vec F S1x256 .i32) (b0 b1 : Vec F S1024x128 .bf16) :
    k1_pay7 v3 b0 b1 = first2 (k1_pay4 v3) rowsIota 0#32 1024#32 b0 b1 := rfl
theorem k1_pay8_eq (v3 : Vec F S1x256 .i32) : k1_pay8 (F := F) v3 = cmpMat (k1_pay4 v3) rowsIota 2048#32 := rfl
theorem k1_pay9_eq (v4 : IVec S1x256 32) (v9 : IVec S1024x256 32) (acc : FVec F S128x256 .f32) (m : FVec F S1024x256 .bf16) (b0 b1 b2 b3 : Vec F S1024x128 .bf16) :
    k1_pay9 v4 v9 acc m b0 b1 b2 b3 = step4 v4 v9 acc m 3072#32 4096#32 5120#32 b0 b1 b2 b3 := rfl
theorem k1_pay10_eq (v4 : IVec S1x256 32) (v9 : IVec S1024x256 32) : k1_pay10 (F := F) v4 v9 = cmpMat v4 v9 6144#32 := rfl
theorem k1_pay11_eq (v4 : IVec S1x256 32) (v9 : IVec S1024x256 32) (acc : FVec F S128x256 .f32) (m : FVec F S1024x256 .bf16) (b0 b1 b2 b3 : Vec F S1024x128 .bf16) :
    k1_pay11 v4 v9 acc m b0 b1 b2 b3 = step4 v4 v9 acc m 7168#32 8192#32 9216#32 b0 b1 b2 b3 := rfl
theorem k1_pay12_eq (v4 : IVec S1x256 32) (v9 : IVec S1024x256 32) : k1_pay12 (F := F) v4 v9 = cmpMat v4 v9 10240#32 := rfl
theorem k1_pay13_eq (v4 : IVec S1x256 32) (v9 : IVec S1024x256 32) (acc : FVec F S128x256 .f32) (m : FVec F S1024x256 .bf16) (b0 b1 b2 b3 : Vec F S1024x128 .bf16) :
    k1_pay13 v4 v9 acc m b0 b1 b2 b3 = step4 v4 v9 acc m 11264#32 12288#32 13312#32 b0 b1 b2 b3 := rfl
theorem k1_pay14_eq (v4 : IVec S1x256 32) (v9 : IVec S1024x256 32) : k1_pay14 (F := F) v4 v9 = cmpMat v4 v9 14336#32 := rfl
theorem k1_pay15_eq (v4 : IVec S1x256 32) (v9 : IVec S1024x256 32) (acc : FVec F S128x256 .f32) (m : FVec F S1024x256 .bf16) (b0 b1 b2 b3 : Vec F S1024x128 .bf16) :
    k1_pay15 v4 v9 acc m b0 b1 b2 b3 = step4 v4 v9 acc m 15360#32 16384#32 17408#32 b0 b1 b2 b3 := rfl
theorem k1_pay16_eq (v4 : IVec S1x256 32) (v9 : IVec S1024x256 32) : k1_pay16 (F := F) v4 v9 = cmpMat v4 v9 18432#32 := rfl
theorem k1_pay17_eq (v4 : IVec S1x256 32) (v9 : IVec S1024x256 32) (acc : FVec F S128x256 .f32) (m : FVec F S1024x256 .bf16) (b0 b1 b2 b3 : Vec F S1024x128 .bf16) :
    k1_pay17 v4 v9 acc m b0 b1 b2 b3 = step4 v4 v9 acc m 19456#32 20480#32 21504#32 b0 b1 b2 b3 := rfl
theorem k1_pay18_eq (v4 : IVec S1x256 32) (v9 : IVec S1024x256 32) : k1_pay18 (F := F) v4 v9 = cmpMat v4 v9 22528#32 := rfl
theorem k1_pay19_eq (v4 : IVec S1x256 32) (v9 : IVec S1024x256 32) (acc : FVec F S128x256 .f32) (m : FVec F S1024x256 .bf16) (b0 b1 b2 b3 : Vec F S1024x128 .bf16) :
    k1_pay19 v4 v9 acc m b0 b1 b2 b3 = step4 v4 v9 acc m 23552#32 24576#32 25600#32 b0 b1 b2 b3 := rfl
theorem k1_pay20_eq (v4 : IVec S1x256 32) (v9 : IVec S1024x256 32) : k1_pay20 (F := F) v4 v9 = cmpMat v4 v9 26624#32 := rfl
theorem k1_pay21_eq (v4 : IVec S1x256 32) (v9 : IVec S1024x256 32) (acc : FVec F S128x256 .f32) (m : FVec F S1024x256 .bf16) (b0 b1 b2 b3 : Vec F S1024x128 .bf16) :
    k1_pay21 v4 v9 acc m b0 b1 b2 b3 = step4 v4 v9 acc m 27648#32 28672#32 29696#32 b0 b1 b2 b3 := rfl
theorem k1_pay22_eq (v4 : IVec S1x256 32) (v9 : IVec S1024x256 32) : k1_pay22 (F := F) v4 v9 = cmpMat v4 v9 30720#32 := rfl
theorem k1_pay23_eq (v4 : IVec S1x256 32) (v9 : IVec S1024x256 32) (acc : FVec F S128x256 .f32) (m : FVec F S1024x256 .bf16) (b0 b1 b2 b3 : Vec F S1024x128 .bf16) :
    k1_pay23 v4 v9 acc m b0 b1 b2 b3 = step4 v4 v9 acc m 31744#32 32768#32 33792#32 b0 b1 b2 b3 := rfl
theorem k1_pay24_eq (v4 : IVec S1x256 32) (v9 : IVec S1024x256 32) : k1_pay24 (F := F) v4 v9 = cmpMat v4 v9 34816#32 := rfl
theorem k1_pay25_eq (v4 : IVec S1x256 32) (v9 : IVec S1024x256 32) (acc : FVec F S128x256 .f32) (m : FVec F S1024x256 .bf16) (b0 b1 b2 b3 : Vec F S1024x128 .bf16) :
    k1_pay25 v4 v9 acc m b0 b1 b2 b3 = step4 v4 v9 acc m 35840#32 36864#32 37888#32 b0 b1 b2 b3 := rfl
theorem k1_pay26_eq (v4 : IVec S1x256 32) (v9 : IVec S1024x256 32) : k1_pay26 (F := F) v4 v9 = cmpMat v4 v9 38912#32 := rfl
theorem k1_pay27_eq (v4 : IVec S1x256 32) (v9 : IVec S1024x256 32) (acc : FVec F S128x256 .f32) (m : FVec F S1024x256 .bf16) (b0 b1 b2 b3 : Vec F S1024x128 .bf16) :
    k1_pay27 v4 v9 acc m b0 b1 b2 b3 = step4 v4 v9 acc m 39936#32 40960#32 41984#32 b0 b1 b2 b3 := rfl
theorem k1_pay28_eq (v4 : IVec S1x256 32) (v9 : IVec S1024x256 32) : k1_pay28 (F := F) v4 v9 = cmpMat v4 v9 43008#32 := rfl
theorem k1_pay29_eq (v4 : IVec S1x256 32) (v9 : IVec S1024x256 32) (acc : FVec F S128x256 .f32) (m : FVec F S1024x256 .bf16) (b0 b1 b2 b3 : Vec F S1024x128 .bf16) :
    k1_pay29 v4 v9 acc m b0 b1 b2 b3 = step4 v4 v9 acc m 44032#32 45056#32 46080#32 b0 b1 b2 b3 := rfl
theorem k1_pay30_eq (v4 : IVec S1x256 32) (v9 : IVec S1024x256 32) : k1_pay30 (F := F) v4 v9 = cmpMat v4 v9 47104#32 := rfl
theorem k1_pay31_eq (v4 : IVec S1x256 32) (v8 : FVec F S1x256 .f32) (v9 : IVec S1024x256 32) (acc : FVec F S128x256 .f32) (m : FVec F S1024x256 .bf16) (b0 b1 b2 : Vec F S1024x128 .bf16) :
    k1_pay31 v4 v8 v9 acc m b0 b1 b2 = last3 v4 v8 v9 acc m 48128#32 49152#32 b0 b1 b2 := rfl

/-! The printed operations of the second aggregation kernel are these pieces (by unfolding). -/

theorem k3_pay7_eq (v3 : Vec F S1x256 .i32) (b0 b1 : Vec F S1024x128 .bf16) :
    k3_pay7 v3 b0 b1 = first2 (k3_pay4 v3) rowsIota 0#32 1024#32 b0 b1 := rfl
theorem k3_pay8_eq (v3 : Vec F S1x256 .i32) : k3_pay8 (F := F) v3 = cmpMat (k3_pay4 v3) rowsIota 2048#32 := rfl
theorem k3_pay9_eq (v4 : IVec S1x256 32) (v9 : IVec S1024x256 32) (acc : FVec F S128x256 .f32) (m : FVec F S1024x256 .bf16) (b0 b1 b2 b3 : Vec F S1024x128 .bf16) :
    k3_pay9 v4 v9 acc m b0 b1 b2 b3 = step4 v4 v9 acc m 3072#32 4096#32 5120#32 b0 b1 b2 b3 := rfl
theorem k3_pay10_eq (v4 : IVec S1x256 32) (v9 : IVec S1024x256 32) : k3_pay10 (F := F) v4 v9 = cmpMat v4 v9 6144#32 := rfl
theorem k3_pay11_eq (v4 : IVec S1x256 32) (v9 : IVec S1024x256 32) (acc : FVec F S128x256 .f32) (m : FVec F S1024x256 .bf16) (b0 b1 b2 b3 : Vec F S1024x128 .bf16) :
    k3_pay11 v4 v9 acc m b0 b1 b2 b3 = step4 v4 v9 acc m 7168#32 8192#32 9216#32 b0 b1 b2 b3 := rfl
theorem k3_pay12_eq (v4 : IVec S1x256 32) (v9 : IVec S1024x256 32) : k3_pay12 (F := F) v4 v9 = cmpMat v4 v9 10240#32 := rfl
theorem k3_pay13_eq (v4 : IVec S1x256 32) (v9 : IVec S1024x256 32) (acc : FVec F S128x256 .f32) (m : FVec F S1024x256 .bf16) (b0 b1 b2 b3 : Vec F S1024x128 .bf16) :
    k3_pay13 v4 v9 acc m b0 b1 b2 b3 = step4 v4 v9 acc m 11264#32 12288#32 13312#32 b0 b1 b2 b3 := rfl
theorem k3_pay14_eq (v4 : IVec S1x256 32) (v9 : IVec S1024x256 32) : k3_pay14 (F := F) v4 v9 = cmpMat v4 v9 14336#32 := rfl
theorem k3_pay15_eq (v4 : IVec S1x256 32) (v9 : IVec S1024x256 32) (acc : FVec F S128x256 .f32) (m : FVec F S1024x256 .bf16) (b0 b1 b2 b3 : Vec F S1024x128 .bf16) :
    k3_pay15 v4 v9 acc m b0 b1 b2 b3 = step4 v4 v9 acc m 15360#32 16384#32 17408#32 b0 b1 b2 b3 := rfl
theorem k3_pay16_eq (v4 : IVec S1x256 32) (v9 : IVec S1024x256 32) : k3_pay16 (F := F) v4 v9 = cmpMat v4 v9 18432#32 := rfl
theorem k3_pay17_eq (v4 : IVec S1x256 32) (v9 : IVec S1024x256 32) (acc : FVec F S128x256 .f32) (m : FVec F S1024x256 .bf16) (b0 b1 b2 b3 : Vec F S1024x128 .bf16) :
    k3_pay17 v4 v9 acc m b0 b1 b2 b3 = step4 v4 v9 acc m 19456#32 20480#32 21504#32 b0 b1 b2 b3 := rfl
theorem k3_pay18_eq (v4 : IVec S1x256 32) (v9 : IVec S1024x256 32) : k3_pay18 (F := F) v4 v9 = cmpMat v4 v9 22528#32 := rfl
theorem k3_pay19_eq (v4 : IVec S1x256 32) (v9 : IVec S1024x256 32) (acc : FVec F S128x256 .f32) (m : FVec F S1024x256 .bf16) (b0 b1 b2 b3 : Vec F S1024x128 .bf16) :
    k3_pay19 v4 v9 acc m b0 b1 b2 b3 = step4 v4 v9 acc m 23552#32 24576#32 25600#32 b0 b1 b2 b3 := rfl
theorem k3_pay20_eq (v4 : IVec S1x256 32) (v9 : IVec S1024x256 32) : k3_pay20 (F := F) v4 v9 = cmpMat v4 v9 26624#32 := rfl
theorem k3_pay21_eq (v4 : IVec S1x256 32) (v9 : IVec S1024x256 32) (acc : FVec F S128x256 .f32) (m : FVec F S1024x256 .bf16) (b0 b1 b2 b3 : Vec F S1024x128 .bf16) :
    k3_pay21 v4 v9 acc m b0 b1 b2 b3 = step4 v4 v9 acc m 27648#32 28672#32 29696#32 b0 b1 b2 b3 := rfl
theorem k3_pay22_eq (v4 : IVec S1x256 32) (v9 : IVec S1024x256 32) : k3_pay22 (F := F) v4 v9 = cmpMat v4 v9 30720#32 := rfl
theorem k3_pay23_eq (v4 : IVec S1x256 32) (v9 : IVec S1024x256 32) (acc : FVec F S128x256 .f32) (m : FVec F S1024x256 .bf16) (b0 b1 b2 b3 : Vec F S1024x128 .bf16) :
    k3_pay23 v4 v9 acc m b0 b1 b2 b3 = step4 v4 v9 acc m 31744#32 32768#32 33792#32 b0 b1 b2 b3 := rfl
theorem k3_pay24_eq (v4 : IVec S1x256 32) (v9 : IVec S1024x256 32) : k3_pay24 (F := F) v4 v9 = cmpMat v4 v9 34816#32 := rfl
theorem k3_pay25_eq (v4 : IVec S1x256 32) (v9 : IVec S1024x256 32) (acc : FVec F S128x256 .f32) (m : FVec F S1024x256 .bf16) (b0 b1 b2 b3 : Vec F S1024x128 .bf16) :
    k3_pay25 v4 v9 acc m b0 b1 b2 b3 = step4 v4 v9 acc m 35840#32 36864#32 37888#32 b0 b1 b2 b3 := rfl
theorem k3_pay26_eq (v4 : IVec S1x256 32) (v9 : IVec S1024x256 32) : k3_pay26 (F := F) v4 v9 = cmpMat v4 v9 38912#32 := rfl
theorem k3_pay27_eq (v4 : IVec S1x256 32) (v9 : IVec S1024x256 32) (acc : FVec F S128x256 .f32) (m : FVec F S1024x256 .bf16) (b0 b1 b2 b3 : Vec F S1024x128 .bf16) :
    k3_pay27 v4 v9 acc m b0 b1 b2 b3 = step4 v4 v9 acc m 39936#32 40960#32 41984#32 b0 b1 b2 b3 := rfl
theorem k3_pay28_eq (v4 : IVec S1x256 32) (v9 : IVec S1024x256 32) : k3_pay28 (F := F) v4 v9 = cmpMat v4 v9 43008#32 := rfl
theorem k3_pay29_eq (v4 : IVec S1x256 32) (v9 : IVec S1024x256 32) (acc : FVec F S128x256 .f32) (m : FVec F S1024x256 .bf16) (b0 b1 b2 b3 : Vec F S1024x128 .bf16) :
    k3_pay29 v4 v9 acc m b0 b1 b2 b3 = step4 v4 v9 acc m 44032#32 45056#32 46080#32 b0 b1 b2 b3 := rfl
theorem k3_pay30_eq (v4 : IVec S1x256 32) (v9 : IVec S1024x256 32) : k3_pay30 (F := F) v4 v9 = cmpMat v4 v9 47104#32 := rfl
theorem k3_pay31_eq (v4 : IVec S1x256 32) (v8 : FVec F S1x256 .f32) (v9 : IVec S1024x256 32) (acc : FVec F S128x256 .f32) (m : FVec F S1024x256 .bf16) (b0 b1 b2 : Vec F S1024x128 .bf16) :
    k3_pay31 v4 v8 v9 acc m b0 b1 b2 = last3 v4 v8 v9 acc m 48128#32 49152#32 b0 b1 b2 := rfl

end Pieces

/-! ## One entry on the extended reals -/

section AtIdeal

/-- Row `n` of `x3` at column `j` where the word `w` is `n`'s word, zero elsewhere (and zero past the last row). -/
def pickRow (x3 : Vec Ideal S50176x128 .bf16) (w : BitVec 32) (j : Fin 128) (n : ℕ) : EReal :=
  if h : n < 50176 then (if w = BitVec.ofNat 32 n then x3 (ix2 ⟨n, h⟩ j) else 0) else 0

/-- The selection among all 50176 rows is the sum of these entries over the row numbers below 50176. -/
theorem gsel_eq_range (x3 : Vec Ideal S50176x128 .bf16) (w : BitVec 32) (j : Fin 128) :
    Cert.BridgeMath.gsel (N := 50176) (fun r k => x3 (ix2 r k)) w j = ∑ n ∈ Finset.range 50176, pickRow x3 w j n := by
  rw [← Fin.sum_univ_eq_sum_range]
  unfold Cert.BridgeMath.gsel
  refine Finset.sum_congr rfl fun row _ => ?_
  unfold pickRow
  rw [dif_pos row.isLt]

/-- A word minus an offset's word is a row's word exactly when the word is the word of offset plus row. -/
theorem sub_eq_ofNat_iff (w : BitVec 32) (o r : ℕ) :
    w - BitVec.ofNat 32 o = BitVec.ofNat 32 r ↔ w = BitVec.ofNat 32 (o + r) := by
  rw [BitVec.ofNat_add]
  constructor
  · intro h
    rw [← h, BitVec.add_comm, BitVec.sub_add_cancel]
  · intro h
    rw [h, BitVec.add_comm, BitVec.add_sub_cancel]

/-- The node block at row offset `o`, read at its row `r` and column `j`, is row `o + r` of the array. -/
theorem blk_apply (x3 : Vec Ideal S50176x128 .bf16) (j : Fin 128) (o : ℕ)
    (h : ∀ a, (![o, 0] : Fin 2 → Nat) a + S1024x128.size a ≤ S50176x128.size a) (r : Fin 1024) (hr : o + r.val < 50176) :
    View.ld x3 (Rect.unit (s := S50176x128) ![o, 0] S1024x128.size h) (ix2 r j) = x3 (ix2 ⟨o + r.val, hr⟩ j) := by
  show x3 ((Rect.unit (s := S50176x128) ![o, 0] S1024x128.size h).idx (ix2 r j)) = _
  refine congrArg x3 (funext fun a => Fin.ext ?_)
  match a with
  | ⟨0, _⟩ => show o + 1 * r.val = o + r.val; omega
  | ⟨1, _⟩ => show 0 + 1 * j.val = j.val; omega

/-- One node block's term at feature `j`, edge `e`: the entries of the block's 1024 rows the edge's source word names. -/
theorem gterm_apply (x3 : Vec Ideal S50176x128 .bf16) (j : Fin 128) (src : IVec S1x256 32) (e : Fin 256) (o : ℕ)
    (h : ∀ a, (![o, 0] : Fin 2 → Nat) a + S1024x128.size a ≤ S50176x128.size a) :
    (gterm src rowsIota (BitVec.ofNat 32 o) (View.ld x3 (Rect.unit (s := S50176x128) ![o, 0] S1024x128.size h)) : FVec Ideal S128x256 .f32) (ix2 j e)
      = ∑ r ∈ Finset.range 1024, pickRow x3 (src (ix2 0 e)) j (o + r) := by
  have ho : o + 1024 ≤ 50176 := h 0
  unfold gterm pick
  rw [KDots.mm_gather, ← Fin.sum_univ_eq_sum_range (fun r => pickRow x3 (src (ix2 0 e)) j (o + r)) 1024]
  refine Finset.sum_congr rfl fun r _ => ?_
  have hr : o + r.val < 50176 := by have := r.isLt; omega
  rw [shapeCast_self, blk_apply x3 j o h r hr]
  unfold cmpMat
  rw [KDots.onehot_apply]
  unfold pickRow
  rw [dif_pos hr]
  by_cases hc : src (ix2 0 e) = BitVec.ofNat 32 (o + r.val)
  · rw [if_pos hc, if_pos ((sub_eq_ofNat_iff _ _ _).mpr hc), mul_one]
  · rw [if_neg hc, if_neg (fun h' => hc ((sub_eq_ofNat_iff _ _ _).mp h')), mul_zero]

/-- Adding one block's term to an accumulator that holds the rows below `o` gives the rows below `o + 1024`. -/
theorem acc_step (x3 : Vec Ideal S50176x128 .bf16) (j : Fin 128) (src : IVec S1x256 32) (e : Fin 256) (acc : FVec Ideal S128x256 .f32) (o : ℕ)
    (h : ∀ a, (![o, 0] : Fin 2 → Nat) a + S1024x128.size a ≤ S50176x128.size a)
    (hacc : acc (ix2 j e) = ∑ n ∈ Finset.range o, pickRow x3 (src (ix2 0 e)) j n) :
    (addf acc (gterm src rowsIota (BitVec.ofNat 32 o) (View.ld x3 (Rect.unit (s := S50176x128) ![o, 0] S1024x128.size h)))) (ix2 j e)
      = ∑ n ∈ Finset.range (o + 1024), pickRow x3 (src (ix2 0 e)) j n := by
  rw [addf_apply, hacc, gterm_apply, Finset.sum_range_add]

end AtIdeal

section Chain
variable (x3 : Vec Ideal S50176x128 .bf16) (j : Fin 128) (src : IVec S1x256 32) (e : Fin 256)

/-- The first two blocks: the rows below 2048. -/
theorem first2_apply
    (h0 : ∀ a, (![0, 0] : Fin 2 → Nat) a + S1024x128.size a ≤ S50176x128.size a)
    (h1 : ∀ a, (![0 + 1024, 0] : Fin 2 → Nat) a + S1024x128.size a ≤ S50176x128.size a) :
    (first2 src rowsIota (BitVec.ofNat 32 0) (BitVec.ofNat 32 (0 + 1024))
        (View.ld x3 (Rect.unit (s := S50176x128) ![0, 0] S1024x128.size h0))
        (View.ld x3 (Rect.unit (s := S50176x128) ![0 + 1024, 0] S1024x128.size h1)) : FVec Ideal S128x256 .f32) (ix2 j e)
      = ∑ n ∈ Finset.range (0 + 1024 + 1024), pickRow x3 (src (ix2 0 e)) j n := by
  unfold first2
  refine acc_step x3 j src e _ (0 + 1024) h1 (acc_step x3 j src e _ 0 h0 ?_)
  show Ideal.ofBits .f32 0x00000000#32 = _
  rw [Ideal.ofBits_zero_f32, Finset.sum_range_zero]

/-- Four more blocks from row offset `o`: an accumulator that holds the rows below `o` then holds the rows below `o + 4096`. -/
theorem step4_apply (acc : FVec Ideal S128x256 .f32) (o : ℕ)
    (h0 : ∀ a, (![o, 0] : Fin 2 → Nat) a + S1024x128.size a ≤ S50176x128.size a)
    (h1 : ∀ a, (![o + 1024, 0] : Fin 2 → Nat) a + S1024x128.size a ≤ S50176x128.size a)
    (h2 : ∀ a, (![o + 1024 + 1024, 0] : Fin 2 → Nat) a + S1024x128.size a ≤ S50176x128.size a)
    (h3 : ∀ a, (![o + 1024 + 1024 + 1024, 0] : Fin 2 → Nat) a + S1024x128.size a ≤ S50176x128.size a)
    (hacc : acc (ix2 j e) = ∑ n ∈ Finset.range o, pickRow x3 (src (ix2 0 e)) j n) :
    (step4 src rowsIota acc (cmpMat src rowsIota (BitVec.ofNat 32 o))
        (BitVec.ofNat 32 (o + 1024)) (BitVec.ofNat 32 (o + 1024 + 1024)) (BitVec.ofNat 32 (o + 1024 + 1024 + 1024))
        (View.ld x3 (Rect.unit (s := S50176x128) ![o, 0] S1024x128.size h0))
        (View.ld x3 (Rect.unit (s := S50176x128) ![o + 1024, 0] S1024x128.size h1))
        (View.ld x3 (Rect.unit (s := S50176x128) ![o + 1024 + 1024, 0] S1024x128.size h2))
        (View.ld x3 (Rect.unit (s := S50176x128) ![o + 1024 + 1024 + 1024, 0] S1024x128.size h3)) : FVec Ideal S128x256 .f32) (ix2 j e)
      = ∑ n ∈ Finset.range (o + 1024 + 1024 + 1024 + 1024), pickRow x3 (src (ix2 0 e)) j n := by
  unfold step4
  exact acc_step x3 j src e _ (o + 1024 + 1024 + 1024) h3 (acc_step x3 j src e _ (o + 1024 + 1024) h2
    (acc_step x3 j src e _ (o + 1024) h1 (acc_step x3 j src e _ o h0 hacc)))

/-- The last three blocks and the weights: an accumulator that holds the rows below `o` gives the rows below `o + 3072`,
    times the edge's weight. -/
theorem last3_apply (wts : FVec Ideal S1x256 .f32) (acc : FVec Ideal S128x256 .f32) (o : ℕ)
    (h0 : ∀ a, (![o, 0] : Fin 2 → Nat) a + S1024x128.size a ≤ S50176x128.size a)
    (h1 : ∀ a, (![o + 1024, 0] : Fin 2 → Nat) a + S1024x128.size a ≤ S50176x128.size a)
    (h2 : ∀ a, (![o + 1024 + 1024, 0] : Fin 2 → Nat) a + S1024x128.size a ≤ S50176x128.size a)
    (hacc : acc (ix2 j e) = ∑ n ∈ Finset.range o, pickRow x3 (src (ix2 0 e)) j n) :
    (last3 src wts rowsIota acc (cmpMat src rowsIota (BitVec.ofNat 32 o))
        (BitVec.ofNat 32 (o + 1024)) (BitVec.ofNat 32 (o + 1024 + 1024))
        (View.ld x3 (Rect.unit (s := S50176x128) ![o, 0] S1024x128.size h0))
        (View.ld x3 (Rect.unit (s := S50176x128) ![o + 1024, 0] S1024x128.size h1))
        (View.ld x3 (Rect.unit (s := S50176x128) ![o + 1024 + 1024, 0] S1024x128.size h2)) : FVec Ideal S128x256 .bf16) (ix2 j e)
      = (∑ n ∈ Finset.range (o + 1024 + 1024 + 1024), pickRow x3 (src (ix2 0 e)) j n) * wts (ix2 0 e) := by
  unfold last3
  rw [truncf_apply, mulf_apply]
  rw [broadcastTo_apply wts broadcasts_S1x256_S128x256 (ix2 j e) (ix2 0 e) (fun a => by
      match a with
      | ⟨0, _⟩ => rfl
      | ⟨1, _⟩ => rfl)]
  exact congrArg (· * wts (ix2 0 e)) (acc_step x3 j src e _ (o + 1024 + 1024) h2
    (acc_step x3 j src e _ (o + 1024) h1 (acc_step x3 j src e _ o h0 hacc)))

end Chain

/-! ## The two kernels' messages -/

section Messages

/-- The source words as loaded whole and reshaped to their own shape are the block's words (first kernel). -/
theorem src1_eq (x0 : Vec Ideal S1x256 .i32) :
    k1_pay4 (F := Ideal) (View.ld x0 (Rect.unit (s := S1x256) ![0, 0] S1x256.size inb_S1x256_S1x256_0_0)) = x0 := by
  have hz : (![0, 0] : Fin 2 → Nat) = fun _ => 0 := funext fun a => by
    match a with
    | ⟨0, _⟩ => rfl
    | ⟨1, _⟩ => rfl
  have h1 : View.ld x0 (Rect.unit (s := S1x256) ![0, 0] S1x256.size inb_S1x256_S1x256_0_0) = x0 := View.ld_unit_zero hz _ x0
  exact (shapeCast_self (s := S1x256) _ shapeCasts_S1x256_S1x256).trans h1

/-- The weights as loaded whole and reshaped to their own shape are the block's weights (first kernel). -/
theorem wts1_eq (x2 : Vec Ideal S1x256 .f32) :
    k1_pay6 (F := Ideal) (View.ld x2 (Rect.unit (s := S1x256) ![0, 0] S1x256.size inb_S1x256_S1x256_0_0)) = x2 := by
  have hz : (![0, 0] : Fin 2 → Nat) = fun _ => 0 := funext fun a => by
    match a with
    | ⟨0, _⟩ => rfl
    | ⟨1, _⟩ => rfl
  have h1 : View.ld x2 (Rect.unit (s := S1x256) ![0, 0] S1x256.size inb_S1x256_S1x256_0_0) = x2 := View.ld_unit_zero hz _ x2
  exact (shapeCast_self (s := S1x256) _ shapeCasts_S1x256_S1x256).trans h1

/-- The first aggregation kernel's message at feature `j`, edge `e` of the block. -/
theorem msg1_apply (x0 : Vec Ideal S1x256 .i32) (x2 : Vec Ideal S1x256 .f32) (x3 : Vec Ideal S50176x128 .bf16) (j : Fin 128) (e : Fin 256) :
    Cert.KernelIdeal.KD.msg1 (F := Ideal) x0 x2 x3 (ix2 j e)
      = Cert.BridgeMath.gsel (N := 50176) (fun r k => x3 (ix2 r k)) (x0 (ix2 0 e)) j * x2 (ix2 0 e) := by
  unfold Cert.KernelIdeal.KD.msg1
  simp only [k1_pay7_eq, k1_pay8_eq, k1_pay9_eq, k1_pay10_eq, k1_pay11_eq, k1_pay12_eq, k1_pay13_eq, k1_pay14_eq, k1_pay15_eq,
    k1_pay16_eq, k1_pay17_eq, k1_pay18_eq, k1_pay19_eq, k1_pay20_eq, k1_pay21_eq, k1_pay22_eq, k1_pay23_eq, k1_pay24_eq,
    k1_pay25_eq, k1_pay26_eq, k1_pay27_eq, k1_pay28_eq, k1_pay29_eq, k1_pay30_eq, k1_pay31_eq]
  rw [src1_eq, wts1_eq, gsel_eq_range]
  -- the 49 blocks in program order: two, eleven times four, three
  exact last3_apply x3 j x0 e x2 _ 47104 _ _ _
    (step4_apply x3 j x0 e _ 43008 _ _ _ _
    (step4_apply x3 j x0 e _ 38912 _ _ _ _
    (step4_apply x3 j x0 e _ 34816 _ _ _ _
    (step4_apply x3 j x0 e _ 30720 _ _ _ _
    (step4_apply x3 j x0 e _ 26624 _ _ _ _
    (step4_apply x3 j x0 e _ 22528 _ _ _ _
    (step4_apply x3 j x0 e _ 18432 _ _ _ _
    (step4_apply x3 j x0 e _ 14336 _ _ _ _
    (step4_apply x3 j x0 e _ 10240 _ _ _ _
    (step4_apply x3 j x0 e _ 6144 _ _ _ _
    (step4_apply x3 j x0 e _ 2048 _ _ _ _
    (first2_apply x3 j x0 e _ _))))))))))))

/-- The source words as loaded whole and reshaped to their own shape are the block's words (second kernel). -/
theorem src3_eq (x0 : Vec Ideal S1x256 .i32) :
    k3_pay4 (F := Ideal) (View.ld x0 (Rect.unit (s := S1x256) ![0, 0] S1x256.size inb_S1x256_S1x256_0_0)) = x0 := by
  have hz : (![0, 0] : Fin 2 → Nat) = fun _ => 0 := funext fun a => by
    match a with
    | ⟨0, _⟩ => rfl
    | ⟨1, _⟩ => rfl
  have h1 : View.ld x0 (Rect.unit (s := S1x256) ![0, 0] S1x256.size inb_S1x256_S1x256_0_0) = x0 := View.ld_unit_zero hz _ x0
  exact (shapeCast_self (s := S1x256) _ shapeCasts_S1x256_S1x256).trans h1

/-- The weights as loaded whole and reshaped to their own shape are the block's weights (second kernel). -/
theorem wts3_eq (x2 : Vec Ideal S1x256 .f32) :
    k3_pay6 (F := Ideal) (View.ld x2 (Rect.unit (s := S1x256) ![0, 0] S1x256.size inb_S1x256_S1x256_0_0)) = x2 := by
  have hz : (![0, 0] : Fin 2 → Nat) = fun _ => 0 := funext fun a => by
    match a with
    | ⟨0, _⟩ => rfl
    | ⟨1, _⟩ => rfl
  have h1 : View.ld x2 (Rect.unit (s := S1x256) ![0, 0] S1x256.size inb_S1x256_S1x256_0_0) = x2 := View.ld_unit_zero hz _ x2
  exact (shapeCast_self (s := S1x256) _ shapeCasts_S1x256_S1x256).trans h1

/-- The second aggregation kernel's message at feature `j`, edge `e` of the block. -/
theorem msg3_apply (x0 : Vec Ideal S1x256 .i32) (x2 : Vec Ideal S1x256 .f32) (x3 : Vec Ideal S50176x128 .bf16) (j : Fin 128) (e : Fin 256) :
    Cert.KernelIdeal.KD.msg3 (F := Ideal) x0 x2 x3 (ix2 j e)
      = Cert.BridgeMath.gsel (N := 50176) (fun r k => x3 (ix2 r k)) (x0 (ix2 0 e)) j * x2 (ix2 0 e) := by
  unfold Cert.KernelIdeal.KD.msg3
  simp only [k3_pay7_eq, k3_pay8_eq, k3_pay9_eq, k3_pay10_eq, k3_pay11_eq, k3_pay12_eq, k3_pay13_eq, k3_pay14_eq, k3_pay15_eq,
    k3_pay16_eq, k3_pay17_eq, k3_pay18_eq, k3_pay19_eq, k3_pay20_eq, k3_pay21_eq, k3_pay22_eq, k3_pay23_eq, k3_pay24_eq,
    k3_pay25_eq, k3_pay26_eq, k3_pay27_eq, k3_pay28_eq, k3_pay29_eq, k3_pay30_eq, k3_pay31_eq]
  rw [src3_eq, wts3_eq, gsel_eq_range]
  -- the 49 blocks in program order: two, eleven times four, three
  exact last3_apply x3 j x0 e x2 _ 47104 _ _ _
    (step4_apply x3 j x0 e _ 43008 _ _ _ _
    (step4_apply x3 j x0 e _ 38912 _ _ _ _
    (step4_apply x3 j x0 e _ 34816 _ _ _ _
    (step4_apply x3 j x0 e _ 30720 _ _ _ _
    (step4_apply x3 j x0 e _ 26624 _ _ _ _
    (step4_apply x3 j x0 e _ 22528 _ _ _ _
    (step4_apply x3 j x0 e _ 18432 _ _ _ _
    (step4_apply x3 j x0 e _ 14336 _ _ _ _
    (step4_apply x3 j x0 e _ 10240 _ _ _ _
    (step4_apply x3 j x0 e _ 6144 _ _ _ _
    (step4_apply x3 j x0 e _ 2048 _ _ _ _
    (first2_apply x3 j x0 e _ _))))))))))))

end Messages

end Cert.KernelIdeal.KMsg

end
-- ==== Proof.KAgg1F.lean ====
/-
  The first aggregation region as a whole: what its output array holds after the run.

  The grid walks over the 2540 blocks of 256 edges. The output buffer (one block, the whole padded array, never moved) is
  zeroed at the first point, accumulates every point's contribution, and at the last point is replaced by the layer norm of
  what it holds; it is written back once, after the last point. So the array ends at the layer norm of the sums, over ALL
  650240 edges, of the message at a feature where the edge's destination word is the row's number.
-/
import proofs.«421162_j50672024158728_1_alg».proof.Proof.KAgg1A
import proofs.«421162_j50672024158728_1_alg».proof.Proof.KAgg1C
import proofs.«421162_j50672024158728_1_alg».proof.Proof.KMsg
import proofs.«421162_j50672024158728_1_alg».proof.Proof.BridgeMath
import Idealize.ShloMosaic.Lib.Pipeline.Value
import Idealize.ShloMosaic.Lib.ValueIdx
import Mathlib.Algebra.BigOperators.Fin

set_option maxRecDepth 16384

noncomputable section

namespace Cert.KernelIdeal.KAgg1

open Idealize.ShloMosaic Idealize.ShloMosaic.TcCoe Idealize.ShloMosaic.ValueIdx Idealize.SL.Sem
open Idealize.ShloMosaic.Pipeline (Dat)
open Cert.KernelIdeal Cert.KernelIdeal.Gen

/-- The sums an aggregation region accumulates: at padded row `y 0` and feature `y 1`, over all 650240 edges, the row of
    `H` the edge's source word selects, times the edge's weight, where the edge's destination word is the row's number. -/
def aggSum (SRC DST : Vec Ideal S1x650240 .i32) (NRM : Vec Ideal S1x650240 .f32) (H : Vec Ideal S50176x128 .bf16) :
    Vec Ideal S50176x128 .f32 :=
  fun y => ∑ E : Fin 650240, (if DST (ix2 0 E) = BitVec.ofNat 32 (y 0).val then (1 : EReal) else 0)
    * (Cert.BridgeMath.gsel (N := 50176) (fun r k => H (ix2 r k)) (SRC (ix2 0 E)) (⟨(y 1).val, idx2_lt1 y⟩ : Fin 128) * NRM (ix2 0 E))

/-- The region's arrays as it finds them, and its output array after the run, at their literal types. -/
abbrev srcA1 (V : (c : Dev nD) → (b : Ref sig .tc) → Buf (Elt Ideal) ((c : Thread nD τ).loc b)) (c : Dev nD) : Vec Ideal S1x650240 .i32 := V c main_v38
abbrev dstA1 (V : (c : Dev nD) → (b : Ref sig .tc) → Buf (Elt Ideal) ((c : Thread nD τ).loc b)) (c : Dev nD) : Vec Ideal S1x650240 .i32 := V c main_v39
abbrev nrmA1 (V : (c : Dev nD) → (b : Ref sig .tc) → Buf (Elt Ideal) ((c : Thread nD τ).loc b)) (c : Dev nD) : Vec Ideal S1x650240 .f32 := V c main_v40
abbrev hA1 (V : (c : Dev nD) → (b : Ref sig .tc) → Buf (Elt Ideal) ((c : Thread nD τ).loc b)) (c : Dev nD) : Vec Ideal S50176x128 .bf16 := V c main_v42
abbrev bA1 (V : (c : Dev nD) → (b : Ref sig .tc) → Buf (Elt Ideal) ((c : Thread nD τ).loc b)) (c : Dev nD) : Vec Ideal S128 .f32 := V c main_arg3
abbrev gA1 (V : (c : Dev nD) → (b : Ref sig .tc) → Buf (Elt Ideal) ((c : Thread nD τ).loc b)) (c : Dev nD) : Vec Ideal S128 .f32 := V c main_arg4
abbrev beA1 (V : (c : Dev nD) → (b : Ref sig .tc) → Buf (Elt Ideal) ((c : Thread nD τ).loc b)) (c : Dev nD) : Vec Ideal S128 .f32 := V c main_arg5
abbrev res1 (V : (c : Dev nD) → (b : Ref sig .tc) → Buf (Elt Ideal) ((c : Thread nD τ).loc b)) (c : Dev nD) : Vec Ideal S50176x128 .f32 := (dat1 V c).arrAt 7 cfg1.N

section Helpers

/-- A sum over m·n entries is the sum over m blocks of n. -/
theorem sum_blocks {M : Type*} [AddCommMonoid M] (m n : ℕ) (f : Fin (m * n) → M) :
    ∑ E : Fin (m * n), f E = ∑ t : Fin m, ∑ e : Fin n, f (finProdFinEquiv (t, e)) := by
  rw [← Equiv.sum_comp finProdFinEquiv f, Fintype.sum_prod_type]

variable (V : (c : Dev nD) → (b : Ref sig .tc) → Buf (Elt Ideal) ((c : Thread nD τ).loc b)) (c : Dev nD)

/-- The blocks the windows hand the body at a grid point, at their literal types. -/
abbrev sblk (t : Fin cfg1.N) : Vec Ideal S1x256 .i32 := iblk1 V c 0 t
abbrev dblk (t : Fin cfg1.N) : Vec Ideal S1x256 .i32 := iblk1 V c 1 t
abbrev wblk (t : Fin cfg1.N) : Vec Ideal S1x256 .f32 := iblk1 V c 2 t
abbrev hblk (t : Fin cfg1.N) : Vec Ideal S50176x128 .bf16 := iblk1 V c 3 t
abbrev bblk (t : Fin cfg1.N) : Vec Ideal S128 .f32 := iblk1 V c 4 t
abbrev gblk (t : Fin cfg1.N) : Vec Ideal S128 .f32 := iblk1 V c 5 t
abbrev beblk (t : Fin cfg1.N) : Vec Ideal S128 .f32 := iblk1 V c 6 t

/-- The block index maps over the grid: the three edge windows walk along the columns, the others stay at block zero. -/
theorem idx0 : ∀ t : Fin grid1.N, win1_0.index t 0 = 0 ∧ win1_0.index t 1 = t.val := by decide +kernel
theorem idx1 : ∀ t : Fin grid1.N, win1_1.index t 0 = 0 ∧ win1_1.index t 1 = t.val := by decide +kernel
theorem idx2 : ∀ t : Fin grid1.N, win1_2.index t 0 = 0 ∧ win1_2.index t 1 = t.val := by decide +kernel
theorem idx3 : ∀ t : Fin grid1.N, win1_3.index t 0 = 0 ∧ win1_3.index t 1 = 0 := by decide +kernel
theorem idx4 : ∀ t : Fin grid1.N, win1_4.index t 0 = 0 := by decide +kernel
theorem idx5 : ∀ t : Fin grid1.N, win1_5.index t 0 = 0 := by decide +kernel
theorem idx6 : ∀ t : Fin grid1.N, win1_6.index t 0 = 0 := by decide +kernel
theorem idx7 : ∀ t : Fin grid1.N, win1_7.index t 0 = 0 ∧ win1_7.index t 1 = 0 := by decide +kernel

/-- Edge e of block t is edge 256 t + e of the list, which has 2540 · 256 = 650240 entries. -/
theorem edge_lt (t : Fin cfg1.N) (e : Fin 256) : 256 * t.val + e.val < 650240 := by
  have h1 := t.isLt
  have hN : cfg1.N = 2540 := N_1
  have h2 := e.isLt
  omega

/-! A block's coordinate in its array is the block index times the block size plus the coordinate inside the block. -/

theorem sblk_apply (t : Fin cfg1.N) (e : Fin 256) :
    sblk V c t (ix2 0 e) = srcA1 V c (ix2 0 ⟨256 * t.val + e.val, edge_lt t e⟩) := by
  unfold sblk iblk1
  rw [View.read_apply]
  show V c main_v38 _ = V c main_v38 _
  congr 1
  funext a
  apply Fin.ext
  match a with
  | ⟨0, _⟩ => show win1_0.index t 0 * 1 + 1 * 0 = 0; rw [(idx0 t).1]
  | ⟨1, _⟩ => show win1_0.index t 1 * 256 + 1 * e.val = 256 * t.val + e.val; rw [(idx0 t).2]; omega

theorem dblk_apply (t : Fin cfg1.N) (e : Fin 256) :
    dblk V c t (ix2 0 e) = dstA1 V c (ix2 0 ⟨256 * t.val + e.val, edge_lt t e⟩) := by
  unfold dblk iblk1
  rw [View.read_apply]
  show V c main_v39 _ = V c main_v39 _
  congr 1
  funext a
  apply Fin.ext
  match a with
  | ⟨0, _⟩ => show win1_1.index t 0 * 1 + 1 * 0 = 0; rw [(idx1 t).1]
  | ⟨1, _⟩ => show win1_1.index t 1 * 256 + 1 * e.val = 256 * t.val + e.val; rw [(idx1 t).2]; omega

theorem wblk_apply (t : Fin cfg1.N) (e : Fin 256) :
    wblk V c t (ix2 0 e) = nrmA1 V c (ix2 0 ⟨256 * t.val + e.val, edge_lt t e⟩) := by
  unfold wblk iblk1
  rw [View.read_apply]
  show V c main_v40 _ = V c main_v40 _
  congr 1
  funext a
  apply Fin.ext
  match a with
  | ⟨0, _⟩ => show win1_2.index t 0 * 1 + 1 * 0 = 0; rw [(idx2 t).1]
  | ⟨1, _⟩ => show win1_2.index t 1 * 256 + 1 * e.val = 256 * t.val + e.val; rw [(idx2 t).2]; omega

theorem hblk_eq (t : Fin cfg1.N) : hblk V c t = hA1 V c := by
  funext y
  unfold hblk iblk1
  rw [View.read_apply]
  show V c main_v42 _ = V c main_v42 y
  congr 1
  funext a
  apply Fin.ext
  match a with
  | ⟨0, _⟩ => show win1_3.index t 0 * 50176 + 1 * (y 0).val = (y 0).val; rw [(idx3 t).1]; omega
  | ⟨1, _⟩ => show win1_3.index t 1 * 128 + 1 * (y 1).val = (y 1).val; rw [(idx3 t).2]; omega

theorem bblk_eq (t : Fin cfg1.N) : bblk V c t = bA1 V c := by
  funext y
  unfold bblk iblk1
  rw [View.read_apply]
  show V c main_arg3 _ = V c main_arg3 y
  congr 1
  funext a
  apply Fin.ext
  match a with
  | ⟨0, _⟩ => show win1_4.index t 0 * 128 + 1 * (y 0).val = (y 0).val; rw [idx4 t]; omega

theorem gblk_eq (t : Fin cfg1.N) : gblk V c t = gA1 V c := by
  funext y
  unfold gblk iblk1
  rw [View.read_apply]
  show V c main_arg4 _ = V c main_arg4 y
  congr 1
  funext a
  apply Fin.ext
  match a with
  | ⟨0, _⟩ => show win1_5.index t 0 * 128 + 1 * (y 0).val = (y 0).val; rw [idx5 t]; omega

theorem beblk_eq (t : Fin cfg1.N) : beblk V c t = beA1 V c := by
  funext y
  unfold beblk iblk1
  rw [View.read_apply]
  show V c main_arg5 _ = V c main_arg5 y
  congr 1
  funext a
  apply Fin.ext
  match a with
  | ⟨0, _⟩ => show win1_6.index t 0 * 128 + 1 * (y 0).val = (y 0).val; rw [idx6 t]; omega

/-- One edge's contribution to the entry y. -/
def term (y : S50176x128.Idx) (E : Fin 650240) : EReal :=
  (if dstA1 V c (ix2 0 E) = BitVec.ofNat 32 (y 0).val then (1 : EReal) else 0)
    * (Cert.BridgeMath.gsel (N := 50176) (fun r k => hA1 V c (ix2 r k)) (srcA1 V c (ix2 0 E)) (⟨(y 1).val, idx2_lt1 y⟩ : Fin 128)
        * nrmA1 V c (ix2 0 E))

/-- A grid point adds its 256 edges' contributions. -/
theorem stepG_blk (t : Fin cfg1.N) (old : Vec Ideal S50176x128 .f32) (y : S50176x128.Idx) :
    stepG (dblk V c t) (Cert.KernelIdeal.KD.msg1 (sblk V c t) (wblk V c t) (hblk V c t)) old y
      = old y + ∑ e : Fin 256, term V c y ⟨256 * t.val + e.val, edge_lt t e⟩ := by
  unfold stepG
  refine congrArg (old y + ·) (Finset.sum_congr rfl fun e _ => ?_)
  rw [Cert.KernelIdeal.KMsg.msg1_apply, dblk_apply V c t e, sblk_apply V c t e, wblk_apply V c t e, hblk_eq V c t]
  rfl

/-- The zero buffer reads zero. -/
theorem zeroBuf_apply (y : S50176x128.Idx) : zeroBuf y = 0 := by
  show Ideal.ofBits .f32 0x00000000#32 = 0
  exact Ideal.ofBits_zero_f32

/-- The running value of the output buffer: after point 0 the first block's update of the zero buffer, after each later
    point that point's update of what the point before left. -/
def acc : (n : ℕ) → n < cfg1.N → Vec Ideal S50176x128 .f32
  | 0, h => stepG (dblk V c ⟨0, h⟩) (Cert.KernelIdeal.KD.msg1 (sblk V c ⟨0, h⟩) (wblk V c ⟨0, h⟩) (hblk V c ⟨0, h⟩)) zeroBuf
  | n + 1, h => stepG (dblk V c ⟨n + 1, h⟩) (Cert.KernelIdeal.KD.msg1 (sblk V c ⟨n + 1, h⟩) (wblk V c ⟨n + 1, h⟩) (hblk V c ⟨n + 1, h⟩))
      (acc n (Nat.lt_of_succ_lt h))

/-- Block t's 256 contributions to the entry y (zero beyond the grid). -/
def blockSum (y : S50176x128.Idx) (t : ℕ) : EReal :=
  if h : t < cfg1.N then ∑ e : Fin 256, term V c y ⟨256 * t + e.val, edge_lt ⟨t, h⟩ e⟩ else 0

/-- The running value at an entry is the sum of the blocks' contributions so far. -/
theorem acc_apply : ∀ (n : ℕ) (h : n < cfg1.N) (y : S50176x128.Idx),
    acc V c n h y = ∑ t ∈ Finset.range (n + 1), blockSum V c y t
  | 0, h, y => by
    show stepG (dblk V c ⟨0, h⟩) (Cert.KernelIdeal.KD.msg1 (sblk V c ⟨0, h⟩) (wblk V c ⟨0, h⟩) (hblk V c ⟨0, h⟩)) zeroBuf y = _
    rw [stepG_blk V c ⟨0, h⟩ zeroBuf y, zeroBuf_apply, zero_add, Finset.sum_range_one]
    unfold blockSum
    rw [dif_pos h]
  | n + 1, h, y => by
    show stepG (dblk V c ⟨n + 1, h⟩) (Cert.KernelIdeal.KD.msg1 (sblk V c ⟨n + 1, h⟩) (wblk V c ⟨n + 1, h⟩) (hblk V c ⟨n + 1, h⟩))
      (acc V c n (Nat.lt_of_succ_lt h)) y = _
    rw [stepG_blk V c ⟨n + 1, h⟩ _ y, acc_apply n (Nat.lt_of_succ_lt h) y, Finset.sum_range_succ _ (n + 1)]
    refine congrArg (_ + ·) ?_
    unfold blockSum
    rw [dif_pos h]

/-- Up to the last point but one the buffer holds the running value: the first point is case A, the others case B. -/
theorem outsAt_eq : ∀ (n : ℕ) (h : n < cfg1.N), n ≤ 2538 → outsAt1 V c n h = acc V c n h
  | 0, h, _ => by
    rw [outsAt1_A V c ⟨0, h⟩ (Nat.zero_mod _) (by dsimp only; omega)]
    exact out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) _ _ (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)
  | n + 1, h, hle => by
    have h0 : ¬(⟨n + 1, h⟩ : Fin cfg1.N).val % 2540 = 0 := by dsimp only; omega
    have h1 : ¬(⟨n + 1, h⟩ : Fin cfg1.N).val % 2540 = 2539 := by dsimp only; omega
    rw [outsAt1_B V c ⟨n + 1, h⟩ h0 h1]
    dsimp only
    rw [out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) _ _ (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c (n + 1 - 1) _)]
    show stepG _ _ (outsAt1 V c n _) = stepG _ _ (acc V c n _)
    rw [outsAt_eq n (Nat.lt_of_succ_lt h) (by omega)]

/-- At the last point (case C) the buffer holds the layer norm of the running value. -/
theorem outsAt_last (n : ℕ) (h : n + 1 < cfg1.N) (hn : n = 2538) :
    outsAt1 V c (n + 1) h = k1_pay2 (F := Ideal) (acc V c (n + 1) h) (bblk V c ⟨n + 1, h⟩) (gblk V c ⟨n + 1, h⟩) (beblk V c ⟨n + 1, h⟩) := by
  have h0 : ¬(⟨n + 1, h⟩ : Fin cfg1.N).val % 2540 = 0 := by dsimp only; omega
  have h1 : (⟨n + 1, h⟩ : Fin cfg1.N).val % 2540 = 2539 := by dsimp only; omega
  rw [outsAt1_C V c ⟨n + 1, h⟩ h0 h1]
  dsimp only
  rw [out_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) _ _ (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c (n + 1 - 1) _)]
  show k1_pay2 (F := Ideal) (stepG _ _ (outsAt1 V c n _)) _ _ _ = k1_pay2 (F := Ideal) (stepG _ _ (acc V c n _)) _ _ _
  rw [outsAt_eq V c n (Nat.lt_of_succ_lt h) (by omega)]

theorem lt_last : 2538 + 1 < cfg1.N := by rw [show cfg1.N = 2540 from N_1]; norm_num

/-- The last grid point. -/
abbrev tLast : Fin cfg1.N := ⟨2538 + 1, lt_last⟩

/-- The output's block at the last point is the whole array: read through it, contents are themselves. -/
theorem read_whole (X : Vec Ideal S50176x128 .f32) :
    (cfg1.win 7).cut (grid1.coords tLast) X = ((cfg1.win 7).blk tLast).view.read (Elt Ideal) X := by
  have hz' : (fun a => win1_7.index tLast a * main_v43.ty.shape.size a) = fun _ => 0 := funext fun a => by
    match a with
    | ⟨0, _⟩ => show win1_7.index tLast 0 * 50176 = 0; rw [(idx7 tLast).1]
    | ⟨1, _⟩ => show win1_7.index tLast 1 * 128 = 0; rw [(idx7 tLast).2]
  exact (Memref.read_access_unit_zero (Elt Ideal) main_v43 hz' (fun a => by rw [congrFun hz' a]; simp) X).symm

/-- The one write-back, after the last point, writes what the buffer holds then. -/
theorem flushed_eq (t : Fin cfg1.N) (hf : (cfg1.win 7).flush t = true) :
    (dat1 V c).flushed 7 t = ((cfg1.win 7).blk t).view.read (Elt Ideal) (outsAt1 V c (2538 + 1) lt_last) := by
  have hN : cfg1.N = 2540 := N_1
  have h3 : t.val = 2538 + 1 := by have := (flush1_7 t).mp hf; have := t.isLt; omega
  obtain rfl : t = tLast := Fin.ext h3
  show (cfg1.win 7).cut (grid1.coords tLast) ((dat1 V c).after 7 tLast) = _
  rw [after1_7]
  exact read_whole _

/-- So the output array ends holding what the buffer holds after the last point. -/
theorem final_o : (dat1 V c).arrAt 7 cfg1.N = outsAt1 V c (2538 + 1) lt_last :=
  (dat1 V c).arrAt_eq_of_cover 7 (outsAt1 V c (2538 + 1) lt_last) (flushed_eq V c) fun i =>
    ⟨tLast, (flush1_7 tLast).mpr rfl, by
      show i ∈ ((View.whole main_v43).slice (win1_7.rect tLast)).set
      rw [View.set_slice_whole, Rect.mem_set_unit]
      intro a
      have h0 : (i 0 : Nat) < 50176 := (i 0).isLt
      have h1 : (i 1 : Nat) < 128 := (i 1).isLt
      match a with
      | ⟨0, _⟩ =>
        show win1_7.index tLast 0 * 50176 ≤ (i 0 : Nat) ∧ (i 0 : Nat) < win1_7.index tLast 0 * 50176 + win1_7.xsize (grid1.coords tLast) 0
        rw [(idx7 tLast).1, show win1_7.xsize (grid1.coords tLast) 0 = 50176 from by decide +kernel]; omega
      | ⟨1, _⟩ =>
        show win1_7.index tLast 1 * 128 ≤ (i 1 : Nat) ∧ (i 1 : Nat) < win1_7.index tLast 1 * 128 + win1_7.xsize (grid1.coords tLast) 1
        rw [(idx7 tLast).2, show win1_7.xsize (grid1.coords tLast) 1 = 128 from by decide +kernel]; omega⟩

/-- All the blocks' contributions together are the sum over the whole edge list. -/
theorem sum_all (y : S50176x128.Idx) :
    ∑ t ∈ Finset.range (2538 + 1 + 1), blockSum V c y t = ∑ E : Fin 650240, term V c y E := by
  have hN : cfg1.N = 2540 := N_1
  rw [show (∑ E : Fin 650240, term V c y E) = ∑ t : Fin 2540, ∑ e : Fin 256, term V c y (finProdFinEquiv (t, e)) from
    sum_blocks 2540 256 (term V c y)]
  rw [show (2538 + 1 + 1 : ℕ) = 2540 from rfl, ← Fin.sum_univ_eq_sum_range (fun t => blockSum V c y t) 2540]
  refine Finset.sum_congr rfl fun t _ => ?_
  unfold blockSum
  rw [dif_pos (by rw [hN]; exact t.isLt)]
  refine Finset.sum_congr rfl fun e _ => ?_
  refine congrArg (term V c y) (Fin.ext ?_)
  show 256 * t.val + e.val = e.val + 256 * t.val
  omega

end Helpers

/-- THE REGION'S RESULT. -/
theorem agg1_final (V : (c : Dev nD) → (b : Ref sig .tc) → Buf (Elt Ideal) ((c : Thread nD τ).loc b)) (c : Dev nD) :
    res1 V c = k1_pay2 (F := Ideal) (aggSum (srcA1 V c) (dstA1 V c) (nrmA1 V c) (hA1 V c)) (bA1 V c) (gA1 V c) (beA1 V c) := by
  show (dat1 V c).arrAt 7 cfg1.N = _
  rw [final_o V c, outsAt_last V c 2538 lt_last rfl, bblk_eq V c, gblk_eq V c, beblk_eq V c]
  refine congrArg (fun A => k1_pay2 (F := Ideal) A (bA1 V c) (gA1 V c) (beA1 V c)) ?_
  funext y
  rw [acc_apply V c (2538 + 1) lt_last y, sum_all V c y]
  rfl

end Cert.KernelIdeal.KAgg1

end
-- ==== Proof.KAgg3.lean ====
import proofs.«421162_j50672024158728_1_alg».proof.Proof.Gen.KernelIdeal.Frame
import proofs.«421162_j50672024158728_1_alg».proof.Proof.KDefs
import proofs.«421162_j50672024158728_1_alg».proof.Proof.KDots
import Idealize.ShloMosaic.Lib.Pipeline.Value
import Idealize.ShloMosaic.Lib.ValueIdx
import Idealize.ShloMosaic.Lib.Tactic

set_option maxRecDepth 16384

noncomputable section

namespace Cert.KernelIdeal.KAgg3

open Idealize.ShloMosaic Idealize.ShloMosaic.TcCoe Idealize.ShloMosaic.Tactic Idealize.ShloMosaic.ValueIdx
open Idealize.SL Idealize.SL.Sem
open Cert.KernelIdeal Cert.KernelIdeal.Gen

/-- One block's update as the kernel computes it: the block's old contents plus the product of the comparison matrix
    at offset `off` with the messages. -/
abbrev blockUpd (dst : IVec S1x256 32) (msg : FVec Ideal S128x256 .bf16) (off : BitVec 32) (old : Vec Ideal S1024x128 .f32) :
    FVec Ideal S1024x128 .f32 :=
  addf (shapeCast S1024x128 old shapeCasts_S1024x128_S1024x128)
    (matmul dot_S1024x256_S128x256_S1024x128_1_1_0_0_n_n none
      (truncf .bf16 (sitofp .f32 (extui 32 (cmpi .eq (broadcastTo S1024x256 (subi dst (broadcast S1x256 off)) broadcasts_S1x256_S1024x256)
        (iota .tc S1024x256 32 [0] iota_S1024x256_d0_w32)) natLt_1_32)) bitsLt_bf16_f32)
      msg (constant S1024x128 .f32 0x00000000#32))

/-- The update read at row `p` of the block and feature `j`. -/
theorem blockUpd_apply (dst : IVec S1x256 32) (msg : FVec Ideal S128x256 .bf16) (off : BitVec 32) (old : Vec Ideal S1024x128 .f32)
    (p : Fin 1024) (j : Fin 128) :
    blockUpd dst msg off old (ix2 p j)
      = old (ix2 p j) + ∑ e : Fin 256, (if dst (ix2 0 e) - off = BitVec.ofNat 32 p.val then (1 : EReal) else 0) * msg (ix2 j e) := by
  show (shapeCast S1024x128 old shapeCasts_S1024x128_S1024x128) (ix2 p j) + _ = _
  rw [shapeCast_self, Cert.KernelIdeal.KDots.mm_scatter]
  refine congrArg (old (ix2 p j) + ·) (Finset.sum_congr rfl fun e _ => ?_)
  rw [Cert.KernelIdeal.KDots.onehot_apply]

/-- The whole buffer after a grid point, from the destination words, the messages and the old buffer. -/
def stepG (dst : IVec S1x256 32) (msg : FVec Ideal S128x256 .bf16) (old : Vec Ideal S50176x128 .f32) : Vec Ideal S50176x128 .f32 :=
  fun y => old y + ∑ e : Fin 256, (if dst (ix2 0 e) = BitVec.ofNat 32 (y 0).val then (1 : EReal) else 0)
    * msg (ix2 (⟨(y 1).val, idx2_lt1 y⟩ : Fin 128) e)

/-- A word minus a block's offset is a row's number exactly when the word is the offset plus the number (no wrap: the
    padded node count is far below 2³²). -/
theorem sub_eq_iff (w : BitVec 32) (o p : Nat) (h : o + p < 2 ^ 32) :
    w - BitVec.ofNat 32 o = BitVec.ofNat 32 p ↔ w = BitVec.ofNat 32 (o + p) := by
  constructor
  · intro hw
    have h1 : w - BitVec.ofNat 32 o + BitVec.ofNat 32 o = BitVec.ofNat 32 p + BitVec.ofNat 32 o := by rw [hw]
    rw [BitVec.sub_add_cancel] at h1
    rw [h1, ← BitVec.ofNat_add, Nat.add_comm]
  · intro hw
    rw [hw, Nat.add_comm, BitVec.ofNat_add, BitVec.add_sub_cancel]

/-- THE PIECE: the update of the block at row offset `o`, written through its rectangle, is that block of `stepG`. -/
theorem piece_ok (dst : IVec S1x256 32) (msg : FVec Ideal S128x256 .bf16) (old : Vec Ideal S50176x128 .f32) (o : Nat)
    (h : ∀ a, (![o, 0] : Fin 2 → Nat) a + S1024x128.size a ≤ S50176x128.size a)
    (x : (Rect.unit (s := S50176x128) ![o, 0] S1024x128.size h).shape.Idx) :
    blockUpd dst msg (BitVec.ofNat 32 o) (View.ld old (Rect.unit (s := S50176x128) ![o, 0] S1024x128.size h)) x
      = stepG dst msg old ((Rect.unit (s := S50176x128) ![o, 0] S1024x128.size h).emb x) := by
  have ho : o + 1024 ≤ 50176 := h 0
  obtain ⟨p, j, rfl⟩ : ∃ (p : Fin 1024) (j : Fin 128), x = ix2 p j := ⟨x 0, x 1, eq_ix2 x⟩
  rw [blockUpd_apply]
  unfold stepG
  have e0 : (((Rect.unit (s := S50176x128) ![o, 0] S1024x128.size h).emb (ix2 p j)) 0).val = o + p.val := by
    rw [Rect.emb_apply]; show o + 1 * p.val = _; omega
  have e1 : (((Rect.unit (s := S50176x128) ![o, 0] S1024x128.size h).emb (ix2 p j)) 1).val = j.val := by
    rw [Rect.emb_apply]; show 0 + 1 * j.val = _; omega
  have hj : (⟨(((Rect.unit (s := S50176x128) ![o, 0] S1024x128.size h).emb (ix2 p j)) 1).val, idx2_lt1 _⟩ : Fin 128) = j := Fin.ext e1
  rw [hj, e0]
  refine congrArg₂ (· + ·) rfl (Finset.sum_congr rfl fun e _ => ?_)
  have hp : p.val < 1024 := p.isLt
  simp only [sub_eq_iff _ o p.val (by omega)]

/-- Pieces that are each a block of `stepG` and cover the buffer leave `stepG`. -/
theorem canon_eq_stepG (dst : IVec S1x256 32) (msg : FVec Ideal S128x256 .bf16) (old : Vec Ideal S50176x128 .f32)
    (L : List (View.Piece (Elt Ideal) S50176x128 .f32))
    (hp : ∀ p ∈ L, ∀ x : p.1.shape.Idx, p.2 x = stepG dst msg old (p.1.emb x))
    (hc : ∀ y, ∃ p ∈ L, y ∈ p.1.set) : View.canon L = stepG dst msg old :=
  funext fun y => View.canon_apply_of_pieces (stepG dst msg old) L hp y (hc y)

/-- The whole-row rectangle of an edge block's staging buffer. -/
abbrev rRow : Rect S1x256 := Rect.unit (s := S1x256) ![0, 0] S1x256.size inb_S1x256_S1x256_0_0

theorem hz2 : (![0, 0] : Fin 2 → Nat) = fun _ => 0 := funext fun a => by fin_cases a <;> rfl
theorem hz1 : (![0] : Fin 1 → Nat) = fun _ => 0 := funext fun a => by fin_cases a; rfl

/-- The destination words as the body reads them are the staging buffer's contents. -/
theorem dstRow_eq (x1 : Vec Ideal S1x256 .i32) : k3_pay5 (F := Ideal) (View.ld x1 rRow) = x1 := by
  unfold k3_pay5
  rw [View.ld_unit_zero (S := S1x256) hz2, shapeCast_self]

/-- CASE B (a middle grid point): over the buffer's running contents `xo7`. -/
theorem out_B (c : Dev nD) (i : grid3.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : ¬cond3_0 i) (hc1 : ¬cond3_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) (xo7 : Vec Ideal S50176x128 .f32) :
    out3_B_7 (F := Ideal) c i arg1 harg1 arg2 harg2 arg3 harg3 arg4 harg4 arg5 harg5 arg6 harg6 arg7 harg7 arg8 harg8 hc0 hc1 x0 x1 x2 x3 x4 x5 x6 xo7
      = stepG x1 (Cert.KernelIdeal.KD.msg3 x0 x2 x3) xo7 := by
  unfold out3_B_7
  rw [View.read_writes_eq_canon _ _ _ (cover3_B_7 c i arg1 harg1 arg2 harg2 arg3 harg3 arg4 harg4 arg5 harg5 arg6 harg6 arg7 harg7 arg8 harg8 hc0 hc1 x0 x1 x2 x3 x4 x5 x6 xo7)]
  refine (canon_eq_stepG (k3_pay5 (F := Ideal) (View.ld x1 rRow)) (Cert.KernelIdeal.KD.msg3 x0 x2 x3) xo7 _ ?_
    (cover3_B_7 c i arg1 harg1 arg2 harg2 arg3 harg3 arg4 harg4 arg5 harg5 arg6 harg6 arg7 harg7 arg8 harg8 hc0 hc1 x0 x1 x2 x3 x4 x5 x6 xo7)).trans (by rw [dstRow_eq])
  unfold kernelRun3_B
  dsimp only
  sl_unfold_words
  simp only [View.readAt_eq_ld, harg1.read_unread, harg2.read_unread, harg3.read_unread, harg4.read_unread, harg8.read_unread]
  repeat' (refine List.forall_mem_cons.2 ⟨?_, ?_⟩)
  all_goals first
    | exact fun x => piece_ok _ _ _ _ _ x
    | exact fun p hp => absurd hp (List.not_mem_nil)

end Cert.KernelIdeal.KAgg3

end
-- ==== Proof.KAgg3A.lean ====
import proofs.«421162_j50672024158728_1_alg».proof.Proof.KAgg3

set_option maxRecDepth 16384

noncomputable section

namespace Cert.KernelIdeal.KAgg3

open Idealize.ShloMosaic Idealize.ShloMosaic.TcCoe Idealize.ShloMosaic.Tactic Idealize.ShloMosaic.ValueIdx
open Idealize.SL Idealize.SL.Sem
open Cert.KernelIdeal Cert.KernelIdeal.Gen

/-- The zero buffer the first grid point stores. -/
abbrev zeroBuf : Vec Ideal S50176x128 .f32 := k3_pay3 (F := Ideal)

/-- The buffer while the walk is at row offset `o`: the rows below `o` updated, the rows from `o` on still zero. -/
def partG (dst : IVec S1x256 32) (msg : FVec Ideal S128x256 .bf16) (o : Nat) : Vec Ideal S50176x128 .f32 :=
  fun y => if (y 0).val < o then stepG dst msg zeroBuf y else zeroBuf y

/-- The stores of the walk up to row offset `o`, last first: the zero store, then one block update per 1024 rows, each
    reading its block back through the stores before it. -/
inductive Walk (v : View sig .tc .vmem S50176x128 .f32) (dst : IVec S1x256 32) (msg : FVec Ideal S128x256 .bf16) :
    List (View.Piece (Elt Ideal) S50176x128 .f32) → Nat → Prop
  | base (inb : ∀ a, (![0, 0] : Fin 2 → Nat) a + S50176x128.size a ≤ S50176x128.size a) :
      Walk v dst msg [⟨Rect.unit (s := S50176x128) ![0, 0] S50176x128.size inb, zeroBuf⟩] 0
  | step (L : List (View.Piece (Elt Ideal) S50176x128 .f32)) (o : Nat)
      (h : ∀ a, (![o, 0] : Fin 2 → Nat) a + S1024x128.size a ≤ S50176x128.size a) :
      Walk v dst msg L o →
      Walk v dst msg (⟨Rect.unit (s := S50176x128) ![o, 0] S1024x128.size h,
        blockUpd dst msg (BitVec.ofNat 32 o) (v.readCov L (Rect.unit (s := S50176x128) ![o, 0] S1024x128.size h).toLoadRect)⟩ :: L) (o + 1024)

/-- Off a store's rectangle the earlier stores show through. -/
theorem canon_cons_off {S : Shape} {e : EltTy} (r : Rect S) (w : r.shape.Idx → Elt Ideal e) (L : List (View.Piece (Elt Ideal) S e))
    (y : S.Idx) (h : y ∉ r.set) : View.canon ((⟨r, w⟩ : View.Piece (Elt Ideal) S e) :: L) y = View.canon L y :=
  View.canon_cons_of_not_mem (⟨r, w⟩ : View.Piece (Elt Ideal) S e) L h

/-- What the walk's stores leave. -/
theorem walk_canon (v : View sig .tc .vmem S50176x128 .f32) (dst : IVec S1x256 32) (msg : FVec Ideal S128x256 .bf16) :
    ∀ (L : List (View.Piece (Elt Ideal) S50176x128 .f32)) (o : Nat), Walk v dst msg L o → View.canon L = partG dst msg o := by
  intro L o hw
  induction hw with
  | base inb =>
    rw [View.canon_unit_zero (S := S50176x128) hz2]
    funext y
    unfold partG
    rw [if_neg (Nat.not_lt_zero _)]
  | step L o h _ ih =>
    have ho : o + 1024 ≤ 50176 := h 0
    -- the block read back is still zero
    have hread : v.readCov L (Rect.unit (s := S50176x128) ![o, 0] S1024x128.size h).toLoadRect
        = View.ld zeroBuf (Rect.unit (s := S50176x128) ![o, 0] S1024x128.size h) := by
      rw [View.readCov_eq_canon', ih]
      funext j
      unfold partG
      have hj : ¬ (((Rect.unit (s := S50176x128) ![o, 0] S1024x128.size h).toLoadRect.idx j) 0).val < o := by
        rw [LoadRect.idx_apply]; show ¬ (o + 1 * (j 0).val < o); omega
      rw [if_neg hj]
    rw [hread]
    funext y
    by_cases hm : o ≤ (y 0).val ∧ (y 0).val < o + 1024
    · -- inside the block
      have h1 : (y 1).val < 128 := idx2_lt1 y
      obtain ⟨x, rfl⟩ : ∃ x : (Rect.unit (s := S50176x128) ![o, 0] S1024x128.size h).shape.Idx,
          (Rect.unit (s := S50176x128) ![o, 0] S1024x128.size h).emb x = y :=
        ⟨ix2 (⟨(y 0).val - o, by omega⟩ : Fin 1024) (⟨(y 1).val, h1⟩ : Fin 128), by
          funext a; refine Fin.ext ?_
          match a with
          | ⟨0, _⟩ => rw [Rect.emb_apply]; show o + 1 * ((y 0).val - o) = (y 0).val; omega
          | ⟨1, _⟩ => rw [Rect.emb_apply]; show 0 + 1 * (y 1).val = (y 1).val; omega⟩
      rw [View.canon_cons_emb, piece_ok]
      unfold partG
      have hlt : (((Rect.unit (s := S50176x128) ![o, 0] S1024x128.size h).emb x) 0).val < o + 1024 := hm.2
      rw [if_pos hlt]
    · -- outside the block
      have hnot : y ∉ (Rect.unit (s := S50176x128) ![o, 0] S1024x128.size h).set := by
        rw [Rect.mem_set_unit]
        intro hall
        have := hall 0
        exact hm ⟨this.1, this.2⟩
      rw [canon_cons_off _ _ _ _ hnot, ih]
      unfold partG
      by_cases hlo : (y 0).val < o
      · rw [if_pos hlo, if_pos (by omega)]
      · rw [if_neg hlo, if_neg (by omega)]

/-- After the whole walk the buffer holds the update of the zero buffer. -/
theorem partG_full (dst : IVec S1x256 32) (msg : FVec Ideal S128x256 .bf16) : partG dst msg 50176 = stepG dst msg zeroBuf := by
  funext y
  unfold partG
  rw [if_pos (idx2_lt0 y)]

/-- CASE A (the first grid point). -/
theorem out_A (c : Dev nD) (i : grid3.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : cond3_0 i) (hc1 : ¬cond3_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) :
    out3_A_7 (F := Ideal) c i arg1 harg1 arg2 harg2 arg3 harg3 arg4 harg4 arg5 harg5 arg6 harg6 arg7 harg7 arg8 harg8 hc0 hc1 x0 x1 x2 x3 x4 x5 x6
      = stepG x1 (Cert.KernelIdeal.KD.msg3 x0 x2 x3) zeroBuf := by
  unfold out3_A_7
  rw [View.read_writes_eq_canon _ _ _ (cover3_A_7 c i arg1 harg1 arg2 harg2 arg3 harg3 arg4 harg4 arg5 harg5 arg6 harg6 arg7 harg7 arg8 harg8 hc0 hc1 x0 x1 x2 x3 x4 x5 x6)]
  have hd : kernelRun3_A.sl.r_1 c arg2 harg2 x1 = x1 := by
    unfold kernelRun3_A.sl.r_1
    simp only [View.readAt_eq_ld, harg2.read_unread]
    exact dstRow_eq x1
  have hmsg : kernelRun3_A.sl.r_27 c arg1 harg1 arg3 harg3 arg4 harg4 x0 x2 x3 = Cert.KernelIdeal.KD.msg3 x0 x2 x3 := by
    sl_unfold_words
    simp only [View.readAt_eq_ld, harg1.read_unread, harg3.read_unread, harg4.read_unread]
    rfl
  have hw : Walk arg8.view (kernelRun3_A.sl.r_1 c arg2 harg2 x1) (kernelRun3_A.sl.r_27 c arg1 harg1 arg3 harg3 arg4 harg4 x0 x2 x3)
      (kernelRun3_A c i arg1 harg1 arg2 harg2 arg3 harg3 arg4 harg4 arg5 harg5 arg6 harg6 arg7 harg7 arg8 harg8 hc0 hc1 x0 x1 x2 x3 x4 x5 x6).1 50176 := by
    unfold kernelRun3_A
    dsimp only
    repeat (first | exact Walk.base _ | refine Walk.step _ _ _ ?_)
  rw [walk_canon _ _ _ _ _ hw, partG_full, hd, hmsg]

end Cert.KernelIdeal.KAgg3

end
-- ==== Proof.KAgg3C.lean ====
import proofs.«421162_j50672024158728_1_alg».proof.Proof.KAgg3

set_option maxRecDepth 16384

noncomputable section

namespace Cert.KernelIdeal.KAgg3

open Idealize.ShloMosaic Idealize.ShloMosaic.TcCoe Idealize.ShloMosaic.Tactic Idealize.ShloMosaic.ValueIdx
open Idealize.SL Idealize.SL.Sem
open Cert.KernelIdeal Cert.KernelIdeal.Gen

/-- CASE C (the last grid point): the 49 block updates over the running contents `xo7`, then the closing store of the
    layer norm of the whole buffer with the bias `x4`, scale `x5` and shift `x6`. -/
theorem out_C (c : Dev nD) (i : grid3.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S50176x128 .bf16) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S50176x128 .f32) (harg8 : arg8.IsWhole) (hc0 : ¬cond3_0 i) (hc1 : cond3_1 i)
    (x0 : Vec Ideal S1x256 .i32) (x1 : Vec Ideal S1x256 .i32) (x2 : Vec Ideal S1x256 .f32) (x3 : Vec Ideal S50176x128 .bf16) (x4 : Vec Ideal S128 .f32) (x5 : Vec Ideal S128 .f32) (x6 : Vec Ideal S128 .f32) (xo7 : Vec Ideal S50176x128 .f32) :
    out3_C_7 (F := Ideal) c i arg1 harg1 arg2 harg2 arg3 harg3 arg4 harg4 arg5 harg5 arg6 harg6 arg7 harg7 arg8 harg8 hc0 hc1 x0 x1 x2 x3 x4 x5 x6 xo7
      = k3_pay2 (F := Ideal) (stepG x1 (Cert.KernelIdeal.KD.msg3 x0 x2 x3) xo7) x4 x5 x6 := by
  unfold out3_C_7
  rw [View.read_writes_eq_canon _ _ _ (cover3_C_7 c i arg1 harg1 arg2 harg2 arg3 harg3 arg4 harg4 arg5 harg5 arg6 harg6 arg7 harg7 arg8 harg8 hc0 hc1 x0 x1 x2 x3 x4 x5 x6 xo7)]
  unfold kernelRun3_C
  dsimp only
  rw [View.canon_cons_unit_zero (S := S50176x128) hz2]
  have hcov : ∀ y, ∃ p ∈ (kernelRun3_C.sl.H7_49 c arg1 harg1 arg2 harg2 arg3 harg3 arg4 harg4 arg8 harg8 x0 x1 x2 x3 xo7), y ∈ p.1.set :=
    View.cover_of_tiledL _ S1024x128.size (by sl_kernel_rfl)
  have hcanon : View.canon (kernelRun3_C.sl.H7_49 c arg1 harg1 arg2 harg2 arg3 harg3 arg4 harg4 arg8 harg8 x0 x1 x2 x3 xo7)
      = stepG x1 (Cert.KernelIdeal.KD.msg3 x0 x2 x3) xo7 := by
    refine (canon_eq_stepG (k3_pay5 (F := Ideal) (View.ld x1 rRow)) (Cert.KernelIdeal.KD.msg3 x0 x2 x3) xo7 _ ?_ hcov).trans (by rw [dstRow_eq])
    sl_unfold_words
    simp only [View.readAt_eq_ld, harg1.read_unread, harg2.read_unread, harg3.read_unread, harg4.read_unread, harg8.read_unread]
    repeat' (refine List.forall_mem_cons.2 ⟨?_, ?_⟩)
    all_goals first
      | exact fun x => piece_ok _ _ _ _ _ x
      | exact fun p hp => absurd hp (List.not_mem_nil)
  have hv : kernelRun3_C.sl.v1144 c arg1 harg1 arg2 harg2 arg3 harg3 arg4 harg4 arg8 harg8 x0 x1 x2 x3 xo7
      = stepG x1 (Cert.KernelIdeal.KD.msg3 x0 x2 x3) xo7 := by
    unfold kernelRun3_C.sl.v1144
    rw [View.readCov_eq_canon_ld _ _ _ hcov, hcanon, View.ld_unit_zero (S := S50176x128) hz2]
  rw [hv]
  simp only [View.readAt_eq_ld, harg5.read_unread, harg6.read_unread, harg7.read_unread, View.ld_unit_zero (S := S128) hz1]

end Cert.KernelIdeal.KAgg3

end
-- ==== Proof.KAgg3F.lean ====
import proofs.«421162_j50672024158728_1_alg».proof.Proof.KAgg3A
import proofs.«421162_j50672024158728_1_alg».proof.Proof.KAgg3C
import proofs.«421162_j50672024158728_1_alg».proof.Proof.KMsg
import proofs.«421162_j50672024158728_1_alg».proof.Proof.BridgeMath
import Idealize.ShloMosaic.Lib.Pipeline.Value
import Idealize.ShloMosaic.Lib.ValueIdx
import Mathlib.Algebra.BigOperators.Fin

set_option maxRecDepth 16384

noncomputable section

namespace Cert.KernelIdeal.KAgg3

open Idealize.ShloMosaic Idealize.ShloMosaic.TcCoe Idealize.ShloMosaic.ValueIdx Idealize.SL.Sem
open Idealize.ShloMosaic.Pipeline (Dat)
open Cert.KernelIdeal Cert.KernelIdeal.Gen

/-- The sums an aggregation region accumulates: at padded row `y 0` and feature `y 1`, over all 650240 edges, the row of
    `H` the edge's source word selects, times the edge's weight, where the edge's destination word is the row's number. -/
def aggSum (SRC DST : Vec Ideal S1x650240 .i32) (NRM : Vec Ideal S1x650240 .f32) (H : Vec Ideal S50176x128 .bf16) :
    Vec Ideal S50176x128 .f32 :=
  fun y => ∑ E : Fin 650240, (if DST (ix2 0 E) = BitVec.ofNat 32 (y 0).val then (1 : EReal) else 0)
    * (Cert.BridgeMath.gsel (N := 50176) (fun r k => H (ix2 r k)) (SRC (ix2 0 E)) (⟨(y 1).val, idx2_lt1 y⟩ : Fin 128) * NRM (ix2 0 E))

/-- The region's arrays as it finds them, and its output array after the run, at their literal types. -/
abbrev srcA3 (V : (c : Dev nD) → (b : Ref sig .tc) → Buf (Elt Ideal) ((c : Thread nD τ).loc b)) (c : Dev nD) : Vec Ideal S1x650240 .i32 := V c main_v38
abbrev dstA3 (V : (c : Dev nD) → (b : Ref sig .tc) → Buf (Elt Ideal) ((c : Thread nD τ).loc b)) (c : Dev nD) : Vec Ideal S1x650240 .i32 := V c main_v39
abbrev nrmA3 (V : (c : Dev nD) → (b : Ref sig .tc) → Buf (Elt Ideal) ((c : Thread nD τ).loc b)) (c : Dev nD) : Vec Ideal S1x650240 .f32 := V c main_v40
abbrev hA3 (V : (c : Dev nD) → (b : Ref sig .tc) → Buf (Elt Ideal) ((c : Thread nD τ).loc b)) (c : Dev nD) : Vec Ideal S50176x128 .bf16 := V c main_v44
abbrev bA3 (V : (c : Dev nD) → (b : Ref sig .tc) → Buf (Elt Ideal) ((c : Thread nD τ).loc b)) (c : Dev nD) : Vec Ideal S128 .f32 := V c main_arg7
abbrev gA3 (V : (c : Dev nD) → (b : Ref sig .tc) → Buf (Elt Ideal) ((c : Thread nD τ).loc b)) (c : Dev nD) : Vec Ideal S128 .f32 := V c main_arg8
abbrev beA3 (V : (c : Dev nD) → (b : Ref sig .tc) → Buf (Elt Ideal) ((c : Thread nD τ).loc b)) (c : Dev nD) : Vec Ideal S128 .f32 := V c main_arg9
abbrev res3 (V : (c : Dev nD) → (b : Ref sig .tc) → Buf (Elt Ideal) ((c : Thread nD τ).loc b)) (c : Dev nD) : Vec Ideal S50176x128 .f32 := (dat3 V c).arrAt 7 cfg3.N

section Helpers

/-- A sum over m·n entries is the sum over m blocks of n. -/
theorem sum_blocks {M : Type*} [AddCommMonoid M] (m n : ℕ) (f : Fin (m * n) → M) :
    ∑ E : Fin (m * n), f E = ∑ t : Fin m, ∑ e : Fin n, f (finProdFinEquiv (t, e)) := by
  rw [← Equiv.sum_comp finProdFinEquiv f, Fintype.sum_prod_type]

variable (V : (c : Dev nD) → (b : Ref sig .tc) → Buf (Elt Ideal) ((c : Thread nD τ).loc b)) (c : Dev nD)

/-- The blocks the windows hand the body at a grid point, at their literal types. -/
abbrev sblk (t : Fin cfg3.N) : Vec Ideal S1x256 .i32 := iblk3 V c 0 t
abbrev dblk (t : Fin cfg3.N) : Vec Ideal S1x256 .i32 := iblk3 V c 1 t
abbrev wblk (t : Fin cfg3.N) : Vec Ideal S1x256 .f32 := iblk3 V c 2 t
abbrev hblk (t : Fin cfg3.N) : Vec Ideal S50176x128 .bf16 := iblk3 V c 3 t
abbrev bblk (t : Fin cfg3.N) : Vec Ideal S128 .f32 := iblk3 V c 4 t
abbrev gblk (t : Fin cfg3.N) : Vec Ideal S128 .f32 := iblk3 V c 5 t
abbrev beblk (t : Fin cfg3.N) : Vec Ideal S128 .f32 := iblk3 V c 6 t

/-- The block index maps over the grid: the three edge windows walk along the columns, the others stay at block zero. -/
theorem idx0 : ∀ t : Fin grid3.N, win3_0.index t 0 = 0 ∧ win3_0.index t 1 = t.val := by decide +kernel
theorem idx1 : ∀ t : Fin grid3.N, win3_1.index t 0 = 0 ∧ win3_1.index t 1 = t.val := by decide +kernel
theorem idx2 : ∀ t : Fin grid3.N, win3_2.index t 0 = 0 ∧ win3_2.index t 1 = t.val := by decide +kernel
theorem idx3 : ∀ t : Fin grid3.N, win3_3.index t 0 = 0 ∧ win3_3.index t 1 = 0 := by decide +kernel
theorem idx4 : ∀ t : Fin grid3.N, win3_4.index t 0 = 0 := by decide +kernel
theorem idx5 : ∀ t : Fin grid3.N, win3_5.index t 0 = 0 := by decide +kernel
theorem idx6 : ∀ t : Fin grid3.N, win3_6.index t 0 = 0 := by decide +kernel
theorem idx7 : ∀ t : Fin grid3.N, win3_7.index t 0 = 0 ∧ win3_7.index t 1 = 0 := by decide +kernel

/-- Edge e of block t is edge 256 t + e of the list, which has 2540 · 256 = 650240 entries. -/
theorem edge_lt (t : Fin cfg3.N) (e : Fin 256) : 256 * t.val + e.val < 650240 := by
  have h1 := t.isLt
  have hN : cfg3.N = 2540 := N_3
  have h2 := e.isLt
  omega

/-! A block's coordinate in its array is the block index times the block size plus the coordinate inside the block. -/

theorem sblk_apply (t : Fin cfg3.N) (e : Fin 256) :
    sblk V c t (ix2 0 e) = srcA3 V c (ix2 0 ⟨256 * t.val + e.val, edge_lt t e⟩) := by
  unfold sblk iblk3
  rw [View.read_apply]
  show V c main_v38 _ = V c main_v38 _
  congr 1
  funext a
  apply Fin.ext
  match a with
  | ⟨0, _⟩ => show win3_0.index t 0 * 1 + 1 * 0 = 0; rw [(idx0 t).1]
  | ⟨1, _⟩ => show win3_0.index t 1 * 256 + 1 * e.val = 256 * t.val + e.val; rw [(idx0 t).2]; omega

theorem dblk_apply (t : Fin cfg3.N) (e : Fin 256) :
    dblk V c t (ix2 0 e) = dstA3 V c (ix2 0 ⟨256 * t.val + e.val, edge_lt t e⟩) := by
  unfold dblk iblk3
  rw [View.read_apply]
  show V c main_v39 _ = V c main_v39 _
  congr 1
  funext a
  apply Fin.ext
  match a with
  | ⟨0, _⟩ => show win3_1.index t 0 * 1 + 1 * 0 = 0; rw [(idx1 t).1]
  | ⟨1, _⟩ => show win3_1.index t 1 * 256 + 1 * e.val = 256 * t.val + e.val; rw [(idx1 t).2]; omega

theorem wblk_apply (t : Fin cfg3.N) (e : Fin 256) :
    wblk V c t (ix2 0 e) = nrmA3 V c (ix2 0 ⟨256 * t.val + e.val, edge_lt t e⟩) := by
  unfold wblk iblk3
  rw [View.read_apply]
  show V c main_v40 _ = V c main_v40 _
  congr 1
  funext a
  apply Fin.ext
  match a with
  | ⟨0, _⟩ => show win3_2.index t 0 * 1 + 1 * 0 = 0; rw [(idx2 t).1]
  | ⟨1, _⟩ => show win3_2.index t 1 * 256 + 1 * e.val = 256 * t.val + e.val; rw [(idx2 t).2]; omega

theorem hblk_eq (t : Fin cfg3.N) : hblk V c t = hA3 V c := by
  funext y
  unfold hblk iblk3
  rw [View.read_apply]
  show V c main_v44 _ = V c main_v44 y
  congr 1
  funext a
  apply Fin.ext
  match a with
  | ⟨0, _⟩ => show win3_3.index t 0 * 50176 + 1 * (y 0).val = (y 0).val; rw [(idx3 t).1]; omega
  | ⟨1, _⟩ => show win3_3.index t 1 * 128 + 1 * (y 1).val = (y 1).val; rw [(idx3 t).2]; omega

theorem bblk_eq (t : Fin cfg3.N) : bblk V c t = bA3 V c := by
  funext y
  unfold bblk iblk3
  rw [View.read_apply]
  show V c main_arg7 _ = V c main_arg7 y
  congr 1
  funext a
  apply Fin.ext
  match a with
  | ⟨0, _⟩ => show win3_4.index t 0 * 128 + 1 * (y 0).val = (y 0).val; rw [idx4 t]; omega

theorem gblk_eq (t : Fin cfg3.N) : gblk V c t = gA3 V c := by
  funext y
  unfold gblk iblk3
  rw [View.read_apply]
  show V c main_arg8 _ = V c main_arg8 y
  congr 1
  funext a
  apply Fin.ext
  match a with
  | ⟨0, _⟩ => show win3_5.index t 0 * 128 + 1 * (y 0).val = (y 0).val; rw [idx5 t]; omega

theorem beblk_eq (t : Fin cfg3.N) : beblk V c t = beA3 V c := by
  funext y
  unfold beblk iblk3
  rw [View.read_apply]
  show V c main_arg9 _ = V c main_arg9 y
  congr 1
  funext a
  apply Fin.ext
  match a with
  | ⟨0, _⟩ => show win3_6.index t 0 * 128 + 1 * (y 0).val = (y 0).val; rw [idx6 t]; omega

/-- One edge's contribution to the entry y. -/
def term (y : S50176x128.Idx) (E : Fin 650240) : EReal :=
  (if dstA3 V c (ix2 0 E) = BitVec.ofNat 32 (y 0).val then (1 : EReal) else 0)
    * (Cert.BridgeMath.gsel (N := 50176) (fun r k => hA3 V c (ix2 r k)) (srcA3 V c (ix2 0 E)) (⟨(y 1).val, idx2_lt1 y⟩ : Fin 128)
        * nrmA3 V c (ix2 0 E))

/-- A grid point adds its 256 edges' contributions. -/
theorem stepG_blk (t : Fin cfg3.N) (old : Vec Ideal S50176x128 .f32) (y : S50176x128.Idx) :
    stepG (dblk V c t) (Cert.KernelIdeal.KD.msg3 (sblk V c t) (wblk V c t) (hblk V c t)) old y
      = old y + ∑ e : Fin 256, term V c y ⟨256 * t.val + e.val, edge_lt t e⟩ := by
  unfold stepG
  refine congrArg (old y + ·) (Finset.sum_congr rfl fun e _ => ?_)
  rw [Cert.KernelIdeal.KMsg.msg3_apply, dblk_apply V c t e, sblk_apply V c t e, wblk_apply V c t e, hblk_eq V c t]
  rfl

/-- The zero buffer reads zero. -/
theorem zeroBuf_apply (y : S50176x128.Idx) : zeroBuf y = 0 := by
  show Ideal.ofBits .f32 0x00000000#32 = 0
  exact Ideal.ofBits_zero_f32

/-- The running value of the output buffer: after point 0 the first block's update of the zero buffer, after each later
    point that point's update of what the point before left. -/
def acc : (n : ℕ) → n < cfg3.N → Vec Ideal S50176x128 .f32
  | 0, h => stepG (dblk V c ⟨0, h⟩) (Cert.KernelIdeal.KD.msg3 (sblk V c ⟨0, h⟩) (wblk V c ⟨0, h⟩) (hblk V c ⟨0, h⟩)) zeroBuf
  | n + 1, h => stepG (dblk V c ⟨n + 1, h⟩) (Cert.KernelIdeal.KD.msg3 (sblk V c ⟨n + 1, h⟩) (wblk V c ⟨n + 1, h⟩) (hblk V c ⟨n + 1, h⟩))
      (acc n (Nat.lt_of_succ_lt h))

/-- Block t's 256 contributions to the entry y (zero beyond the grid). -/
def blockSum (y : S50176x128.Idx) (t : ℕ) : EReal :=
  if h : t < cfg3.N then ∑ e : Fin 256, term V c y ⟨256 * t + e.val, edge_lt ⟨t, h⟩ e⟩ else 0

/-- The running value at an entry is the sum of the blocks' contributions so far. -/
theorem acc_apply : ∀ (n : ℕ) (h : n < cfg3.N) (y : S50176x128.Idx),
    acc V c n h y = ∑ t ∈ Finset.range (n + 1), blockSum V c y t
  | 0, h, y => by
    show stepG (dblk V c ⟨0, h⟩) (Cert.KernelIdeal.KD.msg3 (sblk V c ⟨0, h⟩) (wblk V c ⟨0, h⟩) (hblk V c ⟨0, h⟩)) zeroBuf y = _
    rw [stepG_blk V c ⟨0, h⟩ zeroBuf y, zeroBuf_apply, zero_add, Finset.sum_range_one]
    unfold blockSum
    rw [dif_pos h]
  | n + 1, h, y => by
    show stepG (dblk V c ⟨n + 1, h⟩) (Cert.KernelIdeal.KD.msg3 (sblk V c ⟨n + 1, h⟩) (wblk V c ⟨n + 1, h⟩) (hblk V c ⟨n + 1, h⟩))
      (acc V c n (Nat.lt_of_succ_lt h)) y = _
    rw [stepG_blk V c ⟨n + 1, h⟩ _ y, acc_apply n (Nat.lt_of_succ_lt h) y, Finset.sum_range_succ _ (n + 1)]
    refine congrArg (_ + ·) ?_
    unfold blockSum
    rw [dif_pos h]

/-- Up to the last point but one the buffer holds the running value: the first point is case A, the others case B. -/
theorem outsAt_eq : ∀ (n : ℕ) (h : n < cfg3.N), n ≤ 2538 → outsAt3 V c n h = acc V c n h
  | 0, h, _ => by
    rw [outsAt3_A V c ⟨0, h⟩ (Nat.zero_mod _) (by dsimp only; omega)]
    exact out_A c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) _ _ (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩)
  | n + 1, h, hle => by
    have h0 : ¬(⟨n + 1, h⟩ : Fin cfg3.N).val % 2540 = 0 := by dsimp only; omega
    have h1 : ¬(⟨n + 1, h⟩ : Fin cfg3.N).val % 2540 = 2539 := by dsimp only; omega
    rw [outsAt3_B V c ⟨n + 1, h⟩ h0 h1]
    dsimp only
    rw [out_B c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) _ _ (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (outsAt3 V c (n + 1 - 1) _)]
    show stepG _ _ (outsAt3 V c n _) = stepG _ _ (acc V c n _)
    rw [outsAt_eq n (Nat.lt_of_succ_lt h) (by omega)]

/-- At the last point (case C) the buffer holds the layer norm of the running value. -/
theorem outsAt_last (n : ℕ) (h : n + 1 < cfg3.N) (hn : n = 2538) :
    outsAt3 V c (n + 1) h = k3_pay2 (F := Ideal) (acc V c (n + 1) h) (bblk V c ⟨n + 1, h⟩) (gblk V c ⟨n + 1, h⟩) (beblk V c ⟨n + 1, h⟩) := by
  have h0 : ¬(⟨n + 1, h⟩ : Fin cfg3.N).val % 2540 = 0 := by dsimp only; omega
  have h1 : (⟨n + 1, h⟩ : Fin cfg3.N).val % 2540 = 2539 := by dsimp only; omega
  rw [outsAt3_C V c ⟨n + 1, h⟩ h0 h1]
  dsimp only
  rw [out_C c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) _ _ (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (outsAt3 V c (n + 1 - 1) _)]
  show k3_pay2 (F := Ideal) (stepG _ _ (outsAt3 V c n _)) _ _ _ = k3_pay2 (F := Ideal) (stepG _ _ (acc V c n _)) _ _ _
  rw [outsAt_eq V c n (Nat.lt_of_succ_lt h) (by omega)]

theorem lt_last : 2538 + 1 < cfg3.N := by rw [show cfg3.N = 2540 from N_3]; norm_num

/-- The last grid point. -/
abbrev tLast : Fin cfg3.N := ⟨2538 + 1, lt_last⟩

/-- The output's block at the last point is the whole array: read through it, contents are themselves. -/
theorem read_whole (X : Vec Ideal S50176x128 .f32) :
    (cfg3.win 7).cut (grid3.coords tLast) X = ((cfg3.win 7).blk tLast).view.read (Elt Ideal) X := by
  have hz' : (fun a => win3_7.index tLast a * main_v45.ty.shape.size a) = fun _ => 0 := funext fun a => by
    match a with
    | ⟨0, _⟩ => show win3_7.index tLast 0 * 50176 = 0; rw [(idx7 tLast).1]
    | ⟨1, _⟩ => show win3_7.index tLast 1 * 128 = 0; rw [(idx7 tLast).2]
  exact (Memref.read_access_unit_zero (Elt Ideal) main_v45 hz' (fun a => by rw [congrFun hz' a]; simp) X).symm

/-- The one write-back, after the last point, writes what the buffer holds then. -/
theorem flushed_eq (t : Fin cfg3.N) (hf : (cfg3.win 7).flush t = true) :
    (dat3 V c).flushed 7 t = ((cfg3.win 7).blk t).view.read (Elt Ideal) (outsAt3 V c (2538 + 1) lt_last) := by
  have hN : cfg3.N = 2540 := N_3
  have h3 : t.val = 2538 + 1 := by have := (flush3_7 t).mp hf; have := t.isLt; omega
  obtain rfl : t = tLast := Fin.ext h3
  show (cfg3.win 7).cut (grid3.coords tLast) ((dat3 V c).after 7 tLast) = _
  rw [after3_7]
  exact read_whole _

/-- So the output array ends holding what the buffer holds after the last point. -/
theorem final_o : (dat3 V c).arrAt 7 cfg3.N = outsAt3 V c (2538 + 1) lt_last :=
  (dat3 V c).arrAt_eq_of_cover 7 (outsAt3 V c (2538 + 1) lt_last) (flushed_eq V c) fun i =>
    ⟨tLast, (flush3_7 tLast).mpr rfl, by
      show i ∈ ((View.whole main_v45).slice (win3_7.rect tLast)).set
      rw [View.set_slice_whole, Rect.mem_set_unit]
      intro a
      have h0 : (i 0 : Nat) < 50176 := (i 0).isLt
      have h1 : (i 1 : Nat) < 128 := (i 1).isLt
      match a with
      | ⟨0, _⟩ =>
        show win3_7.index tLast 0 * 50176 ≤ (i 0 : Nat) ∧ (i 0 : Nat) < win3_7.index tLast 0 * 50176 + win3_7.xsize (grid3.coords tLast) 0
        rw [(idx7 tLast).1, show win3_7.xsize (grid3.coords tLast) 0 = 50176 from by decide +kernel]; omega
      | ⟨1, _⟩ =>
        show win3_7.index tLast 1 * 128 ≤ (i 1 : Nat) ∧ (i 1 : Nat) < win3_7.index tLast 1 * 128 + win3_7.xsize (grid3.coords tLast) 1
        rw [(idx7 tLast).2, show win3_7.xsize (grid3.coords tLast) 1 = 128 from by decide +kernel]; omega⟩

/-- All the blocks' contributions together are the sum over the whole edge list. -/
theorem sum_all (y : S50176x128.Idx) :
    ∑ t ∈ Finset.range (2538 + 1 + 1), blockSum V c y t = ∑ E : Fin 650240, term V c y E := by
  have hN : cfg3.N = 2540 := N_3
  rw [show (∑ E : Fin 650240, term V c y E) = ∑ t : Fin 2540, ∑ e : Fin 256, term V c y (finProdFinEquiv (t, e)) from
    sum_blocks 2540 256 (term V c y)]
  rw [show (2538 + 1 + 1 : ℕ) = 2540 from rfl, ← Fin.sum_univ_eq_sum_range (fun t => blockSum V c y t) 2540]
  refine Finset.sum_congr rfl fun t _ => ?_
  unfold blockSum
  rw [dif_pos (by rw [hN]; exact t.isLt)]
  refine Finset.sum_congr rfl fun e _ => ?_
  refine congrArg (term V c y) (Fin.ext ?_)
  show 256 * t.val + e.val = e.val + 256 * t.val
  omega

end Helpers

/-- THE REGION'S RESULT. -/
theorem agg3_final (V : (c : Dev nD) → (b : Ref sig .tc) → Buf (Elt Ideal) ((c : Thread nD τ).loc b)) (c : Dev nD) :
    res3 V c = k3_pay2 (F := Ideal) (aggSum (srcA3 V c) (dstA3 V c) (nrmA3 V c) (hA3 V c)) (bA3 V c) (gA3 V c) (beA3 V c) := by
  show (dat3 V c).arrAt 7 cfg3.N = _
  rw [final_o V c, outsAt_last V c 2538 lt_last rfl, bblk_eq V c, gblk_eq V c, beblk_eq V c]
  refine congrArg (fun A => k3_pay2 (F := Ideal) A (bA3 V c) (gA3 V c) (beA3 V c)) ?_
  funext y
  rw [acc_apply V c (2538 + 1) lt_last y, sum_all V c y]
  rfl

end Cert.KernelIdeal.KAgg3

end
-- ==== Proof.SrcRange.lean ====
/-
  The source words of the reference's edge list (the given [2, 600000] entries' first row, then one self-loop per node)
  are node numbers wherever the given entries are.
-/
import proofs.«421162_j50672024158728_1_alg».proof.Proof.RefValue
import Idealize.ShloMosaic.Lib.ValueIdx
import Idealize.ShloMosaic.Lib.ValueLayout
import Idealize.ShloMosaic.Lib.Pipeline.Value
import Idealize.ShloMosaic.Lib.StableHlo.Predicate

noncomputable section

namespace Cert.SrcRange

open Idealize.ShloMosaic Idealize.ShloMosaic.ValueIdx Cert.ReferenceIdeal Cert.ReferenceIdeal.Gen Cert.ReferenceIdeal.ReadP

/-- THE LEFT PIECE. An entry below 600000 of the joined list lies in the first operand of the concatenation, at the
    same position; that operand is the first row of the given array laid flat, so the entry is the given array's
    word at row 0, column `e`. -/
theorem srcW_left (x1 : (⟨S2x600000, .i32⟩ : BufTy).Contents (Elt Ideal)) (e : Fin 650000) (he : e.val < 600000) :
    Cert.RefValue.srcW x1 e = x1 (ix2 (0 : Fin 2) (⟨e.val, he⟩ : Fin 600000)) := by
  unfold Cert.RefValue.srcW val_main_v3
  rw [concatenate_pair_apply_left (t := S650000) (s₁ := S600000) (s₂ := S50000) 0 _ _
    concatenates_S600000_S50000_S650000_d0 (ix1 e) rfl (ix1 (⟨e.val, he⟩ : Fin 600000))
    (fun b => match b with | ⟨0, _⟩ => rfl)]
  rw [val_main_v2_apply, val_main_v1_apply]
  refine congrArg x1 ?_
  funext a
  refine Fin.ext ?_
  match a with
  | ⟨0, _⟩ => rfl
  | ⟨1, _⟩ => show e.val % 600000 = e.val; omega

/-- THE RIGHT PIECE. An entry at or past 600000 lies in the second operand, the first operand's length further
    down; that operand counts the nodes, so the entry is the word of the number `e − 600000`. -/
theorem srcW_right (x1 : (⟨S2x600000, .i32⟩ : BufTy).Contents (Elt Ideal)) (e : Fin 650000) (he : 600000 ≤ e.val) :
    Cert.RefValue.srcW x1 e = BitVec.ofNat 32 (e.val - 600000) := by
  have hlt : e.val - 600000 < 50000 := by have := e.isLt; omega
  unfold Cert.RefValue.srcW val_main_v3
  rw [concatenate_pair_apply_right (t := S650000) (s₁ := S600000) (s₂ := S50000) 0 _ _
    concatenates_S600000_S50000_S650000_d0 (ix1 e) rfl rfl (ix1 (⟨e.val - 600000, hlt⟩ : Fin 50000))
    (fun b hb => absurd (Fin.ext (by have hb1 : b.val < 1 := b.isLt; show b.val = 0; omega)) hb)
    (by show e.val - 600000 + 600000 = e.val; omega)]
  rw [val_main_v0_apply]

/-- Every source word of the edge list, read signed, is a node number 0 … 49999 when every given entry is. -/
theorem srcW_range (x1 : (⟨S2x600000, .i32⟩ : BufTy).Contents (Elt Ideal))
    (hr : ∀ i : S2x600000.Idx, 0 ≤ (x1 i).toInt ∧ (x1 i).toInt < 50000) (e : Fin 650000) :
    0 ≤ (Cert.RefValue.srcW x1 e).toInt ∧ (Cert.RefValue.srcW x1 e).toInt < 50000 := by
  by_cases he : e.val < 600000
  · -- a given entry: in range by hypothesis
    rw [srcW_left x1 e he]
    exact hr _
  · -- a self-loop: the word of a number below 50000 reads as that number
    have hge : 600000 ≤ e.val := Nat.not_lt.1 he
    have hlt : e.val - 600000 < 50000 := by have := e.isLt; omega
    rw [srcW_right x1 e hge,
      Idealize.ShloMosaic.StableHlo.Predicate.toInt_ofNat_small (e.val - 600000) (by omega)]
    constructor
    · exact Int.natCast_nonneg _
    · exact_mod_cast hlt

end Cert.SrcRange

end
-- ==== Proof.Bridge.lean ====
/-
  The kernel program's result, entry by entry: the two-layer graph convolution of `Cert.Spec.out`.

  Put together from the regions' results (each dense layer's rows times weights; each aggregation's layer norm of its sums),
  the contents along the run (which array each region finds), the host stretches' arrays (the padded edge list and feature
  array) and the comparison-matrix bridge: where every source word of the edge list is a node number, the kernel's padded
  sums at a node below 50000 are the reference's aggregation, so row by row the two programs agree.
-/
import proofs.«421162_j50672024158728_1_alg».proof.Proof.KChain
import proofs.«421162_j50672024158728_1_alg».proof.Proof.KHost
import proofs.«421162_j50672024158728_1_alg».proof.Proof.KLin
import proofs.«421162_j50672024158728_1_alg».proof.Proof.KLn
import proofs.«421162_j50672024158728_1_alg».proof.Proof.KAgg1F
import proofs.«421162_j50672024158728_1_alg».proof.Proof.KAgg3F
import proofs.«421162_j50672024158728_1_alg».proof.Proof.BridgeMath
import proofs.«421162_j50672024158728_1_alg».proof.Proof.RefValue
import proofs.«421162_j50672024158728_1_alg».proof.Proof.SrcRange
import proofs.«421162_j50672024158728_1_alg».proof.Proof.Spec

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The arguments at their literal types. -/
abbrev aW1 (c : Dev nD) : Vec Ideal S128x128 .f32 := m ((c : Thread nD τ).loc main_arg2)
abbrev ab1 (c : Dev nD) : Vec Ideal S128 .f32 := m ((c : Thread nD τ).loc main_arg3)
abbrev ag1 (c : Dev nD) : Vec Ideal S128 .f32 := m ((c : Thread nD τ).loc main_arg4)
abbrev abe1 (c : Dev nD) : Vec Ideal S128 .f32 := m ((c : Thread nD τ).loc main_arg5)
abbrev aW2 (c : Dev nD) : Vec Ideal S128x128 .f32 := m ((c : Thread nD τ).loc main_arg6)
abbrev ab2 (c : Dev nD) : Vec Ideal S128 .f32 := m ((c : Thread nD τ).loc main_arg7)
abbrev ag2 (c : Dev nD) : Vec Ideal S128 .f32 := m ((c : Thread nD τ).loc main_arg8)
abbrev abe2 (c : Dev nD) : Vec Ideal S128 .f32 := m ((c : Thread nD τ).loc main_arg9)

/-- Rows of a feature array, of a weight matrix, and a feature vector, as the specification takes them. -/
abbrev frows (c : Dev nD) : Fin 50000 → Cert.Spec.Row := fun r k => Cert.KHost.xin m c (ix2 r k)
abbrev wrows (W : Vec Ideal S128x128 .f32) : Fin 128 → Cert.Spec.Row := fun a k => W (ix2 a k)
abbrev vrow (b : Vec Ideal S128 .f32) : Cert.Spec.Row := fun k => b (ix1 k)

/-- The edge list as both programs compute it from the index array. -/
abbrev esrc (c : Dev nD) : Fin 650000 → BitVec 32 := Cert.RefValue.srcW (Cert.KHost.ei m c)
abbrev edst (c : Dev nD) : Fin 650000 → BitVec 32 := Cert.RefValue.dstW (Cert.KHost.ei m c)
abbrev ewt (c : Dev nD) : Fin 650000 → EReal := Cert.RefValue.wtOf (Cert.KHost.ei m c)

/-- A padded node row from a node number. -/
abbrev prow (v : Fin 50000) : Fin 50176 := ⟨v.val, by omega⟩

/-- Every entry of the given edge list, read signed, is a node number. -/
abbrev InRange (c : Dev nD) : Prop := ∀ i : S2x600000.Idx, 0 ≤ (Cert.KHost.ei m c i).toInt ∧ (Cert.KHost.ei m c i).toInt < 50000

variable (c : Dev nD)

/-- The padded edge list the regions read, entry by entry. -/
abbrev pSRC : Fin 650240 → BitVec 32 := fun E => Cert.KHost.srcArr m ρ c (ix2 0 E)
abbrev pDST : Fin 650240 → BitVec 32 := fun E => Cert.KHost.dstArr m ρ c (ix2 0 E)
abbrev pNRM : Fin 650240 → EReal := fun E => Cert.KHost.nrmArr m ρ c (ix2 0 E)

/-- THE SUMS OF AN AGGREGATION REGION at a node below 50000: the reference's aggregation of the rows `h`, when the region's
    feature array `H` holds `h` in its first 50000 rows. -/
theorem sums_eq (hr : InRange m c) (H : Vec Ideal S50176x128 .bf16) (h : Fin 50000 → Cert.Spec.Row)
    (hH : ∀ (r : Fin 50000) (k : Fin 128), H (ix2 (prow r) k) = h r k) (v : Fin 50000) (k : Fin 128) :
    (∑ E : Fin 650240, (if Cert.KHost.dstArr m ρ c (ix2 0 E) = BitVec.ofNat 32 v.val then (1 : EReal) else 0)
      * (Cert.BridgeMath.gsel (N := 50176) (fun r k => H (ix2 r k)) (Cert.KHost.srcArr m ρ c (ix2 0 E)) k * Cert.KHost.nrmArr m ρ c (ix2 0 E)))
      = Cert.Spec.agg h (Cert.Spec.srow (esrc m c)) (edst m c) (ewt m c) v k :=
  Cert.BridgeMath.agg_bridge (pSRC m ρ c) (pDST m ρ c) (pNRM m ρ c) (esrc m c) (edst m c) (ewt m c)
    (fun e => Cert.KHost.src_real m ρ c e) (fun e => Cert.KHost.dst_real m ρ c e) (fun e => Cert.KHost.nrm_real m ρ c e)
    (fun E hE => Cert.KHost.dst_pad m ρ c E hE)
    (fun e => Cert.SrcRange.srcW_range (Cert.KHost.ei m c) hr e)
    (fun r k => H (ix2 r k)) h (fun r => funext fun k => hH r k) v k

/-- The first dense layer's output, in its first 50000 rows: the input rows times the first weights. -/
theorem lin0_rows (r : Fin 50000) (k : Fin 128) :
    Cert.KernelIdeal.KLin.res0 (V4 m ρ) c (ix2 (prow r) k) = Cert.Spec.lin (frows m c) (wrows (aW1 m c)) r k := by
  rw [Cert.KernelIdeal.KLin.lin0_final]
  unfold Cert.Spec.lin
  refine Finset.sum_congr rfl fun k' _ => ?_
  have e1 : Cert.KernelIdeal.KLin.xin0 (V4 m ρ) c (ix2 (prow r) k') = Cert.KHost.xin m c (ix2 r k') := Cert.KHost.xpad_real m ρ c r k'
  have e2 : Cert.KernelIdeal.KLin.wts0 (V4 m ρ) c = aW1 m c := Cert.KernelIdeal.KChain.v4_arg2 m ρ c
  rw [e1, e2]

/-- The first aggregation's output, in its first 50000 rows: the specification's first layer. -/
theorem layer1_rows (hr : InRange m c) (v : Fin 50000) (k : Fin 128) :
    Cert.KernelIdeal.KAgg1.res1 (V5 m ρ) c (ix2 (prow v) k)
      = Cert.Spec.layer1 (frows m c) (wrows (aW1 m c)) (vrow (ab1 m c)) (vrow (ag1 m c)) (vrow (abe1 m c)) (esrc m c) (edst m c) (ewt m c) v k := by
  rw [Cert.KernelIdeal.KAgg1.agg1_final, Cert.KernelIdeal.KLn.ln1_apply]
  have eb : Cert.KernelIdeal.KAgg1.bA1 (V5 m ρ) c = ab1 m c := Cert.KernelIdeal.KChain.v5_arg3 m ρ c
  have eg : Cert.KernelIdeal.KAgg1.gA1 (V5 m ρ) c = ag1 m c := Cert.KernelIdeal.KChain.v5_arg4 m ρ c
  have ebe : Cert.KernelIdeal.KAgg1.beA1 (V5 m ρ) c = abe1 m c := Cert.KernelIdeal.KChain.v5_arg5 m ρ c
  have es : Cert.KernelIdeal.KAgg1.srcA1 (V5 m ρ) c = Cert.KHost.srcArr m ρ c := Cert.KernelIdeal.KChain.v5_v38 m ρ c
  have ed : Cert.KernelIdeal.KAgg1.dstA1 (V5 m ρ) c = Cert.KHost.dstArr m ρ c := Cert.KernelIdeal.KChain.v5_v39 m ρ c
  have en : Cert.KernelIdeal.KAgg1.nrmA1 (V5 m ρ) c = Cert.KHost.nrmArr m ρ c := Cert.KernelIdeal.KChain.v5_v40 m ρ c
  have eh : Cert.KernelIdeal.KAgg1.hA1 (V5 m ρ) c = Cert.KernelIdeal.KLin.res0 (V4 m ρ) c := Cert.KernelIdeal.KChain.v5_v42 m ρ c
  rw [eb, eg, ebe, es, ed, en, eh]
  unfold Cert.Spec.layer1 Cert.Spec.pre
  refine congrArg (fun y => Cert.Spec.lnReluRow y (vrow (ag1 m c)) (vrow (abe1 m c)) k) (funext fun k' => ?_)
  refine congrArg (· + ab1 m c (ix1 k')) ?_
  exact sums_eq m ρ c hr (Cert.KernelIdeal.KLin.res0 (V4 m ρ) c) _ (fun r k'' => lin0_rows m ρ c r k'') v k'

/-- The second dense layer's output, in its first 50000 rows: the first layer's rows times the second weights. -/
theorem lin2_rows (hr : InRange m c) (r : Fin 50000) (k : Fin 128) :
    Cert.KernelIdeal.KLin.res2 (V6 m ρ) c (ix2 (prow r) k)
      = Cert.Spec.lin (Cert.Spec.layer1 (frows m c) (wrows (aW1 m c)) (vrow (ab1 m c)) (vrow (ag1 m c)) (vrow (abe1 m c)) (esrc m c) (edst m c) (ewt m c))
          (wrows (aW2 m c)) r k := by
  rw [Cert.KernelIdeal.KLin.lin2_final]
  unfold Cert.Spec.lin
  refine Finset.sum_congr rfl fun k' _ => ?_
  have e1 : Cert.KernelIdeal.KLin.xin2 (V6 m ρ) c = Cert.KernelIdeal.KAgg1.res1 (V5 m ρ) c := Cert.KernelIdeal.KChain.v6_v43 m ρ c
  have e2 : Cert.KernelIdeal.KLin.wts2 (V6 m ρ) c = aW2 m c := Cert.KernelIdeal.KChain.v6_arg6 m ρ c
  rw [e1, e2, layer1_rows m ρ c hr r k']

/-- The second aggregation's output, in its first 50000 rows: the specification's output. -/
theorem out_rows (hr : InRange m c) (v : Fin 50000) (j : Fin 128) :
    Cert.KernelIdeal.KAgg3.res3 (V7 m ρ) c (ix2 (prow v) j)
      = Cert.Spec.out (frows m c) (wrows (aW1 m c)) (vrow (ab1 m c)) (vrow (ag1 m c)) (vrow (abe1 m c))
          (wrows (aW2 m c)) (vrow (ab2 m c)) (vrow (ag2 m c)) (vrow (abe2 m c)) (esrc m c) (edst m c) (ewt m c) v j := by
  rw [Cert.KernelIdeal.KAgg3.agg3_final, Cert.KernelIdeal.KLn.ln3_apply]
  have eb : Cert.KernelIdeal.KAgg3.bA3 (V7 m ρ) c = ab2 m c := Cert.KernelIdeal.KChain.v7_arg7 m ρ c
  have eg : Cert.KernelIdeal.KAgg3.gA3 (V7 m ρ) c = ag2 m c := Cert.KernelIdeal.KChain.v7_arg8 m ρ c
  have ebe : Cert.KernelIdeal.KAgg3.beA3 (V7 m ρ) c = abe2 m c := Cert.KernelIdeal.KChain.v7_arg9 m ρ c
  have es : Cert.KernelIdeal.KAgg3.srcA3 (V7 m ρ) c = Cert.KHost.srcArr m ρ c := Cert.KernelIdeal.KChain.v7_v38 m ρ c
  have ed : Cert.KernelIdeal.KAgg3.dstA3 (V7 m ρ) c = Cert.KHost.dstArr m ρ c := Cert.KernelIdeal.KChain.v7_v39 m ρ c
  have en : Cert.KernelIdeal.KAgg3.nrmA3 (V7 m ρ) c = Cert.KHost.nrmArr m ρ c := Cert.KernelIdeal.KChain.v7_v40 m ρ c
  have eh : Cert.KernelIdeal.KAgg3.hA3 (V7 m ρ) c = Cert.KernelIdeal.KLin.res2 (V6 m ρ) c := Cert.KernelIdeal.KChain.v7_v44 m ρ c
  rw [eb, eg, ebe, es, ed, en, eh]
  unfold Cert.Spec.out Cert.Spec.pre
  refine congrArg (fun y => Cert.Spec.lnRow y (vrow (ag2 m c)) (vrow (abe2 m c)) j) (funext fun k' => ?_)
  refine congrArg (· + ab2 m c (ix1 k')) ?_
  exact sums_eq m ρ c hr (Cert.KernelIdeal.KLin.res2 (V6 m ρ) c) _ (fun r k'' => lin2_rows m ρ c hr r k'') v k'

/-- THE KERNEL PROGRAM'S RESULT, entry by entry. -/
theorem kernel_out (hr : InRange m c) (v : Fin 50000) (j : Fin 128) :
    (W9 m ρ c (Proc.devRef .tc main_v46) : Vec Ideal S50000x128 .f32) (ix2 v j)
      = Cert.Spec.out (frows m c) (wrows (aW1 m c)) (vrow (ab1 m c)) (vrow (ag1 m c)) (vrow (abe1 m c))
          (wrows (aW2 m c)) (vrow (ab2 m c)) (vrow (ag2 m c)) (vrow (abe2 m c)) (esrc m c) (edst m c) (ewt m c) v j := by
  rw [Cert.KernelIdeal.KChain.w9_v46, ← out_rows m ρ c hr v j]
  unfold extractStridedSlice
  refine congrArg (Cert.KernelIdeal.KAgg3.res3 (V7 m ρ) c) (funext fun a => Fin.ext ?_)
  match a with
  | ⟨0, _⟩ => show 0 + v.val = v.val; omega
  | ⟨1, _⟩ => show 0 + j.val = j.val; omega

end Cert.Bridge

end
-- ==== Proof.lean ====
/-
  The certificate of a two-layer graph convolution: a Pallas kernel program (two dense layers x·W and two aggregation kernels
  that gather and scatter rows by comparison matrices over a padded edge list, with the bias, layer norm and rectifier fused
  in) against the plain jnp reference (gather, weighted scatter-add, bias, layer norm, rectifier between the layers).

  Under the precondition — every float input finite and every entry of the edge list a node number 0 … 49999 — both programs
  compute, at every node and feature, the layer norm of the second layer's aggregated rows over the first layer's output
  (`Cert.Spec.out`). The kernel side is read off the program's run region by region: each dense layer leaves rows times
  weights; each aggregation leaves the layer norm of sums over ALL padded edges of the source row selected by comparison,
  times the edge weight, where the destination word is the row's number; the padding edges carry the destination word 50000
  and so reach no real node. On real edges with source words in range the comparison selects exactly the row the reference
  gathers (after its wrap and clamp), and the destination comparison is the reference's signed test, so the sums agree term
  by term; no law of the extended reals beyond 0·x = 0, 1·x = x and the commutative monoid of + is used. The index range is
  what the precondition's last conjunct states; the finiteness conjuncts are not needed.
-/
import proofs.«421162_j50672024158728_1_alg».proof.Defs
import proofs.«421162_j50672024158728_1_alg».proof.Proof.Gen.Kernel
import proofs.«421162_j50672024158728_1_alg».proof.Proof.Gen.Kernel.Frame
import proofs.«421162_j50672024158728_1_alg».proof.Proof.Gen.KernelIdeal
import proofs.«421162_j50672024158728_1_alg».proof.Proof.Gen.KernelIdeal.Frame
import proofs.«421162_j50672024158728_1_alg».proof.Proof.Gen.ReferenceIdeal
import proofs.«421162_j50672024158728_1_alg».proof.Proof.Gen.Pre_finite_inputs
import proofs.«421162_j50672024158728_1_alg».proof.Proof.KernelIdealRun
import proofs.«421162_j50672024158728_1_alg».proof.Proof.RefRun
import proofs.«421162_j50672024158728_1_alg».proof.Proof.RefRead
import proofs.«421162_j50672024158728_1_alg».proof.Proof.RefValue
import proofs.«421162_j50672024158728_1_alg».proof.Proof.PreRange
import proofs.«421162_j50672024158728_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel program and its idealization run, and leave their arguments as they found them. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments as it found them: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the same result array. -/
theorem algebraic : Cert.algebraic_KernelIdeal_ReferenceIdeal := by
  intro m ρ m' ρ' hpre hagree
  refine ⟨fun c => Cert.KernelIdeal.Gen.W9 m ρ c (Proc.devRef .tc Cert.KernelIdeal.main_v46), Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  have hr : ∀ i : Cert.KernelIdeal.S2x600000.Idx, 0 ≤ (Cert.KHost.ei m c i).toInt ∧ (Cert.KHost.ei m c i).toInt < 50000 :=
    fun i => Cert.PreRange.edge_range _ _ _ _ _ _ _ _ _ _ (hpre c) i
  rw [Cert.ReferenceIdeal.ReadP.val_main_v114_eq]
  obtain ⟨h0, h1, h2, h3, h4, h5, h6, h7, h8, h9⟩ := hagree c
  rw [h0, h1, h2, h3, h4, h5, h6, h7, h8, h9]
  funext i
  obtain ⟨v, j, rfl⟩ : ∃ (v : Fin 50000) (j : Fin 128), i = ix2 v j := ⟨i 0, i 1, eq_ix2 i⟩
  rw [Cert.RefValue.ref_out]
  exact (Cert.Bridge.kernel_out m ρ c hr v j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
